-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![256]⟩ ⟨1, ![1024]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 256]⟩ ⟨2, ![512, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S256 : Shape := ⟨1, ![256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S512x256 .f32) (main_arg1 : FVec F S256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  main_v8
-- ==== Pre_finite_inputs_ReferenceIdeal.lean ====
abbrev S512x1024 : Shape := ⟨2, ![512, 1024]⟩
abbrev S1024 : Shape := ⟨1, ![1024]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S512x1024 .f32) (main_arg1 : FVec F S1024 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Kernel.lean ====
abbrev S512x256 : Shape := ⟨2, ![512, 256]⟩
abbrev S256 : Shape := ⟨1, ![256]⟩
abbrev S4x1x512 : Shape := ⟨3, ![4, 1, 512]⟩
abbrev S4 : Shape := ⟨1, ![4]⟩
abbrev S_ : Shape := ⟨0, ![]⟩
abbrev S512 : Shape := ⟨1, ![512]⟩
abbrev S512x1 : Shape := ⟨2, ![512, 1]⟩
abbrev S1x512 : Shape := ⟨2, ![1, 512]⟩
abbrev S1x1x512 : Shape := ⟨3, ![1, 1, 512]⟩
abbrev S1 : Shape := ⟨1, ![1]⟩
abbrev S1x256 : Shape := ⟨2, ![1, 256]⟩

abbrev nBuf : Space → Nat
  | .hbm => 3
  | .vmem => 4
  | .smem => 0
  | _ => 0

abbrev bufTy : (tb : Table) → Fin (tcTables nBuf tb) → BufTy
  | .hbm, ⟨0, _⟩ => ⟨S512x256, .f32⟩
  | .hbm, ⟨1, _⟩ => ⟨S256, .f32⟩
  | .hbm, ⟨2, _⟩ => ⟨S512x256, .f32⟩
  | .local _ .vmem, ⟨0, _⟩ => ⟨S512x256, .f32⟩
  | .local _ .vmem, ⟨1, _⟩ => ⟨S256, .f32⟩
  | .local _ .vmem, ⟨2, _⟩ => ⟨S512x256, .f32⟩
  | .local _ .vmem, ⟨3, _⟩ => ⟨S4x1x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_32 : BitVec 32 := 2#32
  let v52 : BitVec 32 := Scalar.addi v2 c2_i32_32
  let c4_i32_33 : BitVec 32 := 4#32
  let c0_i32_34 : BitVec 32 := 0#32
  let v53 : BitVec 1 := Scalar.cmpi .eq c4_i32_33 c0_i32_34
  let c1_i32_35 : BitVec 32 := 1#32
  let v54 : BitVec 32 := Scalar.select v53 c1_i32_35 c4_i32_33
  let v55 : BitVec 32 := Scalar.remsi v52 v54
  let c0_i32_37 : BitVec 32 := 0#32
  let v57 : BitVec 1 := Scalar.cmpi .slt v55 c0_i32_37
  let c0_i32_38 : BitVec 32 := 0#32
  let v58 : BitVec 1 := Scalar.cmpi .slt v54 c0_i32_38
  let v59 : BitVec 1 := Scalar.xori v57 v58
  let c0_i32_36 : BitVec 32 := 0#32
  let v56 : BitVec 1 := Scalar.cmpi .ne v55 c0_i32_36
  let v60 : BitVec 1 := Scalar.andi v59 v56
  let v61 : BitVec 32 := Scalar.addi v55 v54
  let v62 : BitVec 32 := Scalar.select v60 v61 v55
  let c1_i32_43 : BitVec 32 := 1#32
  let v63 : BitVec 32 := Scalar.muli v62 c1_i32_43
  let v64 : BitVec 32 := Scalar.addi c0_i32_44 v63
  v64.toNat
def k0_dev5 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_49 : BitVec 32 := 1#32
  let v73 : BitVec 32 := Scalar.addi v2 c1_i32_49
  let c4_i32_50 : BitVec 32 := 4#32
  let c0_i32_51 : BitVec 32 := 0#32
  let v74 : BitVec 1 := Scalar.cmpi .eq c4_i32_50 c0_i32_51
  let c1_i32_52 : BitVec 32 := 1#32
  let v75 : BitVec 32 := Scalar.select v74 c1_i32_52 c4_i32_50
  let v76 : BitVec 32 := Scalar.remsi v73 v75
  let c0_i32_54 : BitVec 32 := 0#32
  let v78 : BitVec 1 := Scalar.cmpi .slt v76 c0_i32_54
  let c0_i32_55 : BitVec 32 := 0#32
  let v79 : BitVec 1 := Scalar.cmpi .slt v75 c0_i32_55
  let v80 : BitVec 1 := Scalar.xori v78 v79
  let c0_i32_53 : BitVec 32 := 0#32
  let v77 : BitVec 1 := Scalar.cmpi .ne v76 c0_i32_53
  let v81 : BitVec 1 := Scalar.andi v80 v77
  let v82 : BitVec 32 := Scalar.addi v76 v75
  let v83 : BitVec 32 := Scalar.select v81 v82 v76
  let c1_i32_60 : BitVec 32 := 1#32
  let v84 : BitVec 32 := Scalar.muli v83 c1_i32_60
  let v85 : BitVec 32 := Scalar.addi c0_i32_61 v84
  v85.toNat
def k0_dev6 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_66 : BitVec 32 := 3#32
  let v94 : BitVec 32 := Scalar.addi v2 c3_i32_66
  let c4_i32_67 : BitVec 32 := 4#32
  let c0_i32_68 : BitVec 32 := 0#32
  let v95 : BitVec 1 := Scalar.cmpi .eq c4_i32_67 c0_i32_68
  let c1_i32_69 : BitVec 32 := 1#32
  let v96 : BitVec 32 := Scalar.select v95 c1_i32_69 c4_i32_67
  let v97 : BitVec 32 := Scalar.remsi v94 v96
  let c0_i32_71 : BitVec 32 := 0#32
  let v99 : BitVec 1 := Scalar.cmpi .slt v97 c0_i32_71
  let c0_i32_72 : BitVec 32 := 0#32
  let v100 : BitVec 1 := Scalar.cmpi .slt v96 c0_i32_72
  let v101 : BitVec 1 := Scalar.xori v99 v100
  let c0_i32_70 : BitVec 32 := 0#32
  let v98 : BitVec 1 := Scalar.cmpi .ne v97 c0_i32_70
  let v102 : BitVec 1 := Scalar.andi v101 v98
  let v103 : BitVec 32 := Scalar.addi v97 v96
  let v104 : BitVec 32 := Scalar.select v102 v103 v97
  let c1_i32_77 : BitVec 32 := 1#32
  let v105 : BitVec 32 := Scalar.muli v104 c1_i32_77
  let v106 : BitVec 32 := Scalar.addi c0_i32_78 v105
  v106.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S512 : S512x256.Reduces [1] S512
  shapeCasts_S512_S512x1 : S512.ShapeCasts S512x1
  shapeCasts_S512x1_S1x512 : S512x1.ShapeCasts S1x512
  inb_S4x1x512_S1x1x512_0_0_0 : ∀ a, (![0, 0, 0] : Fin 3 → Nat) a + S1x1x512.size a ≤ S4x1x512.size a
  h_S1x1x512 : 0 < S1x1x512.numel
  shapeCasts_S1x1x512_S1x512 : S1x1x512.ShapeCasts S1x512
  shapeCasts_S1x512_S1x1x512 : S1x512.ShapeCasts S1x1x512
  hamt_3 : (3#32 : BitVec 32).msb = false
  inb_S4_S1_2 : ∀ a, (![2] : Fin 1 → Nat) a + S1.size a ≤ S4.size a
  squeezes_S1_S_ : S1.Squeezes S_
  inb_S4x1x512_S1x1x512_2_0_0 : ∀ a, (![2, 0, 0] : Fin 3 → Nat) a + S1x1x512.size a ≤ S4x1x512.size a
  squeezes_S1x1x512_S1x512 : S1x1x512.Squeezes S1x512
  inb_S4_S1_1 : ∀ a, (![1] : Fin 1 → Nat) a + S1.size a ≤ S4.size a
  inb_S4x1x512_S1x1x512_1_0_0 : ∀ a, (![1, 0, 0] : Fin 3 → Nat) a + S1x1x512.size a ≤ S4x1x512.size a
  inb_S4_S1_3 : ∀ a, (![3] : Fin 1 → Nat) a + S1.size a ≤ S4.size a
  inb_S4x1x512_S1x1x512_3_0_0 : ∀ a, (![3, 0, 0] : Fin 3 → Nat) a + S1x1x512.size a ≤ S4x1x512.size a
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S512x256 : S1x256.Broadcasts S512x256
  shapeCasts_S1x512_S512x1 : S1x512.ShapeCasts S512x1
  broadcasts_S512x1_S512x256 : S512x1.Broadcasts S512x256
  hcc0_scratch1 : 3 + S4.numel ≤ 11
  hcc0_scratch2 : 7 + S4.numel ≤ 11
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  hstage0_0 : ∀ j, (stage0_0 j).IsWhole
  hstage0_1 : ∀ j, (stage0_1 j).IsWhole
  hstage0_2 : ∀ j, (stage0_2 j).IsWhole

variable [Facts₀]

abbrev cc0_scratch1 : DmaSems sig S4 := SemArray.consecutive 3 S4 hcc0_scratch1
abbrev cc0_scratch2 : DmaSems sig S4 := SemArray.consecutive 7 S4 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S512x1024 : Shape := ⟨2, ![512, 1024]⟩
abbrev S1024 : Shape := ⟨1, ![1024]⟩
abbrev S_ : Shape := ⟨0, ![]⟩
abbrev S512 : Shape := ⟨1, ![512]⟩
abbrev S512x1 : Shape := ⟨2, ![512, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S512x1024, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S_, .f32⟩
  | .hbm, ⟨7, _⟩ => ⟨S512x1, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S512x1, .f32⟩
  | .hbm, ⟨13, _⟩ => ⟨S1x1024, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S512x1024_S512_d1 : S512x1024.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  bcast_S512x1_S512x1024_0_1 : S512x1.BroadcastsInDim S512x1024 (![0, 1] : Fin 2 → Fin S512x1024.rank)

variable [Facts₀]

class Facts : Prop extends Facts₀ where

variable [Facts]
-- ==== Proof.Kernel.Geom.lean ====
/-
  Four devices hold 256 of the 1024 columns each. A device squares and sums its columns row by row, puts the 512 sums in
  slot 0 of a four-slot buffer, and sends slot 0 to slot k of device c + k (k = 1, 2, 3): afterwards slot k of device c holds
  the sums of device c - k, and the four slots add up to the row's sum of squares over all 1024 columns.
  This module names the devices around the mesh, the buffers and their four slots, the semaphores, and the buffer's final contents.
-/
import proofs.«901008_g7700000000001009_dist_rmsnorm_colshard_i_m512_n256_v7x_i4_bf16_1_alg».proof.Proof.Gen.Kernel
import proofs.«901008_g7700000000001009_dist_rmsnorm_colshard_i_m512_n256_v7x_i4_bf16_1_alg».proof.Proof.Gen.Kernel.Skeleton
import proofs.«901008_g7700000000001009_dist_rmsnorm_colshard_i_m512_n256_v7x_i4_bf16_1_alg».proof.Proof.Gen.Kernel.Launch
import proofs.«901008_g7700000000001009_dist_rmsnorm_colshard_i_m512_n256_v7x_i4_bf16_1_alg».proof.Proof.Gen.Kernel.Points
import Idealize.ShloMosaic.Lib.Pipeline.Launch
import Idealize.ShloMosaic.Lib.Pipeline.Kit
import Idealize.ShloMosaic.Lib.Pipeline.Regions
import Idealize.ShloMosaic.Lib.Pipeline.Value
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The mesh -/

/-- Device `c + k` around the mesh of four. -/
def shift (c : Dev nD) (k : ℕ) : Dev nD := ⟨(c.val + k) % 4, Nat.mod_lt _ (by decide)⟩

theorem shift_zero (c : Dev nD) : shift c 0 = c := by revert c; decide
theorem shift_four (c : Dev nD) : shift c 4 = c := by revert c; decide
theorem shift_shift (c : Dev nD) (j k : ℕ) : shift (shift c j) k = shift c (j + k) := by
  apply Fin.ext; simp only [shift]; omega
theorem shift_ne (c : Dev nD) (k : ℕ) (h1 : 0 < k) (h4 : k < 4) : shift c k ≠ c := by
  intro h; have := congrArg Fin.val h; simp only [shift] at this; omega

theorem k0_dev1_eq : ∀ c : Dev nD, k0_dev1 c = (c.val + 1) % 4 := by decide +kernel
theorem k0_dev2_eq : ∀ c : Dev nD, k0_dev2 c = (c.val + 2) % 4 := by decide +kernel
theorem k0_dev3_eq : ∀ c : Dev nD, k0_dev3 c = (c.val + 3) % 4 := by decide +kernel
theorem k0_dev4_eq : ∀ c : Dev nD, k0_dev4 c = (c.val + 2) % 4 := by decide +kernel
theorem k0_dev5_eq : ∀ c : Dev nD, k0_dev5 c = (c.val + 1) % 4 := by decide +kernel
theorem k0_dev6_eq : ∀ c : Dev nD, k0_dev6 c = (c.val + 3) % 4 := by decide +kernel

/-- The three signals name `c + 1`, `c + 2`, `c + 3`; the three copies `c + 2`, `c + 1`, `c + 3`. -/
theorem dev1_eq (c : Dev nD) : (⟨k0_dev1 c, k0_dev1_lt c⟩ : Dev nD) = shift c 1 := Fin.ext (k0_dev1_eq c)
theorem dev2_eq (c : Dev nD) : (⟨k0_dev2 c, k0_dev2_lt c⟩ : Dev nD) = shift c 2 := Fin.ext (k0_dev2_eq c)
theorem dev3_eq (c : Dev nD) : (⟨k0_dev3 c, k0_dev3_lt c⟩ : Dev nD) = shift c 3 := Fin.ext (k0_dev3_eq c)
theorem dev4_eq (c : Dev nD) : (⟨k0_dev4 c, k0_dev4_lt c⟩ : Dev nD) = shift c 2 := Fin.ext (k0_dev4_eq c)
theorem dev5_eq (c : Dev nD) : (⟨k0_dev5 c, k0_dev5_lt c⟩ : Dev nD) = shift c 1 := Fin.ext (k0_dev5_eq c)
theorem dev6_eq (c : Dev nD) : (⟨k0_dev6 c, k0_dev6_lt c⟩ : Dev nD) = shift c 3 := Fin.ext (k0_dev6_eq c)

/-! ## The buffers -/

abbrev xM : Memref sig .tc .vmem S512x256 .f32 := Memref.whole cc0_stg0_0
abbrev gM : Memref sig .tc .vmem S256 .f32 := Memref.whole cc0_stg1_0
abbrev oM : Memref sig .tc .vmem S512x256 .f32 := Memref.whole cc0_stg2_0
abbrev rM : Memref sig .tc .vmem S4x1x512 .f32 := Memref.whole cc0_scratch0

/-- The rectangle of slot `k` in the four-slot buffer. -/
abbrev rect0 : Rect S4x1x512 := Rect.unit (s := S4x1x512) ![0, 0, 0] S1x1x512.size inb_S4x1x512_S1x1x512_0_0_0
abbrev rect1 : Rect S4x1x512 := Rect.unit (s := S4x1x512) ![1, 0, 0] S1x1x512.size inb_S4x1x512_S1x1x512_1_0_0
abbrev rect2 : Rect S4x1x512 := Rect.unit (s := S4x1x512) ![2, 0, 0] S1x1x512.size inb_S4x1x512_S1x1x512_2_0_0
abbrev rect3 : Rect S4x1x512 := Rect.unit (s := S4x1x512) ![3, 0, 0] S1x1x512.size inb_S4x1x512_S1x1x512_3_0_0

/-- Slot `k` as the copies see it: a row of 512. -/
abbrev slot0 : Memref sig .tc .vmem S1x512 .f32 := (rM.slice rect0 (fun _ => rfl)).squeeze S1x512 squeezes_S1x1x512_S1x512
abbrev slot1 : Memref sig .tc .vmem S1x512 .f32 := (rM.slice rect1 (fun _ => rfl)).squeeze S1x512 squeezes_S1x1x512_S1x512
abbrev slot2 : Memref sig .tc .vmem S1x512 .f32 := (rM.slice rect2 (fun _ => rfl)).squeeze S1x512 squeezes_S1x1x512_S1x512
abbrev slot3 : Memref sig .tc .vmem S1x512 .f32 := (rM.slice rect3 (fun _ => rfl)).squeeze S1x512 squeezes_S1x1x512_S1x512

/-- The elements of slot `k`: those whose first coordinate is `k`. -/
def slotSet (c : Dev nD) (k : Fin 4) : Finset (Idx ((c : Thread nD τ).loc cc0_scratch0)) :=
  Finset.univ.filter fun i => (i 0).val = k.val

/-! ## The semaphores -/

abbrev barS : Sem sig := (SemArray.scalar (sig.barrier 0 rfl) : Sems sig S_).sem
abbrev snd1 : DmaSems sig S_ := (cc0_scratch1.slice (Rect.unit (s := S4) ![1] S1.size inb_S4_S1_1)).squeeze S_ squeezes_S1_S_
abbrev snd2 : DmaSems sig S_ := (cc0_scratch1.slice (Rect.unit (s := S4) ![2] S1.size inb_S4_S1_2)).squeeze S_ squeezes_S1_S_
abbrev snd3 : DmaSems sig S_ := (cc0_scratch1.slice (Rect.unit (s := S4) ![3] S1.size inb_S4_S1_3)).squeeze S_ squeezes_S1_S_
abbrev rcv1 : DmaSems sig S_ := (cc0_scratch2.slice (Rect.unit (s := S4) ![1] S1.size inb_S4_S1_1)).squeeze S_ squeezes_S1_S_
abbrev rcv2 : DmaSems sig S_ := (cc0_scratch2.slice (Rect.unit (s := S4) ![2] S1.size inb_S4_S1_2)).squeeze S_ squeezes_S1_S_
abbrev rcv3 : DmaSems sig S_ := (cc0_scratch2.slice (Rect.unit (s := S4) ![3] S1.size inb_S4_S1_3)).squeeze S_ squeezes_S1_S_

/-- Copy `o` (`o = 0, 1, 2`) goes `o + 1` devices on, into slot `o + 1` there; its send and receive semaphores. -/
abbrev sndSem : Fin 3 → DmaSem sig := fun | 0 => snd1.sem | 1 => snd2.sem | 2 => snd3.sem
abbrev rcvSem : Fin 3 → DmaSem sig := fun | 0 => rcv1.sem | 1 => rcv2.sem | 2 => rcv3.sem

theorem sndSem_val : ∀ o : Fin 3, (sndSem o).val = 4 + o.val := by decide
theorem rcvSem_val : ∀ o : Fin 3, (rcvSem o).val = 8 + o.val := by decide

abbrev barCell (c : Dev nD) : GSem nD τ sig := ((c : Thread nD τ), .reg barS)
abbrev sendCell (c : Dev nD) (o : Fin 3) : GSem nD τ sig := ((c : Thread nD τ), .dma (sndSem o))
abbrev recvCell (c : Dev nD) (o : Fin 3) : GSem nD τ sig := ((c : Thread nD τ), .dma (rcvSem o))

end Cert.KernelProof

end
-- ==== Proof.Kernel.Sched.lean ====
/-
  The protocol of the exchange, as a schedule of rounds: every semaphore is waited once, in round 0.
  A device's barrier semaphore is signalled one unit by each of the other three; duty `o` of it is the signal of device c + o + 1,
  and hands c what it needs to copy there: slot o + 1 of that device's four-slot buffer, and that the receive semaphore o there
  is open. Receive semaphore o of c is credited by the copy from c - o - 1, which leaves slot o + 1 of c holding that device's
  row sums; send semaphore o of c by c's own copy o, which gives back the share of slot 0 it read.
-/
import proofs.«901008_g7700000000001009_dist_rmsnorm_colshard_i_m512_n256_v7x_i4_bf16_1_alg».proof.Proof.Gen.Kernel
import proofs.«901008_g7700000000001009_dist_rmsnorm_colshard_i_m512_n256_v7x_i4_bf16_1_alg».proof.Proof.Gen.Kernel.Skeleton
import proofs.«901008_g7700000000001009_dist_rmsnorm_colshard_i_m512_n256_v7x_i4_bf16_1_alg».proof.Proof.Gen.Kernel.Launch
import proofs.«901008_g7700000000001009_dist_rmsnorm_colshard_i_m512_n256_v7x_i4_bf16_1_alg».proof.Proof.Gen.Kernel.Points
import Idealize.ShloMosaic.Lib.Pipeline.Launch
import Idealize.ShloMosaic.Lib.Pipeline.Kit
import Idealize.ShloMosaic.Lib.Pipeline.Regions
import Idealize.ShloMosaic.Lib.Pipeline.Value
import Idealize.ShloMosaic.Lib.Tactic
import proofs.«901008_g7700000000001009_dist_rmsnorm_colshard_i_m512_n256_v7x_i4_bf16_1_alg».proof.Proof.Kernel.Geom

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds algebra beside the exchange's own (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Contents -/

/-- Device `c`'s columns of `x` and of `γ`, as staged. -/
def xstg (c : Dev nD) : (cc0_stg0_0 : Ref sig .tc).ty.Contents (Elt F) :=
  (win0_0.blk t0_0).view.read (Elt F) (m ((c : Thread nD τ).loc main_arg0))
def gstg (c : Dev nD) : (cc0_stg1_0 : Ref sig .tc).ty.Contents (Elt F) :=
  (win0_1.blk t0_0).view.read (Elt F) (m ((c : Thread nD τ).loc main_arg1))

/-- The row sums of squares of device `c`'s columns, as the row of 512 it stores in slot 0. -/
def rowSums (c : Dev nD) : FVec F S1x1x512 .f32 := k0_pay2 (xstg m c)

/-- Slot `k` of device `c` ends holding the row sums of device `c - k`. -/
def srcDev (c : Dev nD) (k : Fin 4) : Dev nD := shift c (4 - k.val)

/-- The four-slot buffer of device `c` once every copy has landed. -/
def finalScr (c : Dev nD) : (cc0_scratch0 : Ref sig .tc).ty.Contents (Elt F) := fun i =>
  rowSums m (srcDev c ⟨(i 0).val, (i 0).isLt⟩) (fun a => match a with
    | ⟨0, _⟩ => ⟨0, Nat.one_pos⟩
    | ⟨1, _⟩ => ⟨0, Nat.one_pos⟩
    | ⟨2, _⟩ => ⟨(i 2).val, (i 2).isLt⟩)

/-- What the device stores as its result. -/
def outAt (c : Dev nD) : (cc0_stg2_0 : Ref sig .tc).ty.Contents (Elt F) :=
  k0_pay6 (k0_pay3 (k0_pay1 (xstg m c)) (gstg m c))
    (k0_pay4 (rowSums m c) (rowSums m (shift c 3)) (rowSums m (shift c 2)) (rowSums m (shift c 1))) (k0_pay5 (F := F))

/-! ## Points-tos -/

/-- Slot `k` of device `c`'s four-slot buffer, held at share `q` with the buffer reading `f` there. -/
def slotPts (c : Dev nD) (k : Fin 4) (q : PosShare TreeShare) (f : Buf (Elt F) ((c : Thread nD τ).loc cc0_scratch0)) : sProp 𝕄 :=
  ((c : Thread nD τ).loc cc0_scratch0) ↦[slotSet c k]{q} f

omit [FloatOps F] in
instance slotPts_storable (c : Dev nD) (k : Fin 4) (q) (f) : BI.Storable (upEmb : UEmb _ 𝕄) (slotPts (F := F) c k q f) := by
  unfold slotPts; infer_instance

/-- The four quarters of a slot: one kept by the owner to read through, three lent to its copies. -/
abbrev qKeep : PosShare TreeShare := fullShare.left.left
abbrev qLend : Fin 3 → PosShare TreeShare := fun | 0 => fullShare.left.right | 1 => fullShare.right.left | 2 => fullShare.right.right

/-- The amount one copy credits its two semaphores. -/
abbrev N : ℕ := (slot1 : Memref sig .tc .vmem S1x512 .f32).view.dmaCredit
theorem N_pos : 0 < N := View.dmaCredit_pos _ (by decide)

/-! ## The schedule -/

/-- Slot `o + 1`, as an index of the four. -/
abbrev slotOf (o : Fin 3) : Fin 4 := ⟨o.val + 1, by omega⟩

/-- What device `c + o + 1`'s signal hands `c`: its slot `o + 1`, and that its receive semaphore `o` is open. -/
def barPay (c : Dev nD) (o : Fin 3) : sProp 𝕄 :=
  iprop((∃ f, slotPts (shift c (o.val + 1)) (slotOf o) fullShare f) ∗ reached ER (recvCell (shift c (o.val + 1)) o) 0)
/-- What the copy from `c - o - 1` leaves `c`: its slot `o + 1` holding that device's row sums. -/
def recvPay (c : Dev nD) (o : Fin 3) : sProp 𝕄 := slotPts c (slotOf o) fullShare (finalScr m c)
/-- What `c`'s copy `o` gives back: the quarter of slot 0 it read. -/
def sendPay (c : Dev nD) (o : Fin 3) : sProp 𝕄 := slotPts c 0 (qLend o) (finalScr m c)

/-- The payload of a DMA semaphore by its number: 4, 5, 6 are the send semaphores, 8, 9, 10 the receive ones. -/
def dmaPay (c : Dev nD) (q : DmaSem sig) : sProp 𝕄 :=
  if h : 4 ≤ q.val ∧ q.val ≤ 6 then sendPay m c ⟨q.val - 4, by omega⟩
  else if h : 8 ≤ q.val ∧ q.val ≤ 10 then recvPay m c ⟨q.val - 8, by omega⟩
  else iprop(emp)

abbrev IsBar (g : GSem nD τ sig) : Prop := g.1.2 = .tc ∧ g.2 = .reg barS
abbrev IsXfer (g : GSem nD τ sig) : Prop := g.1.2 = .tc ∧ ∃ o : Fin 3, g.2 = .dma (sndSem o) ∨ g.2 = .dma (rcvSem o)

instance (g : GSem nD τ sig) : Decidable (IsXfer g) := by unfold IsXfer; infer_instance

/-- One round: a barrier semaphore has three duties of one unit; a send or receive semaphore one duty of a copy's credit. -/
def Rd : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d := match g.2 with
    | .reg s => if s = barS then barPay g.1.1 d else iprop(emp)
    | .dma q => dmaPay m g.1.1 q
  amount_pos g _ _ _ := by
    by_cases h : g.2 = .reg barS
    · rw [if_pos h]; exact Nat.one_pos
    · rw [if_neg h]; exact N_pos

instance Rd_payload_storable (g : GSem nD τ sig) (r : ℕ) (d : Fin 3) :
    BI.Storable (upEmb : UEmb _ 𝕄) ((Rd (F := F) m).payload g r d) := by
  show BI.Storable upEmb (match g.2 with
    | .reg s => if s = barS then barPay g.1.1 d else iprop(emp)
    | .dma q => dmaPay m g.1.1 q)
  unfold barPay dmaPay recvPay sendPay
  (repeat' split) <;> infer_instance

section Sched
variable (c : Dev nD) (o : Fin 3)

theorem send_ne_bar : (SemLoc.dma (sndSem o) : SemLoc sig) ≠ .reg barS := fun h => by cases h
theorem recv_ne_bar : (SemLoc.dma (rcvSem o) : SemLoc sig) ≠ .reg barS := fun h => by cases h
theorem not_bar_send : ¬ IsBar (sendCell c o) := fun h => send_ne_bar o h.2
theorem not_bar_recv : ¬ IsBar (recvCell c o) := fun h => recv_ne_bar o h.2
theorem xfer_send : IsXfer (sendCell c o) := ⟨rfl, o, .inl rfl⟩
theorem xfer_recv : IsXfer (recvCell c o) := ⟨rfl, o, .inr rfl⟩

theorem duties_bar : (Rd (F := F) m).duties (barCell c) 0 = Finset.univ := by dsimp only [Rd]; exact if_pos ⟨rfl, rfl, rfl⟩
theorem duties_send : (Rd (F := F) m).duties (sendCell c o) 0 = {0} := by
  dsimp only [Rd]; rw [if_neg (fun h => not_bar_send c o h.2)]; exact if_pos ⟨rfl, xfer_send c o⟩
theorem duties_recv : (Rd (F := F) m).duties (recvCell c o) 0 = {0} := by
  dsimp only [Rd]; rw [if_neg (fun h => not_bar_recv c o h.2)]; exact if_pos ⟨rfl, xfer_recv c o⟩
theorem duties_later (g : GSem nD τ sig) : ∀ r, 1 ≤ r → (Rd (F := F) m).duties g r = ∅ :=
  fun r hr => by dsimp only [Rd]; rw [if_neg fun h => by omega, if_neg fun h => by omega]

theorem amount_bar (d : Fin 3) : (Rd (F := F) m).amount (barCell c) 0 d = 1 := by dsimp only [Rd]; exact if_pos rfl
theorem amount_send (d : Fin 3) : (Rd (F := F) m).amount (sendCell c o) 0 d = N := by dsimp only [Rd]; exact if_neg (send_ne_bar o)
theorem amount_recv (d : Fin 3) : (Rd (F := F) m).amount (recvCell c o) 0 d = N := by dsimp only [Rd]; exact if_neg (recv_ne_bar o)

theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (Rd (F := F) m).expect (sendCell c o) 0 = N := by
  unfold Schedule.expect Schedule.amountOf; rw [duties_send, Finset.sum_singleton, amount_send]
theorem expect_recv : (Rd (F := F) m).expect (recvCell c o) 0 = N := by
  unfold Schedule.expect Schedule.amountOf; rw [duties_recv, Finset.sum_singleton, amount_recv]

theorem payload_bar (d : Fin 3) : (Rd (F := F) m).payload (barCell c) 0 d = barPay c d := by
  dsimp only [Rd]; rw [if_pos rfl]
theorem payload_send (d : Fin 3) : (Rd (F := F) m).payload (sendCell c o) 0 d = sendPay m c o := by
  dsimp only [Rd, dmaPay]; fin_cases o <;> rfl
theorem payload_recv (d : Fin 3) : (Rd (F := F) m).payload (recvCell c o) 0 d = recvPay m c o := by
  dsimp only [Rd, dmaPay]; fin_cases o <;> rfl

/-- The whole of the barrier's round: the three devices' slots and open receive semaphores. -/
theorem rest_bar : bigSep ((Rd (F := F) m).duties (barCell c) 0 \ ∅) (fun d => (Rd (F := F) m).payload (barCell c) 0 d)
    = iprop(barPay c 0 ∗ barPay c 1 ∗ barPay c 2) := by
  rw [Finset.sdiff_empty, duties_bar, bigSep_univ_eq_bigSepL [(0 : Fin 3), 1, 2] (by decide) (by decide), bigSepL_cons_cons, bigSepL_cons_cons, bigSepL_singleton,
    payload_bar, payload_bar, payload_bar]
  rfl
theorem rest_send : bigSep ((Rd (F := F) m).duties (sendCell c o) 0 \ ∅) (fun d => (Rd (F := F) m).payload (sendCell c o) 0 d) = sendPay m c o := by
  rw [Finset.sdiff_empty, duties_send, bigSep_singleton, payload_send]
theorem rest_recv : bigSep ((Rd (F := F) m).duties (recvCell c o) 0 \ ∅) (fun d => (Rd (F := F) m).payload (recvCell c o) 0 d) = recvPay m c o := by
  rw [Finset.sdiff_empty, duties_recv, bigSep_singleton, payload_recv]

end Sched

/-! ## What each device owes at launch; the levels -/

/-- Device `c` owes each other device one unit on its barrier semaphore and a copy's credit on one of its receive semaphores,
    summed so that each step of the body pays the last summand: the signals to `c + 1`, `c + 2`, `c + 3`, then the copies
    to `c + 2`, `c + 1`, `c + 3`. -/
def O₃ (c : Dev nD) : CellTallies nD τ sig Unit := tallyAt (recvCell (shift c 3) 2) () N
def O₄ (c : Dev nD) : CellTallies nD τ sig Unit := O₃ c + tallyAt (recvCell (shift c 1) 0) () N
def O₅ (c : Dev nD) : CellTallies nD τ sig Unit := O₄ c + tallyAt (recvCell (shift c 2) 1) () N
def O₂ (c : Dev nD) : CellTallies nD τ sig Unit := O₅ c + tallyAt (barCell (shift c 3)) () 1
def O₁ (c : Dev nD) : CellTallies nD τ sig Unit := O₂ c + tallyAt (barCell (shift c 2)) () 1
def O₀ (c : Dev nD) : CellTallies nD τ sig Unit := O₁ c + tallyAt (barCell (shift c 1)) () 1

def L (g : GSem nD τ sig) : Finset Unit := if g.1.2 = .tc then {()} else ∅
/-- Barrier semaphores at 1, receive semaphores at 2, everything else (staging, send) at 0. -/
def lv (g : GSem nD τ sig) (_ : Unit) : ℕ := if g.2 = .reg barS then 1 else if ∃ o : Fin 3, g.2 = .dma (rcvSem o) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c : Dev nD) (o : Fin 3) (u : Unit) : lv (recvCell c o) u = 2 := by
  dsimp only [lv]; rw [if_neg (recv_ne_bar o), if_pos ⟨o, rfl⟩]

/-- Everything a device ever owes is on a barrier or a receive semaphore of a TensorCore. -/
theorem O₀_pos {c : Dev nD} {g : GSem nD τ sig} {u : Unit} (h : 0 < O₀ c g u) :
    (∃ d, g = barCell d) ∨ ∃ d o, g = recvCell d o := by
  unfold O₀ O₁ O₂ O₅ O₄ O₃ at h
  simp only [Pi.add_apply, Finsupp.add_apply, tallyAt_apply] at h
  by_contra hn
  rw [not_or] at hn
  have hb : ∀ d, ¬ (g = barCell d ∧ True) := fun d h' => hn.1 ⟨d, h'.1⟩
  have hr : ∀ d o, ¬ (g = recvCell d o ∧ True) := fun d o h' => hn.2 ⟨d, o, h'.1⟩
  rw [if_neg (hr _ _), if_neg (hr _ _), if_neg (hr _ _), if_neg (hb _), if_neg (hb _), if_neg (hb _)] at h
  exact Nat.lt_irrefl 0 h

end Cert.KernelProof

end
-- ==== Proof.Kernel.State.lean ====
/-
  What a device's body holds when it starts and when it ends, and the pipeline's proof data around it.
  At the start: every semaphore's invariant it will open (its own seven, the other three devices' barrier semaphores, and the
  receive semaphore each of its copies credits); its position at round 0 of its own seven; that round 0 is reached where it
  signals or sends; the token of each duty it pays (three barrier signals, three sends, three landings); credit for the waits
  others pay (three units on its barrier, a copy's credit on each receive semaphore); and the four-slot buffer.
  At the end: the buffer back whole and its six own DMA semaphores at zero.
-/
import proofs.«901008_g7700000000001009_dist_rmsnorm_colshard_i_m512_n256_v7x_i4_bf16_1_alg».proof.Proof.Gen.Kernel
import proofs.«901008_g7700000000001009_dist_rmsnorm_colshard_i_m512_n256_v7x_i4_bf16_1_alg».proof.Proof.Gen.Kernel.Skeleton
import proofs.«901008_g7700000000001009_dist_rmsnorm_colshard_i_m512_n256_v7x_i4_bf16_1_alg».proof.Proof.Gen.Kernel.Launch
import proofs.«901008_g7700000000001009_dist_rmsnorm_colshard_i_m512_n256_v7x_i4_bf16_1_alg».proof.Proof.Gen.Kernel.Points
import proofs.«901008_g7700000000001009_dist_rmsnorm_colshard_i_m512_n256_v7x_i4_bf16_1_alg».proof.Proof.Gen.Kernel.Frame
import Idealize.ShloMosaic.Lib.Pipeline.Launch
import Idealize.ShloMosaic.Lib.Pipeline.Kit
import Idealize.ShloMosaic.Lib.Pipeline.Regions
import Idealize.ShloMosaic.Lib.Pipeline.Value
import Idealize.ShloMosaic.Lib.Tactic
import proofs.«901008_g7700000000001009_dist_rmsnorm_colshard_i_m512_n256_v7x_i4_bf16_1_alg».proof.Proof.Kernel.Sched

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The invariants a body opens -/

/-- Under the names `κ`: the device's own barrier, send and receive semaphores, the other devices' barrier semaphores, and the
    receive semaphores its three copies credit. -/
def invs (κ : GSem nD τ sig → ℕ) (c : Dev nD) : sProp 𝕄 :=
  iprop(cellInv ER (Rd m) (κ (barCell c)) (barCell c)
    ∗ cellInv ER (Rd m) (κ (sendCell c 0)) (sendCell c 0) ∗ cellInv ER (Rd m) (κ (sendCell c 1)) (sendCell c 1) ∗ cellInv ER (Rd m) (κ (sendCell c 2)) (sendCell c 2)
    ∗ cellInv ER (Rd m) (κ (recvCell c 0)) (recvCell c 0) ∗ cellInv ER (Rd m) (κ (recvCell c 1)) (recvCell c 1) ∗ cellInv ER (Rd m) (κ (recvCell c 2)) (recvCell c 2)
    ∗ cellInv ER (Rd m) (κ (barCell (shift c 1))) (barCell (shift c 1)) ∗ cellInv ER (Rd m) (κ (barCell (shift c 2))) (barCell (shift c 2)) ∗ cellInv ER (Rd m) (κ (barCell (shift c 3))) (barCell (shift c 3))
    ∗ cellInv ER (Rd m) (κ (recvCell (shift c 1) 0)) (recvCell (shift c 1) 0) ∗ cellInv ER (Rd m) (κ (recvCell (shift c 2) 1)) (recvCell (shift c 2) 1)
    ∗ cellInv ER (Rd m) (κ (recvCell (shift c 3) 2)) (recvCell (shift c 3) 2))

instance invs_persistent (κ : GSem nD τ sig → ℕ) (c : Dev nD) : BI.Persistent (invs m κ c) := by unfold invs; infer_instance

/-- The device's positions at round 0 of its own seven semaphores. -/
def positions (c : Dev nD) : sProp 𝕄 :=
  iprop(atPos ER (barCell c) 0 ∅ 0
    ∗ atPos ER (sendCell c 0) 0 ∅ 0 ∗ atPos ER (sendCell c 1) 0 ∅ 0 ∗ atPos ER (sendCell c 2) 0 ∅ 0
    ∗ atPos ER (recvCell c 0) 0 ∅ 0 ∗ atPos ER (recvCell c 1) 0 ∅ 0 ∗ atPos ER (recvCell c 2) 0 ∅ 0)

/-- Round 0 reached at the three barrier semaphores it signals and at its own six DMA semaphores (those of its receive
    semaphores it hands to the devices that copy into it; those of its send semaphores it pays itself). -/
def reaches (c : Dev nD) : sProp 𝕄 :=
  iprop(reached ER (barCell (shift c 1)) 0 ∗ reached ER (barCell (shift c 2)) 0 ∗ reached ER (barCell (shift c 3)) 0
    ∗ reached ER (sendCell c 0) 0 ∗ reached ER (sendCell c 1) 0 ∗ reached ER (sendCell c 2) 0
    ∗ reached ER (recvCell c 0) 0 ∗ reached ER (recvCell c 1) 0 ∗ reached ER (recvCell c 2) 0)

instance reaches_persistent (c : Dev nD) : BI.Persistent (reaches (F := F) c) := by unfold reaches; infer_instance

/-- The tokens of the duties it pays: duty 2, 1, 0 of the barrier semaphores of `c + 1`, `c + 2`, `c + 3` (its signal to
    `c + j` is what hands that device slot `4 - j` of `c`); its own three send duties; the landing of its copy `o` on receive
    semaphore `o` of `c + o + 1`. -/
def payToks (c : Dev nD) : sProp 𝕄 :=
  iprop(dutyTok ER (barCell (shift c 1)) 0 (2 : Fin 3) ∗ dutyTok ER (barCell (shift c 2)) 0 (1 : Fin 3) ∗ dutyTok ER (barCell (shift c 3)) 0 (0 : Fin 3)
    ∗ dutyTok ER (sendCell c 0) 0 (0 : Fin 3) ∗ dutyTok ER (sendCell c 1) 0 (0 : Fin 3) ∗ dutyTok ER (sendCell c 2) 0 (0 : Fin 3)
    ∗ dutyTok ER (recvCell (shift c 1) 0) 0 (0 : Fin 3) ∗ dutyTok ER (recvCell (shift c 2) 1) 0 (0 : Fin 3) ∗ dutyTok ER (recvCell (shift c 3) 2) 0 (0 : Fin 3))

def ghost (κ : GSem nD τ sig → ℕ) (c : Dev nD) : sProp 𝕄 :=
  iprop(invs m κ c ∗ positions c ∗ reaches c ∗ payToks c)

/-- Credit for the waits others pay. -/
def creds (c : Dev nD) : sProp 𝕄 :=
  iprop(cred (tallyAt (barCell c) () 3) ∗ cred (tallyAt (recvCell c 0) () N) ∗ cred (tallyAt (recvCell c 1) () N) ∗ cred (tallyAt (recvCell c 2) () N))

/-- What a device's body starts from, the four-slot buffer apart. -/
def start (c : Dev nD) : sProp 𝕄 :=
  iprop((∃ κ, ghost m κ c) ∗ creds c ∗ levAts L lv)

def Φ₀ (c : Dev nD) : sProp 𝕄 := iprop(start m c ∗ ∃ f, (((c : Thread nD τ).loc cc0_scratch0) ↦{fullShare} f))

/-- The device's own six DMA semaphores at zero. -/
def ownZero (c : Dev nD) : sProp 𝕄 :=
  iprop(semVal (sendCell c 0) 0 ∗ semVal (sendCell c 1) 0 ∗ semVal (sendCell c 2) 0
    ∗ semVal (recvCell c 0) 0 ∗ semVal (recvCell c 1) 0 ∗ semVal (recvCell c 2) 0)

def Φ₁ (c : Dev nD) : sProp 𝕄 := iprop((∃ g, (((c : Thread nD τ).loc cc0_scratch0) ↦{fullShare} g)) ∗ ownZero c)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := V m c (Pipeline.arrRef spec0 w)
  after w _ := match w with
    | ⟨0, _⟩ => xstg m c
    | ⟨1, _⟩ => gstg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

/-- A staging buffer held whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

/-- What the body is given at the one grid point, and what it must give back. -/
def bodyPre (κ : GSem nD τ sig → ℕ) (c : Dev nD) : sProp 𝕄 :=
  iprop((ghost m κ c ∗ creds c ∗ levAts L lv ∗ ∃ f, (((c : Thread nD τ).loc cc0_scratch0) ↦{fullShare} f))
    ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

def bodyPost (c : Dev nD) : sProp 𝕄 :=
  iprop(Φ₁ c ∗ (dats m 0 c).owesAt () t₀.succ ∗ stg c cc0_stg0_0 (xstg m c) ∗ stg c cc0_stg1_0 (gstg m c) ∗ stg c cc0_stg2_0 (outAt m c))

end Cert.KernelProof

end
-- ==== Proof.Kernel.Init.lean ====
/-
  The launch. All four devices' barrier semaphores are funded from their counters at zero, their twenty-four send and receive
  semaphores dormant (their counters are the kernel's own, and come only when a device enters its region); every invariant is
  allocated at once, under one naming; the duty tokens are dealt to the devices that pay them; the launch credit is read as the
  three units each barrier semaphore is owed and the one copy's credit each receive semaphore is owed.
-/
import proofs.«901008_g7700000000001009_dist_rmsnorm_colshard_i_m512_n256_v7x_i4_bf16_1_alg».proof.Proof.Gen.Kernel
import proofs.«901008_g7700000000001009_dist_rmsnorm_colshard_i_m512_n256_v7x_i4_bf16_1_alg».proof.Proof.Gen.Kernel.Skeleton
import proofs.«901008_g7700000000001009_dist_rmsnorm_colshard_i_m512_n256_v7x_i4_bf16_1_alg».proof.Proof.Gen.Kernel.Launch
import proofs.«901008_g7700000000001009_dist_rmsnorm_colshard_i_m512_n256_v7x_i4_bf16_1_alg».proof.Proof.Gen.Kernel.Points
import Idealize.ShloMosaic.Lib.Pipeline.Launch
import Idealize.ShloMosaic.Lib.Pipeline.Kit
import Idealize.ShloMosaic.Lib.Pipeline.Regions
import Idealize.ShloMosaic.Lib.Pipeline.Value
import Idealize.ShloMosaic.Lib.Tactic
import proofs.«901008_g7700000000001009_dist_rmsnorm_colshard_i_m512_n256_v7x_i4_bf16_1_alg».proof.Proof.Gen.Kernel.Frame
import proofs.«901008_g7700000000001009_dist_rmsnorm_colshard_i_m512_n256_v7x_i4_bf16_1_alg».proof.Proof.Kernel.State

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The right to open each of the device's own six DMA semaphores. -/
def opens (c : Dev nD) : sProp 𝕄 :=
  iprop(openTok ER (sendCell c 0) ∗ openTok ER (sendCell c 1) ∗ openTok ER (sendCell c 2)
    ∗ openTok ER (recvCell c 0) ∗ openTok ER (recvCell c 1) ∗ openTok ER (recvCell c 2))

/-- What the launch leaves a device beside its buffers: the invariants, its position at its barrier semaphore, round 0 reached at
    the three barrier semaphores it signals, the right to open its own six, the tokens of the nine duties it pays, its credit. -/
def launched (c : Dev nD) : sProp 𝕄 :=
  iprop((∃ κ, invs m κ c ∗ atPos ER (barCell c) 0 ∅ 0
      ∗ (reached ER (barCell (shift c 1)) 0 ∗ reached ER (barCell (shift c 2)) 0 ∗ reached ER (barCell (shift c 3)) 0)
      ∗ opens c ∗ payToks c) ∗ creds c)

/-- The first thread state: the device's unscoped buffers as launched, what it owes, and the above. -/
def T₀ (c : Dev nD) : sProp 𝕄 :=
  iprop(unscopedBufs c (fun b => m ((c.tc : Thread nD τ).loc b)) ∗ owes (c.tc : Thread nD τ) (O₀ c) ∅ ∗ launched m c)

/-! ## The cells and the tokens -/

/-- The six DMA semaphores of a device: its three send semaphores, then its three receive semaphores. -/
abbrev xKey : Fin 6 → SemLoc sig := fun
  | 0 => .dma (sndSem 0) | 1 => .dma (sndSem 1) | 2 => .dma (sndSem 2)
  | 3 => .dma (rcvSem 0) | 4 => .dma (rcvSem 1) | 5 => .dma (rcvSem 2)
theorem xKey_inj : ∀ a b : Fin 6, xKey a = xKey b → a = b := by decide
theorem xKey_ne_bar : ∀ a : Fin 6, xKey a ≠ .reg barS := by decide

/-- The nine duties of a device's own semaphores: its barrier semaphore's three, one of each send and receive semaphore. -/
abbrev tKey : Fin 9 → SemLoc sig × Fin 3 := fun
  | 0 => (.reg barS, 0) | 1 => (.reg barS, 1) | 2 => (.reg barS, 2)
  | 3 => (.dma (sndSem 0), 0) | 4 => (.dma (sndSem 1), 0) | 5 => (.dma (sndSem 2), 0)
  | 6 => (.dma (rcvSem 0), 0) | 7 => (.dma (rcvSem 1), 0) | 8 => (.dma (rcvSem 2), 0)
theorem tKey_inj : ∀ a b : Fin 9, tKey a = tKey b → a = b := by decide

abbrev xcell (cj : Dev nD × Fin 6) : GSem nD τ sig := ((cj.1 : Thread nD τ), xKey cj.2)
abbrev tokOf (cj : Dev nD × Fin 9) : GSem nD τ sig × ℕ × Fin 3 := (((cj.1 : Thread nD τ), (tKey cj.2).1), 0, (tKey cj.2).2)

theorem barCell_injective : Function.Injective (barCell : Dev nD → GSem nD τ sig) := fun a b h =>
  congrArg (fun g : GSem nD τ sig => g.1.1) h
theorem xcell_injective : Function.Injective (xcell : Dev nD × Fin 6 → GSem nD τ sig) := by
  rintro ⟨c, j⟩ ⟨c', j'⟩ h
  have h1 : c = c' := congrArg (fun g : GSem nD τ sig => g.1.1) h
  subst h1
  rw [xKey_inj j j' (congrArg Prod.snd h)]
theorem tokOf_injective : Function.Injective (tokOf : Dev nD × Fin 9 → GSem nD τ sig × ℕ × Fin 3) := by
  rintro ⟨c, j⟩ ⟨c', j'⟩ h
  have h1 : c = c' := congrArg (fun x : GSem nD τ sig × ℕ × Fin 3 => x.1.1.1) h
  subst h1
  rw [tKey_inj j j' (Prod.ext (congrArg (fun x : GSem nD τ sig × ℕ × Fin 3 => x.1.2) h) (congrArg (fun x : GSem nD τ sig × ℕ × Fin 3 => x.2.2) h))]

/-- The four barrier semaphores, funded from their counters. -/
def barCells : Finset (GSem nD τ sig) := Finset.univ.map ⟨barCell, barCell_injective⟩
/-- The twenty-four send and receive semaphores, funded dormant. -/
def xferCells : Finset (GSem nD τ sig) := Finset.univ.map ⟨xcell, xcell_injective⟩
/-- One token for each duty of round 0 of every semaphore. -/
def toks : Finset (GSem nD τ sig × ℕ × Fin 3) := Finset.univ.map ⟨tokOf, tokOf_injective⟩

theorem bar_xfer_disjoint : Disjoint barCells xferCells := by
  rw [Finset.disjoint_left]
  intro g hb hx
  obtain ⟨c, -, rfl⟩ := Finset.mem_map.mp hb
  obtain ⟨⟨c', j⟩, -, h⟩ := Finset.mem_map.mp hx
  exact xKey_ne_bar j (congrArg Prod.snd h)

/-- The launch element: the pipeline's copy, and the exchange's (barrier semaphores live, send and receive semaphores dormant). -/
def u₀ : UU :=
  (initOf (Pipeline.cells cfgs cellOf_inj) (Pipeline.launchToks cfgs cellOf_inj), launchOf barCells xferCells toks)

/-- The exchange's share of the launch element, dealt to the devices (all of it to device 0: the first step is machine-wide). -/
def G (c : Dev nD) : sProp 𝕄 :=
  if c = (0 : Fin 4) then BI.own (ER (launchOf barCells xferCells toks)) else iprop(emp)

omit [FloatOps F] in
theorem bigSep_dev (Φ : Dev nD → sProp 𝕄) : bigSep Finset.univ Φ = iprop(Φ (0 : Fin 4) ∗ Φ (1 : Fin 4) ∗ Φ (2 : Fin 4) ∗ Φ (3 : Fin 4)) :=
  bigSep_univ_eq_bigSepL [(0 : Fin 4), 1, 2, 3] (by decide) (by decide) Φ

omit [FloatOps F] in
theorem bigSep_G : bigSep Finset.univ (G (F := F)) ⊣⊢ (BI.own (ER (launchOf barCells xferCells toks)) : sProp 𝕄) := by
  rw [bigSep_dev]
  unfold G
  rw [if_pos rfl, if_neg (by decide), if_neg (by decide), if_neg (by decide)]
  constructor
  · iintro ⟨H, -⟩; iexact H
  · iintro H
    isplitl [H]; · iexact H
    isplitl; · iempintro
    isplitl <;> iempintro

theorem hu₀ : (ownU u₀ : sProp 𝕄)
    ⊢ |={Set.univ}=> iprop(BI.own (EP (initOf (Pipeline.cells cfgs cellOf_inj) (Pipeline.launchToks cfgs cellOf_inj))) ∗ bigSep Finset.univ (G (F := F))) := by
  unfold u₀
  iintro Hu
  ihave H := (ownU_pair _ _) $$ Hu
  icases H with ⟨HP, HX⟩
  imodintro
  isplitl [HP]; · iexact HP
  iapply (bigSep_G (F := F)).2
  iexact HX

/-! ## The counters, the positions, the rights to open and the tokens, device by device -/

omit [FloatOps F] in
/-- A device's one unscoped semaphore is its barrier semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem bigSep_bar (Φ : GSem nD τ sig → sProp 𝕄) : bigSep barCells Φ = bigSep Finset.univ fun c : Dev nD => Φ (barCell c) := by
  unfold barCells; rw [bigSep_map]; rfl

omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

omit [FloatOps F] in
theorem bigSep_xfer_open : bigSep xferCells (fun g => (openTok ER g : sProp 𝕄)) = bigSep Finset.univ fun c : Dev nD => opens c := by
  unfold xferCells; rw [bigSep_map, bigSep_univ_prod]
  exact bigSep_congr fun c _ => by unfold opens; rw [bigSep_fin6]; rfl

/-- The tokens of the nine duties of a device's own semaphores. -/
def ownToks (c : Dev nD) : sProp 𝕄 :=
  iprop(dutyTok ER (barCell c) 0 (0 : Fin 3) ∗ dutyTok ER (barCell c) 0 (1 : Fin 3) ∗ dutyTok ER (barCell c) 0 (2 : Fin 3)
    ∗ dutyTok ER (sendCell c 0) 0 (0 : Fin 3) ∗ dutyTok ER (sendCell c 1) 0 (0 : Fin 3) ∗ dutyTok ER (sendCell c 2) 0 (0 : Fin 3)
    ∗ dutyTok ER (recvCell c 0) 0 (0 : Fin 3) ∗ dutyTok ER (recvCell c 1) 0 (0 : Fin 3) ∗ dutyTok ER (recvCell c 2) 0 (0 : Fin 3))

omit [FloatOps F] in
theorem bigSep_toks : bigSep toks (fun x => (dutyTok ER x.1 x.2.1 x.2.2 : sProp 𝕄)) = bigSep Finset.univ fun c : Dev nD => ownToks c := by
  unfold toks; rw [bigSep_map, bigSep_univ_prod]
  exact bigSep_congr fun c _ => by unfold ownToks; rw [bigSep_fin9]; rfl

/-! ## Around the mesh -/

theorem shift_back (j k : ℕ) (h : j + k = 4) (c : Dev nD) : shift (shift c j) k = c := by rw [shift_shift, h]; exact shift_four c

/-- Going `k` devices on, as a permutation of the devices. -/
def sh1 : Dev nD ≃ Dev nD := ⟨fun c => shift c 1, fun c => shift c 3, shift_back 1 3 rfl, shift_back 3 1 rfl⟩
def sh2 : Dev nD ≃ Dev nD := ⟨fun c => shift c 2, fun c => shift c 2, shift_back 2 2 rfl, shift_back 2 2 rfl⟩
def sh3 : Dev nD ≃ Dev nD := ⟨fun c => shift c 3, fun c => shift c 1, shift_back 3 1 rfl, shift_back 1 3 rfl⟩

omit [FloatOps F] in
/-- The tokens dealt around the mesh: duty `d` of a barrier semaphore goes to the device `d + 1` on, which pays it (so a device
    gets duty 2, 1, 0 of the barrier semaphores 1, 2, 3 devices on); the token of receive semaphore `o` goes `o + 1` devices back. -/
theorem toks_around : (bigSep Finset.univ fun c : Dev nD => (ownToks c : sProp 𝕄)) ⊢ bigSep Finset.univ fun c : Dev nD => payToks c := by
  unfold ownToks payToks
  rw [bigSep_sep', bigSep_sep', bigSep_sep', bigSep_sep', bigSep_sep', bigSep_sep', bigSep_sep', bigSep_sep',
    bigSep_sep', bigSep_sep', bigSep_sep', bigSep_sep', bigSep_sep', bigSep_sep', bigSep_sep', bigSep_sep',
    bigSep_univ_equiv sh3 (fun c : Dev nD => (dutyTok ER (barCell c) 0 (0 : Fin 3) : sProp 𝕄)),
    bigSep_univ_equiv sh2 (fun c : Dev nD => (dutyTok ER (barCell c) 0 (1 : Fin 3) : sProp 𝕄)),
    bigSep_univ_equiv sh1 (fun c : Dev nD => (dutyTok ER (barCell c) 0 (2 : Fin 3) : sProp 𝕄)),
    bigSep_univ_equiv sh1 (fun c : Dev nD => (dutyTok ER (recvCell c 0) 0 (0 : Fin 3) : sProp 𝕄)),
    bigSep_univ_equiv sh2 (fun c : Dev nD => (dutyTok ER (recvCell c 1) 0 (0 : Fin 3) : sProp 𝕄)),
    bigSep_univ_equiv sh3 (fun c : Dev nD => (dutyTok ER (recvCell c 2) 0 (0 : Fin 3) : sProp 𝕄))]
  iintro ⟨B0, B1, B2, S0, S1, S2, R0, R1, R2⟩
  isplitl [B2]; · iexact B2
  isplitl [B1]; · iexact B1
  isplitl [B0]; · iexact B0
  isplitl [S0]; · iexact S0
  isplitl [S1]; · iexact S1
  isplitl [S2]; · iexact S2
  isplitl [R0]; · iexact R0
  isplitl [R1]; · iexact R1
  iexact R2

/-! ## The launch credit -/

theorem rcvSem_inj : ∀ o o' : Fin 3, rcvSem o = rcvSem o' → o = o' := by decide

omit [FloatOps F] in
theorem bar_ne_recv (a c : Dev nD) (o : Fin 3) : barCell c ≠ recvCell a o := fun h => recv_ne_bar o (congrArg Prod.snd h).symm
omit [FloatOps F] in
theorem recv_ne_bar' (a c : Dev nD) (o : Fin 3) : recvCell c o ≠ barCell a := fun h => recv_ne_bar o (congrArg Prod.snd h)

omit [FloatOps F] in
/-- A unit owed to the barrier semaphore of `a` is owed to that of `c` when `a = c`. -/
theorem tally_bar_bar (a c : Dev nD) (n : ℕ) : (tallyAt (barCell a) () n : CellTallies nD τ sig Unit) (barCell c) () = if a = c then n else 0 := by
  rw [tallyAt_apply]
  exact if_congr ⟨fun h => (barCell_injective h.1).symm, fun h => ⟨h ▸ rfl, rfl⟩⟩ rfl rfl

omit [FloatOps F] in
theorem tally_recv_recv (a c : Dev nD) (o' o : Fin 3) (n : ℕ) :
    (tallyAt (recvCell a o') () n : CellTallies nD τ sig Unit) (recvCell c o) () = if a = c ∧ o' = o then n else 0 := by
  rw [tallyAt_apply]
  refine if_congr ⟨fun h => ?_, fun h => ?_⟩ rfl rfl
  · have h1 : c = a := congrArg (fun g : GSem nD τ sig => g.1.1) h.1
    have h2 : rcvSem o = rcvSem o' := by have := congrArg Prod.snd h.1; exact SemLoc.dma.inj this
    exact ⟨h1.symm, (rcvSem_inj _ _ h2).symm⟩
  · obtain ⟨rfl, rfl⟩ := h; exact ⟨rfl, rfl⟩

omit [FloatOps F] in
/-- What device `d` owes the barrier semaphore of `c`: a unit when `c` is 3, 2 or 1 devices on. -/
theorem owed_bar (d c : Dev nD) :
    O₀ d (barCell c) () = (if shift d 3 = c then 1 else 0) + (if shift d 2 = c then 1 else 0) + (if shift d 1 = c then 1 else 0) := by
  unfold O₀ O₁ O₂ O₅ O₄ O₃
  simp only [Pi.add_apply, Finsupp.add_apply]
  rw [tallyAt_ne_cell (bar_ne_recv _ c _), tallyAt_ne_cell (bar_ne_recv _ c _), tallyAt_ne_cell (bar_ne_recv _ c _),
    tally_bar_bar, tally_bar_bar, tally_bar_bar, Finsupp.zero_apply, Nat.zero_add, Nat.zero_add, Nat.zero_add]

omit [FloatOps F] in
/-- What device `d` owes receive semaphore `o` of `c`: a copy's credit when `c` is `o + 1` devices on. -/
theorem owed_recv (d c : Dev nD) (o : Fin 3) : O₀ d (recvCell c o) () = if shift d (o.val + 1) = c then N else 0 := by
  unfold O₀ O₁ O₂ O₅ O₄ O₃
  simp only [Pi.add_apply, Finsupp.add_apply]
  rw [tallyAt_ne_cell (recv_ne_bar' _ c o), tallyAt_ne_cell (recv_ne_bar' _ c o), tallyAt_ne_cell (recv_ne_bar' _ c o),
    tally_recv_recv, tally_recv_recv, tally_recv_recv, Finsupp.zero_apply, Nat.add_zero, Nat.add_zero, Nat.add_zero]
  fin_cases o <;> simp

omit [FloatOps F] in
/-- Exactly one device is `k` devices before `c`. -/
theorem sum_shift (k j : ℕ) (h : j + k = 4) (n : ℕ) (c : Dev nD) : (∑ d : Dev nD, if shift d k = c then n else 0) = n := by
  have e : ∀ d : Dev nD, shift d k = c ↔ d = shift c j :=
    fun d => ⟨fun e => by rw [← e, shift_back k j (by omega)], fun e => by rw [e, shift_back j k h]⟩
  simp only [e]
  rw [Finset.sum_ite_eq' Finset.univ (shift c j) fun _ => n, if_pos (Finset.mem_univ _)]

omit [FloatOps F] in
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    sum_shift 3 1 rfl, sum_shift 2 2 rfl, sum_shift 1 3 rfl]

omit [FloatOps F] in
theorem launch_recv (c : Dev nD) (o : Fin 3) :
    tallyOn (recvCell c o) (launchCredit (Pipeline.owing O₀) 0 (recvCell c o)) = (tallyAt (recvCell c o) () N : CellTallies nD τ sig Unit) := by
  unfold tallyAt; refine congrArg _ (Finsupp.ext fun u => ?_); cases u
  rw [Pipeline.launchCredit_owing, Finsupp.single_eq_same, Finset.sum_congr rfl fun d _ => owed_recv d c o,
    sum_shift (o.val + 1) (3 - o.val) (by omega)]

omit [FloatOps F] in
/-- The launch credit of a device: three units on its barrier semaphore, a copy's credit on each receive semaphore. -/
theorem creds_intro (c : Dev nD) : (Pipeline.launchCred O₀ c : sProp 𝕄) ⊢ creds c := by
  unfold Pipeline.launchCred creds
  refine (bigSep_subset (t := [SemLoc.reg barS, SemLoc.dma (rcvSem 0), SemLoc.dma (rcvSem 1), SemLoc.dma (rcvSem 2)].toFinset) (Finset.subset_univ _)).trans ?_
  rw [bigSep_eq_bigSepL _ (by decide)]
  show iprop(cred (tallyOn (barCell c) (launchCredit (Pipeline.owing O₀) 0 (barCell c)))
    ∗ cred (tallyOn (recvCell c 0) (launchCredit (Pipeline.owing O₀) 0 (recvCell c 0)))
    ∗ cred (tallyOn (recvCell c 1) (launchCredit (Pipeline.owing O₀) 0 (recvCell c 1)))
    ∗ cred (tallyOn (recvCell c 2) (launchCredit (Pipeline.owing O₀) 0 (recvCell c 2)))) ⊢ _
  rw [launch_bar, launch_recv, launch_recv, launch_recv]

/-! ## Dealing the launch to the devices -/

/-- What every device reads: every invariant, and that round 0 is reached at the four barrier semaphores. -/
def shared (κ : GSem nD τ sig → ℕ) : sProp 𝕄 :=
  iprop(bigSep (barCells ∪ xferCells) (fun g => cellInv ER (Rd m) (κ g) g) ∗ bigSep barCells (fun g => reached ER g 0))

instance shared_persistent (κ : GSem nD τ sig → ℕ) : BI.Persistent (shared m κ) := by unfold shared; infer_instance

omit [FloatOps F] in
theorem mem_bar (d : Dev nD) : barCell d ∈ barCells := Finset.mem_map_of_mem _ (Finset.mem_univ d)
omit [FloatOps F] in
theorem mem_cells_bar (d : Dev nD) : barCell d ∈ barCells ∪ xferCells := Finset.mem_union_left _ (mem_bar d)
omit [FloatOps F] in
theorem mem_cells_send (d : Dev nD) (o : Fin 3) : sendCell d o ∈ barCells ∪ xferCells := by
  refine Finset.mem_union_right _ ?_
  fin_cases o
  · exact Finset.mem_map_of_mem ⟨xcell, xcell_injective⟩ (Finset.mem_univ (d, (0 : Fin 6)))
  · exact Finset.mem_map_of_mem ⟨xcell, xcell_injective⟩ (Finset.mem_univ (d, (1 : Fin 6)))
  · exact Finset.mem_map_of_mem ⟨xcell, xcell_injective⟩ (Finset.mem_univ (d, (2 : Fin 6)))
omit [FloatOps F] in
theorem mem_cells_recv (d : Dev nD) (o : Fin 3) : recvCell d o ∈ barCells ∪ xferCells := by
  refine Finset.mem_union_right _ ?_
  fin_cases o
  · exact Finset.mem_map_of_mem ⟨xcell, xcell_injective⟩ (Finset.mem_univ (d, (3 : Fin 6)))
  · exact Finset.mem_map_of_mem ⟨xcell, xcell_injective⟩ (Finset.mem_univ (d, (4 : Fin 6)))
  · exact Finset.mem_map_of_mem ⟨xcell, xcell_injective⟩ (Finset.mem_univ (d, (5 : Fin 6)))

theorem inv_at (κ : GSem nD τ sig → ℕ) {g : GSem nD τ sig} (hg : g ∈ barCells ∪ xferCells) :
    (bigSep (barCells ∪ xferCells) (fun g => (cellInv ER (Rd m) (κ g) g : sProp 𝕄))) ⊢ cellInv ER (Rd m) (κ g) g :=
  bigSep_elim hg
omit [FloatOps F] in
theorem reached_at (d : Dev nD) : (bigSep barCells (fun g => (reached ER g 0 : sProp 𝕄))) ⊢ reached ER (barCell d) 0 :=
  bigSep_elim (mem_bar d)

/-- One device's first thread state from what all read and its own share. -/
theorem launched_intro (κ : GSem nD τ sig → ℕ) (c : Dev nD) :
    iprop(shared m κ ∗ (atPos ER (barCell c) 0 ∅ 0 ∗ opens c ∗ payToks c
        ∗ (creds c ∗ (unscopedBufs c (fun b => m ((c.tc : Thread nD τ).loc b)) ∗ owes (c.tc : Thread nD τ) (O₀ c) ∅))))
      ⊢ T₀ m c := by
  unfold shared T₀ launched invs
  iintro ⟨⟨#HI, #HR⟩, Hat, Hop, Htk, Hcr, Hub, HO⟩
  isplitl [Hub]; · iexact Hub
  isplitl [HO]; · iexact HO
  isplitr [Hcr]
  · iexists κ
    isplitr
    · isplitr; · iapply (inv_at m κ (mem_cells_bar c)); iexact HI
      isplitr; · iapply (inv_at m κ (mem_cells_send c 0)); iexact HI
      isplitr; · iapply (inv_at m κ (mem_cells_send c 1)); iexact HI
      isplitr; · iapply (inv_at m κ (mem_cells_send c 2)); iexact HI
      isplitr; · iapply (inv_at m κ (mem_cells_recv c 0)); iexact HI
      isplitr; · iapply (inv_at m κ (mem_cells_recv c 1)); iexact HI
      isplitr; · iapply (inv_at m κ (mem_cells_recv c 2)); iexact HI
      isplitr; · iapply (inv_at m κ (mem_cells_bar (shift c 1))); iexact HI
      isplitr; · iapply (inv_at m κ (mem_cells_bar (shift c 2))); iexact HI
      isplitr; · iapply (inv_at m κ (mem_cells_bar (shift c 3))); iexact HI
      isplitr; · iapply (inv_at m κ (mem_cells_recv (shift c 1) 0)); iexact HI
      isplitr; · iapply (inv_at m κ (mem_cells_recv (shift c 2) 1)); iexact HI
      iapply (inv_at m κ (mem_cells_recv (shift c 3) 2)); iexact HI
    isplitl [Hat]; · iexact Hat
    isplitr
    · isplitr; · iapply (reached_at (F := F) (shift c 1)); iexact HR
      isplitr; · iapply (reached_at (F := F) (shift c 2)); iexact HR
      iapply (reached_at (F := F) (shift c 3)); iexact HR
    isplitl [Hop]; · iexact Hop
    iexact Htk
  iexact Hcr

/-- All four at once. -/
theorem deal (κ : GSem nD τ sig → ℕ) :
    iprop(shared m κ ∗ ((bigSep Finset.univ fun c : Dev nD => atPos ER (barCell c) 0 ∅ 0) ∗ (bigSep Finset.univ fun c : Dev nD => opens c)
        ∗ (bigSep Finset.univ fun c : Dev nD => payToks c)
        ∗ bigSep Finset.univ fun c : Dev nD => iprop(creds c ∗ (unscopedBufs c (fun b => m ((c.tc : Thread nD τ).loc b)) ∗ owes (c.tc : Thread nD τ) (O₀ c) ∅))))
      ⊢ bigSep Finset.univ (T₀ m) := by
  rw [← bigSep_sep', ← bigSep_sep', ← bigSep_sep']
  exact bigSep_with_persistent fun c _ => launched_intro m κ c

/-- The machine-wide first step. -/
theorem launch_init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (T₀ m) : sProp 𝕄) := by
  have h1 (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ G c)
      ⊢ iprop(semVal (barCell c) 0 ∗ G c
          ∗ (creds c ∗ (unscopedBufs c (fun b => m ((c.tc : Thread nD τ).loc b)) ∗ owes (c.tc : Thread nD τ) (O₀ c) ∅))) := by
    rw [unscopedSems0_eq]
    iintro ⟨Hub, Hus, HO, Hcr, -, HG⟩
    isplitl [Hus]; · iexact Hus
    isplitl [HG]; · iexact HG
    isplitl [Hcr]; · iapply (creds_intro (F := F) c); iexact Hcr
    isplitl [Hub] <;> iassumption
  iintro ⟨H, -⟩
  ihave H' := (show _ ⊢ iprop((bigSep Finset.univ fun c : Dev nD => semVal (barCell c) 0) ∗ bigSep Finset.univ (G (F := F))
        ∗ bigSep Finset.univ fun c : Dev nD => iprop(creds c ∗ (unscopedBufs c (fun b => m ((c.tc : Thread nD τ).loc b)) ∗ owes (c.tc : Thread nD τ) (O₀ c) ∅)))
      from by rw [← bigSep_sep', ← bigSep_sep']; exact bigSep_mono fun c _ => h1 c) $$ H
  icases H' with ⟨Hv, HG, Hrest⟩
  ihave Hu := (bigSep_G (F := F)).1 $$ HG
  ihave Hv' := (Entails.of_eq (bigSep_bar (F := F) (fun g => semVal g 0)).symm) $$ Hv
  imod (Rounds.fund_launch ER (Rd m) bar_xfer_disjoint (fun _ _ h => h) toks (Es := Set.univ)) $$ [Hv' Hu] with ⟨%κ, -, #HI, #HR, Hat, Hop, Htk⟩
  · isplitl [Hv']; · iexact Hv'
    iexact Hu
  imodintro
  ihave Hat' := (Entails.of_eq (bigSep_bar (F := F) fun g => atPos ER g 0 ∅ 0)) $$ Hat
  ihave Hop' := (Entails.of_eq (bigSep_xfer_open (F := F))) $$ Hop
  ihave Htk' := (Entails.of_eq (bigSep_toks (F := F))) $$ Htk
  ihave Htk'' := (toks_around (F := F)) $$ Htk'
  iapply (deal m κ)
  isplitr
  · unfold shared; isplitl; · iexact HI
    iexact HR
  isplitl [Hat']; · iexact Hat'
  isplitl [Hop']; · iexact Hop'
  isplitl [Htk'']; · iexact Htk''
  iexact Hrest

end Cert.KernelProof

end
-- ==== Proof.Kernel.Launch.lean ====
/-
  @main as two segments, the copy of the first argument into the result's buffer and then the kernel's region, run on the four
  devices from the launch's first thread state: every weakly fair execution ends, each device's result buffer holding what its
  body stored and its arguments unchanged.
-/
import proofs.«901008_g7700000000001009_dist_rmsnorm_colshard_i_m512_n256_v7x_i4_bf16_1_alg».proof.Proof.Gen.Kernel
import proofs.«901008_g7700000000001009_dist_rmsnorm_colshard_i_m512_n256_v7x_i4_bf16_1_alg».proof.Proof.Gen.Kernel.Skeleton
import proofs.«901008_g7700000000001009_dist_rmsnorm_colshard_i_m512_n256_v7x_i4_bf16_1_alg».proof.Proof.Gen.Kernel.Launch
import proofs.«901008_g7700000000001009_dist_rmsnorm_colshard_i_m512_n256_v7x_i4_bf16_1_alg».proof.Proof.Gen.Kernel.Points
import Idealize.ShloMosaic.Lib.Pipeline.Launch
import Idealize.ShloMosaic.Lib.Pipeline.Kit
import Idealize.ShloMosaic.Lib.Pipeline.Regions
import Idealize.ShloMosaic.Lib.Pipeline.Value
import Idealize.ShloMosaic.Lib.Tactic
import proofs.«901008_g7700000000001009_dist_rmsnorm_colshard_i_m512_n256_v7x_i4_bf16_1_alg».proof.Proof.Gen.Kernel.Frame
import proofs.«901008_g7700000000001009_dist_rmsnorm_colshard_i_m512_n256_v7x_i4_bf16_1_alg».proof.Proof.Kernel.Init

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline at its one table-free configuration -/

/-- No prefetched table: the one admissible contents. -/
abbrev adm : (p : Fin 1) → (pcfgs (F := F) p).Adm := fun p => (cfgs p).toPCfg_adm

/-- Core c's buffers at launch, as a valuation. -/
abbrev V₀ (c : Dev nD) : Valuation τ sig (Elt F) := fun b => m ((c : Dev nD), b)

/-- Every array is held at the full share. -/
theorem share_eq (c : Dev nD) (w : Fin cfg0.W) : (dats m 0 c).share w = fullShare := by unfold Dat.share; split <;> rfl

/-! ## The kernel's own six semaphores -/

/-- The three send semaphores, then the three receive semaphores. -/
abbrev osem : Fin 6 → SemLoc sig := fun
  | 0 => .dma (sndSem 0) | 1 => .dma (sndSem 1) | 2 => .dma (sndSem 2)
  | 3 => .dma (rcvSem 0) | 4 => .dma (rcvSem 1) | 5 => .dma (rcvSem 2)

/-- They are scoped, pairwise distinct, and none is a staging semaphore. -/
theorem ownSemFacts : Pipeline.OwnSemFacts cfg0.spec osem := by decide

omit [FloatOps F] in
/-- The send and receive semaphores are the kernel's own six. -/
theorem ownSems0_eq (c : Dev nD) : (Pipeline.ownSems0 (Ix := Unit) (Name := ℕ) (U := UU) (Lvl := ℕ) (Val := Elt F) (τ := τ) osem c : sProp 𝕄)
    = ownZero c := by
  rw [Pipeline.ownSems0_eq_of_list c osem [0, 1, 2, 3, 4, 5] (by decide) (by decide)]; rfl

/-! ## The staging semaphores sit below everything a device owes -/

omit [FloatOps F] in
/-- A staging semaphore (numbers 0, 1, 2) is at level 0; whatever a device owes is on a barrier semaphore (level 1) or a receive
    semaphore (level 2): the cut at 0. Owing nothing, there is nothing to compare. -/
theorem mayWait_stage (c : Dev nD) (q : DmaSem sig) (hq : q.val ≤ 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨d, rfl⟩ | ⟨d, o, rfl⟩ <;> (rw [L_tc]; exact Finset.mem_singleton_self _))
      (fun p hp => by
        rw [Finset.mem_singleton.mp hp]; dsimp only [lv]
        rw [if_neg (fun h => by cases h), if_neg (fun ⟨o, h⟩ => by
          have h' := congrArg Fin.val (SemLoc.dma.inj h); rw [rcvSem_val] at h'; omega)])
      (fun g u hg => by
        rcases O₀_pos hg with ⟨d, rfl⟩ | ⟨d, o, rfl⟩
        · rw [lv_bar]; decide
        · rw [lv_recv]; decide)
  · rw [MayWait_zero]; iintro -; iempintro

/-- The pipeline's own waits: before the one point the device owes its launch tallies, after it nothing. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## Opening the device's own six semaphores at its entry -/

/-- The invariants of a device's own send and receive semaphores, out of those its body opens. -/
theorem invs_send (κ : GSem nD τ sig → ℕ) (c : Dev nD) (o : Fin 3) :
    invs m κ c ⊢ cellInv ER (Rd m) (κ (sendCell c o)) (sendCell c o) := by
  unfold invs
  fin_cases o
  · iintro ⟨-, H, -⟩; iexact H
  · iintro ⟨-, -, H, -⟩; iexact H
  · iintro ⟨-, -, -, H, -⟩; iexact H

theorem invs_recv (κ : GSem nD τ sig → ℕ) (c : Dev nD) (o : Fin 3) :
    invs m κ c ⊢ cellInv ER (Rd m) (κ (recvCell c o)) (recvCell c o) := by
  unfold invs
  fin_cases o
  · iintro ⟨-, -, -, -, H, -⟩; iexact H
  · iintro ⟨-, -, -, -, -, H, -⟩; iexact H
  · iintro ⟨-, -, -, -, -, -, H, -⟩; iexact H

/-- The owner opens a send semaphore of its own: its counter at zero for its position at round 0, reached. -/
theorem open_send (κ : GSem nD τ sig → ℕ) (c : Dev nD) (o : Fin 3) :
    iprop(invs m κ c ∗ openTok ER (sendCell c o) ∗ semVal (sendCell c o) 0)
      ⊢ |={Set.univ}=> iprop(atPos ER (sendCell c o) 0 ∅ 0 ∗ reached ER (sendCell c o) 0 : sProp 𝕄) := by
  iintro ⟨#Hi, Ho, Hz⟩
  ihave Hc := (invs_send m κ c o) $$ Hi
  iapply (Rounds.cell_open ER (Rd m) (Set.mem_univ _))
  isplitl [Hc]; · iexact Hc
  isplitl [Ho] <;> iassumption

/-- and a receive semaphore of its own. -/
theorem open_recv (κ : GSem nD τ sig → ℕ) (c : Dev nD) (o : Fin 3) :
    iprop(invs m κ c ∗ openTok ER (recvCell c o) ∗ semVal (recvCell c o) 0)
      ⊢ |={Set.univ}=> iprop(atPos ER (recvCell c o) 0 ∅ 0 ∗ reached ER (recvCell c o) 0 : sProp 𝕄) := by
  iintro ⟨#Hi, Ho, Hz⟩
  ihave Hc := (invs_recv m κ c o) $$ Hi
  iapply (Rounds.cell_open ER (Rd m) (Set.mem_univ _))
  isplitl [Hc]; · iexact Hc
  isplitl [Ho] <;> iassumption

/-! ## The two segments -/

local notation "ℍ" => Pipeline.HostSeg (Name := ℕ) (U := UU) (pcfgs (F := F)) defs₀ 𝒱₀ L lv
local notation "ℝ𝕊" => Pipeline.RegionSeg (pcfgs (F := F)) adm (dats m) () defs₀ 𝒱₀ L lv

/-- What rides beside the buffers through the copy: what the device owes, and what the launch left it. -/
def rest (c : Dev nD) : sProp 𝕄 := iprop(owes (c.tc : Thread nD τ) (O₀ c) ∅ ∗ launched m c)

/-- The copy touches unscoped buffers only, and allocates none. -/
theorem hostOps0_ucRefs : ∀ op ∈ (hostOps0 : List (HloOp τ sig (Elt F))), op.bufs ⊆ Pipeline.ucRefs τ sig := fun op h =>
  Pipeline.sub_ucRefs op ((List.forall_iff_forall_mem.mp hostOps0_sub) op h)

theorem hostOps0_noFresh : ∀ op ∈ (hostOps0 : List (HloOp τ sig (Elt F))), op.fresh = ∅ :=
  List.forall_iff_forall_mem.mp hostOps0_fresh

/-- THE COPY of the first argument into the result's buffer, over the device's unscoped buffers held whole. -/
def seg0 : ℍ := Pipeline.HostSeg.ofOps _ _ _ _ _ (Pipeline.ucRefs τ sig) (hostOps0 (F := F)) hostOps0_ucRefs hostOps0_noFresh (V₀ m) (rest m)

/-- The region is entered from the buffers as the copy left them. -/
def pre0 (c : Dev nD) : sProp 𝕄 := iprop(unscopedBufs c (fun b => V m c b) ∗ rest m c)

/-- It leaves the three arrays at their last contents, the device owing what the last point owes. -/
def post0 (c : Dev nD) : sProp 𝕄 :=
  iprop((dats m 0 c).arrays ((dats m 0 c).arrAt · cfg0.N) ∗ (dats m 0 c).owesAt () (Fin.last cfg0.N))

/-- ENTRY. The buffers as the copy left them are the three arrays at their entry contents (no other unscoped buffer); the device
    owes its launch tallies, having recorded no wait; and with its six counters at zero it opens its six semaphores, which
    completes its positions and the rounds reached to what its body starts from. -/
theorem entry (c : Dev nD) :
    iprop(pre0 m c ∗ Pipeline.ownSems0 (Ix := Unit) (Name := ℕ) (U := UU) (Lvl := ℕ) (Val := Elt F) (τ := τ) osem c ∗ levAts L lv)
      ⊢ |={Set.univ}=> iprop((dats m 0 c).arrays ((dats m 0 c).arrAt · 0) ∗ Pipeline.prefHeld (pcfgs (F := F) 0).pre c (fun _ => fullShare) (adm (F := F) 0).1
        ∗ (dats m 0 c).owesAt () 0 ∗ start m c ∗ emp) := by
  have hsplit := Pipeline.arrays_of_unscopedBufs (pcfgs (F := F)) adm (dats m) winFacts0 arr_whole0 c
    (share_eq m c) (fun b => V m c b) fun _ => rfl
  rw [ownSems0_eq]
  unfold pre0 rest launched opens ownZero
  iintro ⟨⟨Hub, HO, ⟨%κ, #Hi, Hat, #Hrb, ⟨Os0, Os1, Os2, Or0, Or1, Or2⟩, Htok⟩, Hcr⟩, ⟨Zs0, Zs1, Zs2, Zr0, Zr1, Zr2⟩, #Hlev⟩
  ihave H := hsplit $$ Hub
  icases H with ⟨Ha, -⟩
  imod (open_send m κ c 0) $$ [Os0 Zs0] with ⟨As0, #Rs0⟩
  · isplitr; · iexact Hi
    isplitl [Os0] <;> iassumption
  imod (open_send m κ c 1) $$ [Os1 Zs1] with ⟨As1, #Rs1⟩
  · isplitr; · iexact Hi
    isplitl [Os1] <;> iassumption
  imod (open_send m κ c 2) $$ [Os2 Zs2] with ⟨As2, #Rs2⟩
  · isplitr; · iexact Hi
    isplitl [Os2] <;> iassumption
  imod (open_recv m κ c 0) $$ [Or0 Zr0] with ⟨Ar0, #Rr0⟩
  · isplitr; · iexact Hi
    isplitl [Or0] <;> iassumption
  imod (open_recv m κ c 1) $$ [Or1 Zr1] with ⟨Ar1, #Rr1⟩
  · isplitr; · iexact Hi
    isplitl [Or1] <;> iassumption
  imod (open_recv m κ c 2) $$ [Or2 Zr2] with ⟨Ar2, #Rr2⟩
  · isplitr; · iexact Hi
    isplitl [Or2] <;> iassumption
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    iexists ∅; isplitr; · ipureintro; exact fun _ _ => Or.inl trivial
    iexact HO
  isplitl; swap; · iempintro
  unfold start ghost positions reaches
  isplitl [Hat As0 As1 As2 Ar0 Ar1 Ar2 Htok]
  · iexists κ
    isplitr; · iexact Hi
    isplitl [Hat As0 As1 As2 Ar0 Ar1 Ar2]
    · isplitl [Hat]; · iexact Hat
      isplitl [As0]; · iexact As0
      isplitl [As1]; · iexact As1
      isplitl [As2]; · iexact As2
      isplitl [Ar0]; · iexact Ar0
      isplitl [Ar1] <;> iassumption
    isplitr
    · icases Hrb with ⟨#R1, #R2, #R3⟩
      isplitr; · iexact R1
      isplitr; · iexact R2
      isplitr; · iexact R3
      isplitr; · iexact Rs0
      isplitr; · iexact Rs1
      isplitr; · iexact Rs2
      isplitr; · iexact Rr0
      isplitr; · iexact Rr1
      iexact Rr2
    iexact Htok
  isplitl [Hcr]; · iexact Hcr
  iexact Hlev

/-- THE REGION: the body's start state enters the invariant beside the four-slot buffer; at the end the invariant gives back the
    buffer and the six counters at zero; nothing bypasses it. -/
def reg0 (hbody : ∀ c : Dev nD, BodyObligation (dats (F := F) m 0 c) (defs₀ (F := F)) 𝒱₀ () Set.univ) : ℝ𝕊 0 where
  win := winFacts0.to₀
  block_pos := block_pos0
  stage_whole := stage_whole0
  K := Fin 6
  osem := osem
  ho := ownSemFacts
  hbody c := (hbody c).loose
  hwaits c := waits m c
  pre := pre0 m
  post := post0 m
  X := start m
  Y _ := iprop(emp)
  Z _ := iprop(emp)
  hentry c := entry m c
  hin c := by
    rw [show (dats m 0 c).Φ 0 = Φ₀ m c from rfl, scopedRest0_eq]
    unfold Φ₀
    iintro ⟨Hs, -, Hr⟩
    isplitl [Hs] <;> iassumption
  hout c := by
    rw [show (dats m 0 c).Φ (Fin.last cfg0.N) = Φ₁ c from rfl, scopedRest0_eq, ownSems0_eq]
    unfold Φ₁
    iintro ⟨Hr, Hz⟩
    isplitr; · iempintro
    isplitl [Hz] <;> iassumption
  hexit c := by
    unfold post0
    iintro ⟨Ha, HO, -, -⟩
    imodintro
    isplitl [Ha] <;> iassumption

/-- The last thread state: the three arrays at their last contents. -/
def Tₙ (c : Dev nD) : sProp 𝕄 := (dats m 0 c).arrays ((dats m 0 c).arrAt · cfg0.N)

/-! ## The arrays at the end -/

/-- The result's window is the whole array, written back at the one point: the array then holds what the body stored. -/
theorem arrAt_out (c : Dev nD) : (dats m 0 c).arrAt (2 : Fin 3) cfg0.N = outAt m c := by
  rw [show cfg0.N = (t₀ : Fin cfg0.N).val + 1 from rfl, (dats m 0 c).arrAt_succ (2 : Fin 3) t₀, flush0_2 t₀, if_pos rfl]
  exact Memref.write_access_unit_zero_univ (Elt F) main_v1 (funext fun a => Nat.zero_mul _) _ _ _

/-- THE RUN, from one device's body obligation: the copy, then the region; the result's array read at the end is what the body
    stored, and the two argument arrays, which no window writes and the copy does not touch, are as launched. -/
theorem run_main_of (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (dats m) () cellOf_inj EP defs₀ 𝒱₀ L lv m ρ main
    [.host (seg0 m), .region (reg0 m hbody)]
    (fun c Q => by rw [main_segs adm (dats m) () 𝒱₀ L lv (seg0 m) (reg0 m hbody) rfl c])
    (by simp only [Pipeline.Seg.pipes_host, Pipeline.Seg.pipes_region, Pipeline.Seg.pipes_nil]; decide)
    (O₀ := O₀) (hL := L_of_ne) (G := G) (u₀ := u₀)
    (hu₀ := hu₀)
    (T₀ := T₀ m) (Tₙ := Tₙ m)
    (hch := ⟨fun c => by
      show T₀ m c ⊢ iprop(StableHlo.held (c.tc : Thread nD τ) (Pipeline.ucRefs τ sig) (V₀ m c) ∗ rest m c)
      rw [← Pipeline.unscopedBufs_held c (V₀ m c)]
      exact .rfl, fun c => by
      show iprop(StableHlo.held (c.tc : Thread nD τ) (Pipeline.ucRefs τ sig) (StableHlo.after hostOps0 (V₀ m c)) ∗ rest m c) ⊢ pre0 m c
      rw [← Pipeline.unscopedBufs_held c (StableHlo.after hostOps0 (V₀ m c))]
      exact .rfl, fun c => by
      show post0 m c ⊢ _
      unfold post0 Tₙ Pipeline.Dat.owesAt Pipeline.owesWithin
      iintro ⟨Ha, %W, -, HO⟩
      isplitl [Ha]; · iexact Ha
      iexists W; iexact HO⟩)
    (hinit := launch_init m ρ)
    (QY := fun c s => ∀ w : Fin 3, s.mem ((spec0 w).arr.view.loc (c.tc : Thread nD τ)) = (dats m 0 c).arrAt w cfg0.N)
    (hfin := fun c s' => by
      have h := Pipeline.arrays_read (pcfgs (F := F)) adm (dats m) (p := 0) arr_whole0 c (share_eq m c) ((dats m 0 c).arrAt · cfg0.N) s'
      unfold Tₙ
      iintro H
      ihave H' := h $$ H
      imodintro
      iexact H')
    (hQ := fun s h c => ⟨((h c) 2).trans (arrAt_out m c),
      ((h c) 0).trans (((dats m 0 c).arrAt_in 0 rfl _).trans (V_main_arg0 m c)),
      ((h c) 1).trans (((dats m 0 c).arrAt_in 1 rfl _).trans (V_main_arg1 m c))⟩)

end Cert.KernelProof

end
-- ==== Proof.Kernel.Slots.lean ====
/-
  The four slots of the exchange buffer as element sets: which elements a copy's row view and a load's or store's rectangle touch,
  how the whole buffer splits into its slots and a slot into quarters of its share, and what the buffer reads and is left holding
  through those views when its contents are the final ones.
-/
import proofs.«901008_g7700000000001009_dist_rmsnorm_colshard_i_m512_n256_v7x_i4_bf16_1_alg».proof.Proof.Gen.Kernel
import proofs.«901008_g7700000000001009_dist_rmsnorm_colshard_i_m512_n256_v7x_i4_bf16_1_alg».proof.Proof.Gen.Kernel.Skeleton
import proofs.«901008_g7700000000001009_dist_rmsnorm_colshard_i_m512_n256_v7x_i4_bf16_1_alg».proof.Proof.Gen.Kernel.Launch
import proofs.«901008_g7700000000001009_dist_rmsnorm_colshard_i_m512_n256_v7x_i4_bf16_1_alg».proof.Proof.Gen.Kernel.Points
import Idealize.ShloMosaic.Lib.Pipeline.Launch
import Idealize.ShloMosaic.Lib.Pipeline.Kit
import Idealize.ShloMosaic.Lib.Pipeline.Regions
import Idealize.ShloMosaic.Lib.Pipeline.Value
import Idealize.ShloMosaic.Lib.Tactic
import proofs.«901008_g7700000000001009_dist_rmsnorm_colshard_i_m512_n256_v7x_i4_bf16_1_alg».proof.Proof.Kernel.Sched

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The element sets -/

/-- An element of the buffer lies in the rectangle of one row at first coordinate `n` exactly when its first coordinate
    is `n`: on the other two axes the rectangle is the whole extent (1 and 512). -/
theorem mem_rect_slot (c : Dev nD) (n : ℕ) (inb : ∀ a, (![n, 0, 0] : Fin 3 → ℕ) a + S1x1x512.size a ≤ S4x1x512.size a)
    (i : Idx ((c : Thread nD τ).loc cc0_scratch0)) :
    i ∈ (Rect.unit (s := S4x1x512) ![n, 0, 0] S1x1x512.size inb).set ↔ (i 0).val = n := by
  rw [Rect.mem_set_unit]
  have h1 : (i 1).val < 1 := (i 1).isLt
  have h2 : (i 2).val < 512 := (i 2).isLt
  constructor
  · intro h
    have h0 := h 0
    simp only [Matrix.cons_val_zero, Shape.size] at h0
    omega
  · intro h a
    fin_cases a
    · simp only [Fin.zero_eta, Matrix.cons_val_zero, Shape.size]; omega
    · simp only [Fin.mk_one, Matrix.cons_val_one, Matrix.cons_val_zero, Shape.size]; omega
    · simp only [Fin.reduceFinMk, Matrix.cons_val_two, Matrix.tail_cons, Matrix.head_cons, Matrix.cons_val_zero, Shape.size]; omega

theorem mem_slotSet (c : Dev nD) (k : Fin 4) (i : Idx ((c : Thread nD τ).loc cc0_scratch0)) :
    i ∈ slotSet c k ↔ (i 0).val = k.val := by
  simp only [slotSet, Finset.mem_filter, Finset.mem_univ, true_and]

/-- The rectangle of one row at first coordinate `k` is the element set of slot `k`. -/
theorem rect_set_eq (c : Dev nD) (n : ℕ) (k : Fin 4) (hk : k.val = n)
    (inb : ∀ a, (![n, 0, 0] : Fin 3 → ℕ) a + S1x1x512.size a ≤ S4x1x512.size a) :
    (Rect.unit (s := S4x1x512) ![n, 0, 0] S1x1x512.size inb).set = slotSet c k := by
  ext i
  exact (mem_rect_slot c n inb i).trans ((mem_slotSet c k i).trans (by rw [hk])).symm

/-- A copy's row view of slot `k` goes through exactly the elements of slot `k`: re-indexing a view keeps its elements,
    and a rectangle of the whole buffer goes through the rectangle's. -/
theorem slot0_set (c : Dev nD) : (slot0 : Memref sig .tc .vmem S1x512 .f32).view.set = slotSet c 0 :=
  ((View.set_reshape _ _).trans (View.set_slice_whole cc0_scratch0 rect0)).trans (rect_set_eq c 0 0 rfl _)
theorem slot1_set (c : Dev nD) : (slot1 : Memref sig .tc .vmem S1x512 .f32).view.set = slotSet c 1 :=
  ((View.set_reshape _ _).trans (View.set_slice_whole cc0_scratch0 rect1)).trans (rect_set_eq c 1 1 rfl _)
theorem slot2_set (c : Dev nD) : (slot2 : Memref sig .tc .vmem S1x512 .f32).view.set = slotSet c 2 :=
  ((View.set_reshape _ _).trans (View.set_slice_whole cc0_scratch0 rect2)).trans (rect_set_eq c 2 2 rfl _)
theorem slot3_set (c : Dev nD) : (slot3 : Memref sig .tc .vmem S1x512 .f32).view.set = slotSet c 3 :=
  ((View.set_reshape _ _).trans (View.set_slice_whole cc0_scratch0 rect3)).trans (rect_set_eq c 3 3 rfl _)

/-- Through the whole buffer an index is its own element, so the elements under a rectangle are the rectangle's. -/
theorem setOn_rM_sub (c : Dev nD) (n : ℕ) (k : Fin 4) (hk : k.val = n)
    (inb : ∀ a, (![n, 0, 0] : Fin 3 → ℕ) a + S1x1x512.size a ≤ S4x1x512.size a) :
    (rM : Memref sig .tc .vmem S4x1x512 .f32).view.setOn (Rect.unit (s := S4x1x512) ![n, 0, 0] S1x1x512.size inb).toLoadRect.set ⊆ slotSet c k := by
  intro i hi
  obtain ⟨x, hx, rfl⟩ := Finset.mem_map.mp hi
  exact (mem_slotSet c k _).mpr (((mem_rect_slot c n inb x).mp hx).trans hk.symm)

/-- A load of slot `k` through the whole buffer touches only slot `k`; -/
theorem load0_sub (c : Dev nD) : (rM : Memref sig .tc .vmem S4x1x512 .f32).view.setOn rect0.toLoadRect.set ⊆ slotSet c 0 := setOn_rM_sub c 0 0 rfl _
theorem load1_sub (c : Dev nD) : (rM : Memref sig .tc .vmem S4x1x512 .f32).view.setOn rect1.toLoadRect.set ⊆ slotSet c 1 := setOn_rM_sub c 1 1 rfl _
theorem load2_sub (c : Dev nD) : (rM : Memref sig .tc .vmem S4x1x512 .f32).view.setOn rect2.toLoadRect.set ⊆ slotSet c 2 := setOn_rM_sub c 2 2 rfl _
theorem load3_sub (c : Dev nD) : (rM : Memref sig .tc .vmem S4x1x512 .f32).view.setOn rect3.toLoadRect.set ⊆ slotSet c 3 := setOn_rM_sub c 3 3 rfl _
/-- and the store of slot 0 only slot 0. -/
theorem store0_sub (c : Dev nD) : ((rM : Memref sig .tc .vmem S4x1x512 .f32).access rect0 : View sig .tc _ _ _).setOn Finset.univ ⊆ slotSet c 0 := by
  intro i hi
  have h : ((rM : Memref sig .tc .vmem S4x1x512 .f32).access rect0 : View sig .tc _ _ _).setOn Finset.univ = slotSet c 0 :=
    (View.set_slice_whole cc0_scratch0 rect0).trans (rect_set_eq c 0 0 rfl _)
  exact (Finset.ext_iff.mp h i).mp hi

/-! ## Splitting -/

/-- Every element of the buffer is in the slot its first coordinate names. -/
theorem univ_eq_biUnion_slotSet (c : Dev nD) :
    (Finset.univ : Finset (Idx ((c : Thread nD τ).loc cc0_scratch0))) = (Finset.univ : Finset (Fin 4)).biUnion (slotSet c) := by
  ext i
  simp only [Finset.mem_univ, Finset.mem_biUnion, true_and, true_iff]
  exact ⟨⟨(i 0).val, (i 0).isLt⟩, (mem_slotSet c _ i).mpr rfl⟩

/-- Different slots share no element: an element has one first coordinate. -/
theorem slotSet_disjoint (c : Dev nD) :
    ∀ t ∈ (Finset.univ : Finset (Fin 4)), ∀ t' ∈ (Finset.univ : Finset (Fin 4)), t ≠ t' → Disjoint (slotSet c t) (slotSet c t') := by
  intro t _ t' _ hne
  rw [Finset.disjoint_left]
  intro i hi hi'
  exact hne (Fin.ext (((mem_slotSet c t i).mp hi).symm.trans ((mem_slotSet c t' i).mp hi')))

omit [FloatOps F] in
/-- The whole buffer is its four slots. -/
theorem scratch_split (c : Dev nD) (f : Buf (Elt F) ((c : Thread nD τ).loc cc0_scratch0)) :
    ((((c : Thread nD τ).loc cc0_scratch0) ↦{fullShare} f : sProp 𝕄))
      ⊣⊢ iprop(slotPts c 0 fullShare f ∗ slotPts c 1 fullShare f ∗ slotPts c 2 fullShare f ∗ slotPts c 3 fullShare f) := by
  refine BiEntails.of_eq ?_
  show ((((c : Thread nD τ).loc cc0_scratch0) ↦[Finset.univ]{fullShare} f : sProp 𝕄)) = _
  rw [univ_eq_biUnion_slotSet c, pointsTo_biUnion _ _ (slotSet_disjoint c),
    bigSep_univ_eq_bigSepL [(0 : Fin 4), 1, 2, 3] (by decide) (by decide), bigSepL_cons_cons, bigSepL_cons_cons, bigSepL_cons_cons,
    bigSepL_singleton]
  rfl

omit [FloatOps F] in
/-- Four slots held at four valuations make a whole buffer at some valuation. -/
theorem scratch_join (c : Dev nD) (f0 f1 f2 f3 : Buf (Elt F) ((c : Thread nD τ).loc cc0_scratch0)) :
    iprop(slotPts c 0 fullShare f0 ∗ slotPts c 1 fullShare f1 ∗ slotPts c 2 fullShare f2 ∗ slotPts c 3 fullShare f3)
      ⊢ (iprop(∃ g, ((c : Thread nD τ).loc cc0_scratch0) ↦{fullShare} g) : sProp 𝕄) := by
  refine BIBase.Entails.trans ?_ (BIBase.Entails.trans (pointsTo_biUnion_join (q := fullShare) (Finset.univ : Finset (Fin 4)) (slotSet c)
    ![f0, f1, f2, f3] f0 (slotSet_disjoint c)) ?_)
  · rw [bigSep_univ_eq_bigSepL [(0 : Fin 4), 1, 2, 3] (by decide) (by decide), bigSepL_cons_cons, bigSepL_cons_cons, bigSepL_cons_cons,
      bigSepL_singleton]
    exact BIBase.Entails.rfl
  · rw [← univ_eq_biUnion_slotSet c]
    iintro H
    icases H with ⟨%g, %hg, HS⟩
    iexists g
    iexact HS

omit [FloatOps F] in
/-- A slot held whole is its four quarters: the whole share is its two halves, and each half its two halves. -/
theorem slot_quarters (c : Dev nD) (k : Fin 4) (f : Buf (Elt F) ((c : Thread nD τ).loc cc0_scratch0)) :
    (slotPts c k fullShare f : sProp 𝕄)
      ⊣⊢ iprop(slotPts c k qKeep f ∗ slotPts c k (qLend 0) f ∗ slotPts c k (qLend 1) f ∗ slotPts c k (qLend 2) f) := by
  unfold slotPts
  exact (pointsTo_share (PosShare.mem_left_op_right fullShare)).trans
    ((sep_congr (pointsTo_share (PosShare.mem_left_op_right fullShare.left)) (pointsTo_share (PosShare.mem_left_op_right fullShare.right))).trans
      sep_assoc)

omit [FloatOps F] in
/-- Only a slot's own elements matter to its points-to. -/
theorem slotPts_congr (c : Dev nD) (k : Fin 4) (q : PosShare TreeShare) {f g : Buf (Elt F) ((c : Thread nD τ).loc cc0_scratch0)}
    (h : ∀ i ∈ slotSet c k, f i = g i) : (slotPts c k q f : sProp 𝕄) = slotPts c k q g := by
  unfold slotPts; exact pointsTo_congr h

/-! ## Contents through the views -/

/-- The final contents at an element of slot `k`, read at a row index `x` with the element's last coordinate: the row sums of
    device `c - k` at `x`. (A row index has 0 on its first two axes, whose extents are 1.) -/
theorem finalScr_apply (c : Dev nD) (i : Idx ((c : Thread nD τ).loc cc0_scratch0)) (k : Fin 4) (hk : (i 0).val = k.val)
    (x : S1x1x512.Idx) (hx : (x 2).val = (i 2).val) : finalScr m c i = rowSums m (srcDev c k) x := by
  unfold finalScr
  refine congr (congrArg (fun d => rowSums m (srcDev c d)) (Fin.ext hk)) ?_
  funext a
  apply Fin.ext
  have h0 : (x 0).val < 1 := (x 0).isLt
  have h1 : (x 1).val < 1 := (x 1).isLt
  fin_cases a
  · show 0 = (x 0).val; omega
  · show 0 = (x 1).val; omega
  · show (i 2).val = (x 2).val; omega

/-- The element of the buffer under row index `z` of the rectangle at first coordinate `n`: first coordinate `n`, -/
theorem rect_emb_val0 (n : ℕ) (inb : ∀ a, (![n, 0, 0] : Fin 3 → ℕ) a + S1x1x512.size a ≤ S4x1x512.size a) (z : S1x1x512.Idx) :
    ((Rect.unit (s := S4x1x512) ![n, 0, 0] S1x1x512.size inb).emb z 0).val = n := by
  have h0 : (z 0).val < 1 := (z 0).isLt
  show (![n, 0, 0] : Fin 3 → ℕ) 0 + 1 * (z 0).val = n
  simp only [Matrix.cons_val_zero]
  omega
/-- last coordinate that of `z`. -/
theorem rect_emb_val2 (n : ℕ) (inb : ∀ a, (![n, 0, 0] : Fin 3 → ℕ) a + S1x1x512.size a ≤ S4x1x512.size a) (z : S1x1x512.Idx) :
    ((Rect.unit (s := S4x1x512) ![n, 0, 0] S1x1x512.size inb).emb z 2).val = (z 2).val := by
  show (![n, 0, 0] : Fin 3 → ℕ) 2 + 1 * (z 2).val = (z 2).val
  simp only [Matrix.cons_val_two, Matrix.tail_cons, Matrix.head_cons]
  omega

/-- Slot 0 holds the device's own row sums; and going `k` on and then `4 - k` on comes back round the mesh of four. -/
theorem srcDev_zero (c : Dev nD) : srcDev c 0 = c := shift_four c
theorem srcDev_shift1 (c : Dev nD) : srcDev (shift c 1) 1 = c := (shift_shift c 1 3).trans (shift_four c)
theorem srcDev_shift2 (c : Dev nD) : srcDev (shift c 2) 2 = c := (shift_shift c 2 2).trans (shift_four c)
theorem srcDev_shift3 (c : Dev nD) : srcDev (shift c 3) 3 = c := (shift_shift c 3 1).trans (shift_four c)

/-- The store of a device's row sums into slot 0 leaves slot 0 at its final contents. -/
theorem store0_final (c : Dev nD) (f : Buf (Elt F) ((c : Thread nD τ).loc cc0_scratch0)) :
    ∀ i ∈ slotSet c 0, ((rM : Memref sig .tc .vmem S4x1x512 .f32).access rect0 : View sig .tc _ _ _).write (Elt F) f (k0_pay2 (xstg m c)) Finset.univ i = finalScr m c i := by
  intro i hi
  have hset : ((rM : Memref sig .tc .vmem S4x1x512 .f32).access rect0 : View sig .tc _ _ _).set = slotSet c 0 :=
    (View.set_slice_whole cc0_scratch0 rect0).trans (rect_set_eq c 0 0 rfl _)
  have hi' : i ∈ ((rM : Memref sig .tc .vmem S4x1x512 .f32).access rect0 : View sig .tc _ _ _).set := by rw [hset]; exact hi
  obtain ⟨y, rfl⟩ := View.exists_emb_of_mem_set _ hi'
  rw [View.write_emb_of_mem _ _ (Finset.mem_univ y)]
  refine Eq.trans ?_ (finalScr_apply m c _ 0 ((rect_emb_val0 0 _ y).trans rfl) y (rect_emb_val2 0 _ y).symm).symm
  rw [srcDev_zero]
  rfl

/-- A load of the rectangle at first coordinate `k` reads, of the final contents, the row sums of device `c - k`. -/
theorem load_final_aux (c : Dev nD) (n : ℕ) (k : Fin 4) (hk : k.val = n)
    (inb : ∀ a, (![n, 0, 0] : Fin 3 → ℕ) a + S1x1x512.size a ≤ S4x1x512.size a) :
    (rM : Memref sig .tc .vmem S4x1x512 .f32).view.readAt (Elt F) (Rect.unit (s := S4x1x512) ![n, 0, 0] S1x1x512.size inb).toLoadRect (finalScr m c)
      = rowSums m (srcDev c k) := by
  funext x
  show finalScr m c ((Rect.unit (s := S4x1x512) ![n, 0, 0] S1x1x512.size inb).emb x) = _
  exact finalScr_apply m c _ k ((rect_emb_val0 n inb x).trans hk.symm) x (rect_emb_val2 n inb x).symm

/-- A load of slot `k` of the final contents reads the row sums of device `c - k`. -/
theorem load0_final (c : Dev nD) : (rM : Memref sig .tc .vmem S4x1x512 .f32).view.readAt (Elt F) rect0.toLoadRect (finalScr m c) = rowSums m c :=
  (load_final_aux m c 0 0 rfl _).trans (congrArg (rowSums m) (srcDev_zero c))
theorem load1_final (c : Dev nD) : (rM : Memref sig .tc .vmem S4x1x512 .f32).view.readAt (Elt F) rect1.toLoadRect (finalScr m c) = rowSums m (shift c 3) :=
  load_final_aux m c 1 1 rfl _
theorem load2_final (c : Dev nD) : (rM : Memref sig .tc .vmem S4x1x512 .f32).view.readAt (Elt F) rect2.toLoadRect (finalScr m c) = rowSums m (shift c 2) :=
  load_final_aux m c 2 2 rfl _
theorem load3_final (c : Dev nD) : (rM : Memref sig .tc .vmem S4x1x512 .f32).view.readAt (Elt F) rect3.toLoadRect (finalScr m c) = rowSums m (shift c 1) :=
  load_final_aux m c 3 3 rfl _

/-- The copy of device `c`'s slot 0 into slot `k` of a device `d` with `d - k = c` leaves that slot at `d`'s final contents:
    under one row index the two row views reach the elements of slot 0 and of slot `k` with the same last coordinate, and both
    final contents hold the row sums of `c` there. -/
theorem land_final_aux (c d : Dev nD) (n : ℕ) (k : Fin 4) (hk : k.val = n) (hd : srcDev d k = c)
    (inb : ∀ a, (![n, 0, 0] : Fin 3 → ℕ) a + S1x1x512.size a ≤ S4x1x512.size a)
    (fd : Buf (Elt F) ((d : Thread nD τ).loc cc0_scratch0)) :
    ∀ i ∈ slotSet d k,
      (((rM : Memref sig .tc .vmem S4x1x512 .f32).slice (Rect.unit (s := S4x1x512) ![n, 0, 0] S1x1x512.size inb) (fun _ => rfl)).squeeze S1x512
          squeezes_S1x1x512_S1x512 : Memref sig .tc .vmem S1x512 .f32).view.write (Elt F) fd
        ((slot0 : Memref sig .tc .vmem S1x512 .f32).view.read (Elt F) (finalScr m c)) Finset.univ i = finalScr m d i := by
  intro i hi
  have hset : (((rM : Memref sig .tc .vmem S4x1x512 .f32).slice (Rect.unit (s := S4x1x512) ![n, 0, 0] S1x1x512.size inb) (fun _ => rfl)).squeeze S1x512
      squeezes_S1x1x512_S1x512 : Memref sig .tc .vmem S1x512 .f32).view.set = slotSet d k :=
    ((View.set_reshape _ _).trans (View.set_slice_whole cc0_scratch0 _)).trans (rect_set_eq d n k hk inb)
  have hi' : i ∈ (((rM : Memref sig .tc .vmem S4x1x512 .f32).slice (Rect.unit (s := S4x1x512) ![n, 0, 0] S1x1x512.size inb) (fun _ => rfl)).squeeze S1x512
      squeezes_S1x1x512_S1x512 : Memref sig .tc .vmem S1x512 .f32).view.set := by rw [hset]; exact hi
  obtain ⟨y, rfl⟩ := View.exists_emb_of_mem_set _ hi'
  rw [View.write_emb_of_mem _ _ (Finset.mem_univ y)]
  refine Eq.trans (b := rowSums m c (Shape.reshapeEquiv squeezes_S1x1x512_S1x512.numel_eq y)) ?_ ?_
  · show finalScr m c (rect0.emb (Shape.reshapeEquiv squeezes_S1x1x512_S1x512.numel_eq y)) = _
    rw [finalScr_apply m c _ 0 ((rect_emb_val0 0 _ _).trans rfl) (Shape.reshapeEquiv squeezes_S1x1x512_S1x512.numel_eq y) (rect_emb_val2 0 _ _).symm,
      srcDev_zero]
  · symm
    show finalScr m d ((Rect.unit (s := S4x1x512) ![n, 0, 0] S1x1x512.size inb).emb (Shape.reshapeEquiv squeezes_S1x1x512_S1x512.numel_eq y)) = _
    rw [finalScr_apply m d _ k ((rect_emb_val0 n inb _).trans hk.symm) (Shape.reshapeEquiv squeezes_S1x1x512_S1x512.numel_eq y) (rect_emb_val2 n inb _).symm,
      hd]

/-- The copy of device `c`'s slot 0 into slot `k` of device `c + k` leaves that slot at ITS final contents. -/
theorem land1_final (c : Dev nD) (fd : Buf (Elt F) (((shift c 1 : Dev nD) : Thread nD τ).loc cc0_scratch0)) :
    ∀ i ∈ slotSet (shift c 1) 1, (slot1 : Memref sig .tc .vmem S1x512 .f32).view.write (Elt F) fd ((slot0 : Memref sig .tc .vmem S1x512 .f32).view.read (Elt F) (finalScr m c)) Finset.univ i = finalScr m (shift c 1) i :=
  land_final_aux m c (shift c 1) 1 1 rfl (srcDev_shift1 c) _ fd
theorem land2_final (c : Dev nD) (fd : Buf (Elt F) (((shift c 2 : Dev nD) : Thread nD τ).loc cc0_scratch0)) :
    ∀ i ∈ slotSet (shift c 2) 2, (slot2 : Memref sig .tc .vmem S1x512 .f32).view.write (Elt F) fd ((slot0 : Memref sig .tc .vmem S1x512 .f32).view.read (Elt F) (finalScr m c)) Finset.univ i = finalScr m (shift c 2) i :=
  land_final_aux m c (shift c 2) 2 2 rfl (srcDev_shift2 c) _ fd
theorem land3_final (c : Dev nD) (fd : Buf (Elt F) (((shift c 3 : Dev nD) : Thread nD τ).loc cc0_scratch0)) :
    ∀ i ∈ slotSet (shift c 3) 3, (slot3 : Memref sig .tc .vmem S1x512 .f32).view.write (Elt F) fd ((slot0 : Memref sig .tc .vmem S1x512 .f32).view.read (Elt F) (finalScr m c)) Finset.univ i = finalScr m (shift c 3) i :=
  land_final_aux m c (shift c 3) 3 3 rfl (srcDev_shift3 c) _ fd

end Cert.KernelProof

end
-- ==== Proof.Kernel.Body.lean ====
/-
  One device's body, stepped in program order from what it holds at the start to what it gives back.
-/
import proofs.«901008_g7700000000001009_dist_rmsnorm_colshard_i_m512_n256_v7x_i4_bf16_1_alg».proof.Proof.Gen.Kernel
import proofs.«901008_g7700000000001009_dist_rmsnorm_colshard_i_m512_n256_v7x_i4_bf16_1_alg».proof.Proof.Gen.Kernel.Skeleton
import proofs.«901008_g7700000000001009_dist_rmsnorm_colshard_i_m512_n256_v7x_i4_bf16_1_alg».proof.Proof.Gen.Kernel.Launch
import proofs.«901008_g7700000000001009_dist_rmsnorm_colshard_i_m512_n256_v7x_i4_bf16_1_alg».proof.Proof.Gen.Kernel.Points
import Idealize.ShloMosaic.Lib.Pipeline.Launch
import Idealize.ShloMosaic.Lib.Pipeline.Kit
import Idealize.ShloMosaic.Lib.Pipeline.Regions
import Idealize.ShloMosaic.Lib.Pipeline.Value
import Idealize.ShloMosaic.Lib.Tactic
import proofs.«901008_g7700000000001009_dist_rmsnorm_colshard_i_m512_n256_v7x_i4_bf16_1_alg».proof.Proof.Kernel.State
import proofs.«901008_g7700000000001009_dist_rmsnorm_colshard_i_m512_n256_v7x_i4_bf16_1_alg».proof.Proof.Kernel.Slots

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Around the mesh and back -/

theorem shift13 (c : Dev nD) : shift (shift c 1) 3 = c := by revert c; decide
theorem shift22 (c : Dev nD) : shift (shift c 2) 2 = c := by revert c; decide
theorem shift31 (c : Dev nD) : shift (shift c 3) 1 = c := by revert c; decide

/-- The device's signal to `c + 1` hands over its slot 3 and its receive semaphore 2, to `c + 2` slot 2 and semaphore 1, to
    `c + 3` slot 1 and semaphore 0: the slot that device's copy lands in. -/
theorem barPay_s1 (c : Dev nD) : barPay (F := F) (shift c 1) 2 = iprop((∃ f, slotPts c 3 fullShare f) ∗ reached ER (recvCell c 2) 0) := by
  unfold barPay; show iprop((∃ f, slotPts (shift (shift c 1) 3) 3 fullShare f) ∗ reached ER (recvCell (shift (shift c 1) 3) 2) 0) = _
  rw [shift13]
theorem barPay_s2 (c : Dev nD) : barPay (F := F) (shift c 2) 1 = iprop((∃ f, slotPts c 2 fullShare f) ∗ reached ER (recvCell c 1) 0) := by
  unfold barPay; show iprop((∃ f, slotPts (shift (shift c 2) 2) 2 fullShare f) ∗ reached ER (recvCell (shift (shift c 2) 2) 1) 0) = _
  rw [shift22]
theorem barPay_s3 (c : Dev nD) : barPay (F := F) (shift c 3) 0 = iprop((∃ f, slotPts c 1 fullShare f) ∗ reached ER (recvCell c 0) 0) := by
  unfold barPay; show iprop((∃ f, slotPts (shift (shift c 3) 1) 1 fullShare f) ∗ reached ER (recvCell (shift (shift c 3) 1) 0) 0) = _
  rw [shift31]

/-! ## Whole staging buffers read and written whole -/

abbrev rx : Rect S512x256 := Rect.unit (s := S512x256) ![0, 0] S512x256.size inb_S512x256_S512x256_0_0
abbrev rg : Rect S256 := Rect.unit (s := S256) ![0] S256.size inb_S256_S256_0

omit [FloatOps F] in
theorem hz2 : (![0, 0] : Fin 2 → Nat) = fun _ => 0 := funext fun a => by fin_cases a <;> rfl
omit [FloatOps F] in
theorem hz1 : (![0] : Fin 1 → Nat) = fun _ => 0 := funext fun a => by fin_cases a; rfl
omit [FloatOps F] in
theorem read_x (f : (cc0_stg0_0 : Ref sig .tc).ty.Contents (Elt F)) : (xM : Memref sig .tc .vmem S512x256 .f32).view.readAt (Elt F) rx.toLoadRect f = f :=
  Memref.readAt_unit_zero (Elt F) cc0_stg0_0 hz2 _ f
omit [FloatOps F] in
theorem read_g (f : (cc0_stg1_0 : Ref sig .tc).ty.Contents (Elt F)) : (gM : Memref sig .tc .vmem S256 .f32).view.readAt (Elt F) rg.toLoadRect f = f :=
  Memref.readAt_unit_zero (Elt F) cc0_stg1_0 hz1 _ f
omit [FloatOps F] in
theorem write_out (f w : (cc0_stg2_0 : Ref sig .tc).ty.Contents (Elt F)) :
    ((oM : Memref sig .tc .vmem S512x256 .f32).access rx : View sig .tc _ _ _).write (Elt F) f w Finset.univ = w :=
  Memref.write_access_unit_zero_univ (Elt F) cc0_stg2_0 hz2 _ f w

/-! ## The wait at the barrier -/

/-- After its three signals a device owes only the three landings. -/
theorem O₅_pos {c : Dev nD} {g : GSem nD τ sig} {u : Unit} (h : 0 < O₅ c g u) : ∃ d o, g = recvCell d o := by
  unfold O₅ O₄ O₃ at h
  simp only [Pi.add_apply, Finsupp.add_apply, tallyAt_apply] at h
  by_contra hn
  have hr : ∀ d o, ¬ (g = recvCell d o ∧ True) := fun d o h' => hn ⟨d, o, h'.1⟩
  rw [if_neg (hr _ _), if_neg (hr _ _), if_neg (hr _ _)] at h
  exact Nat.lt_irrefl 0 h

omit [FloatOps F] in
/-- They are on receive semaphores, above its barrier semaphore: it may wait there. -/
theorem mayWait_bar (c : Dev nD) : (levAts L lv : sProp 𝕄) ⊢ MayWait (c : Thread nD τ) (.reg barS) () (O₅ c) :=
  MayOwe.of_cut (L := L) (lev := lv) 1 (fun p hp => by rw [Finset.mem_singleton.mp hp, L_tc]; exact Finset.mem_singleton_self _)
    (fun g u hg => by obtain ⟨d, o, rfl⟩ := O₅_pos hg; rw [L_tc]; exact Finset.mem_singleton_self _)
    (fun p hp => by rw [Finset.mem_singleton.mp hp]; dsimp only [lv]; rw [if_pos rfl])
    (fun g u hg => by obtain ⟨d, o, rfl⟩ := O₅_pos hg; rw [lv_recv]; decide)

/-! ## The splitting lemmas over the points-tos themselves -/

omit [FloatOps F] in
theorem quarters_raw (c : Dev nD) (f : Buf (Elt F) ((c : Thread nD τ).loc cc0_scratch0)) :
    ((((c : Thread nD τ).loc cc0_scratch0) ↦[slotSet c 0]{fullShare} f : sProp 𝕄))
      ⊣⊢ iprop((((c : Thread nD τ).loc cc0_scratch0) ↦[slotSet c 0]{qKeep} f) ∗ (((c : Thread nD τ).loc cc0_scratch0) ↦[slotSet c 0]{qLend 0} f)
          ∗ (((c : Thread nD τ).loc cc0_scratch0) ↦[slotSet c 0]{qLend 1} f) ∗ (((c : Thread nD τ).loc cc0_scratch0) ↦[slotSet c 0]{qLend 2} f)) :=
  slot_quarters c 0 f

omit [FloatOps F] in
theorem scratch_join_raw (c : Dev nD) (f0 f1 f2 f3 : Buf (Elt F) ((c : Thread nD τ).loc cc0_scratch0)) :
    iprop((((c : Thread nD τ).loc cc0_scratch0) ↦[slotSet c 0]{fullShare} f0) ∗ (((c : Thread nD τ).loc cc0_scratch0) ↦[slotSet c 1]{fullShare} f1)
        ∗ (((c : Thread nD τ).loc cc0_scratch0) ↦[slotSet c 2]{fullShare} f2) ∗ (((c : Thread nD τ).loc cc0_scratch0) ↦[slotSet c 3]{fullShare} f3))
      ⊢ (iprop(∃ g, ((c : Thread nD τ).loc cc0_scratch0) ↦{fullShare} g) : sProp 𝕄) :=
  scratch_join c f0 f1 f2 f3

/-! ## A copy's credit is the same for every slot -/

omit [FloatOps F] in
theorem amount_slot1 (sm : DmaSem sig) : (slot1 : Memref sig .tc .vmem S1x512 .f32).view.amount (.dma sm) = N := rfl
omit [FloatOps F] in
theorem amount_slot2 (sm : DmaSem sig) : (slot2 : Memref sig .tc .vmem S1x512 .f32).view.amount (.dma sm) = N := rfl
omit [FloatOps F] in
theorem amount_slot3 (sm : DmaSem sig) : (slot3 : Memref sig .tc .vmem S1x512 .f32).view.amount (.dma sm) = N := rfl

/-! ## The landings and the returned quarters, at their slots -/

theorem recvPay_0 (c : Dev nD) : recvPay m c 0 = ((((c : Thread nD τ).loc cc0_scratch0) ↦[slotSet c 1]{fullShare} finalScr m c : sProp 𝕄)) := rfl
theorem recvPay_1 (c : Dev nD) : recvPay m c 1 = ((((c : Thread nD τ).loc cc0_scratch0) ↦[slotSet c 2]{fullShare} finalScr m c : sProp 𝕄)) := rfl
theorem recvPay_2 (c : Dev nD) : recvPay m c 2 = ((((c : Thread nD τ).loc cc0_scratch0) ↦[slotSet c 3]{fullShare} finalScr m c : sProp 𝕄)) := rfl
theorem sendPay_0 (c : Dev nD) : sendPay m c 0 = ((((c : Thread nD τ).loc cc0_scratch0) ↦[slotSet c 0]{qLend 0} finalScr m c : sProp 𝕄)) := rfl
theorem sendPay_1 (c : Dev nD) : sendPay m c 1 = ((((c : Thread nD τ).loc cc0_scratch0) ↦[slotSet c 0]{qLend 1} finalScr m c : sProp 𝕄)) := rfl
theorem sendPay_2 (c : Dev nD) : sendPay m c 2 = ((((c : Thread nD τ).loc cc0_scratch0) ↦[slotSet c 0]{qLend 2} finalScr m c : sProp 𝕄)) := rfl

section Body

variable (κ : GSem nD τ sig → ℕ)

set_option maxHeartbeats 1600000 in
/-- Copy 1 (slot 0 into slot 2 of `c + 2`), the device addressed given as `n` with `n = c + 2`: the landing on receive
    semaphore 1 of `c + 2` is paid off what `c` owes. -/
theorem wp_copy1 (c n : Dev nD) (hn : n = shift c 2) {hsc : (slot2 : Memref sig (Dev.tc n : Thread nD τ).2.kind .vmem S1x512 .f32).view.ref.isScScratch = false}
    {hsrc : (slot0 : Memref sig .tc .vmem S1x512 .f32).view.WordExact} {hdst : (slot2 : Memref sig .tc .vmem S1x512 .f32).view.WordExact}
    {hsem : DmaTarget.Typed .vmem (.dma (rcvSem 1)) (.remote (Dev.tc n : Thread nD τ) (slot2 : Memref sig .tc .vmem S1x512 .f32) (.dma (sndSem 1)) hsc)}
    {α : Type} {Q : α → sProp 𝕄} {k : PUnit → Prog (TpuEff nD τ sig (Elt F) Λ₀ .tc) α}
    (fn : Buf (Elt F) (((shift c 2 : Dev nD) : Thread nD τ).loc cc0_scratch0)) (W : Waits sig Unit) :
    iprop(cellInv ER (Rd m) (κ (sendCell c 1)) (sendCell c 1) ∗ cellInv ER (Rd m) (κ (recvCell (shift c 2) 1)) (recvCell (shift c 2) 1)
        ∗ (((c : Thread nD τ).loc cc0_scratch0) ↦[slotSet c 0]{qLend 1} finalScr m c)
        ∗ ((((shift c 2 : Dev nD) : Thread nD τ).loc cc0_scratch0) ↦[slotSet (shift c 2) 2]{fullShare} fn)
        ∗ owes (c : Thread nD τ) (O₅ c) W
        ∗ dutyTok ER (sendCell c 1) 0 (0 : Fin 3) ∗ reached ER (sendCell c 1) 0
        ∗ dutyTok ER (recvCell (shift c 2) 1) 0 (0 : Fin 3) ∗ reached ER (recvCell (shift c 2) 1) 0)
      ⊢ iprop(((cred (tallyAt (sendCell c 1) () N) ∗ owes (c : Thread nD τ) (O₄ c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slot0 (.remote (Dev.tc n : Thread nD τ) slot2 (.dma (sndSem 1)) hsc) (.dma (rcvSem 1)) hsrc hdst hsem) k) Q) := by
  subst hn
  rw [← slot0_set c, ← slot2_set (shift c 2)]
  exact Rounds.wp_send_pointsTo 𝒱₀ ER (Rd m) (c : Thread nD τ) none (c' := ((shift c 2 : Dev nD) : Thread nD τ)) (src := slot0) (dst := slot2)
    (sS := .dma (sndSem 1)) (sem := .dma (rcvSem 1)) (q := qLend 1) (fs := finalScr m c) (fd := fn)
    (κ₁ := κ (sendCell c 1)) (κ₂ := κ (recvCell (shift c 2) 1)) (r₁ := 0) (r₂ := 0) (d₁ := (0 : Fin 3)) (d₂ := (0 : Fin 3))
    (by rw [duties_send]; exact Finset.mem_singleton_self _) (by rw [duties_recv]; exact Finset.mem_singleton_self _)
    () () N (amount_slot2 _) (amount_send m c 1 0) (amount_recv m (shift c 2) 1 0) (O₄ c) rfl (W := W)
    (by rw [payload_send]; unfold sendPay slotPts; rw [slot0_set c])
    (by rw [payload_recv]; unfold recvPay slotPts; rw [slot2_set (shift c 2)]
        exact Entails.of_eq (pointsTo_congr (land2_final m c fn)))

set_option maxHeartbeats 1600000 in
/-- Copy 0 (slot 0 into slot 1 of `c + 1`), the device addressed given as `n` with `n = c + 1`. -/
theorem wp_copy0 (c n : Dev nD) (hn : n = shift c 1) {hsc : (slot1 : Memref sig (Dev.tc n : Thread nD τ).2.kind .vmem S1x512 .f32).view.ref.isScScratch = false}
    {hsrc : (slot0 : Memref sig .tc .vmem S1x512 .f32).view.WordExact} {hdst : (slot1 : Memref sig .tc .vmem S1x512 .f32).view.WordExact}
    {hsem : DmaTarget.Typed .vmem (.dma (rcvSem 0)) (.remote (Dev.tc n : Thread nD τ) (slot1 : Memref sig .tc .vmem S1x512 .f32) (.dma (sndSem 0)) hsc)}
    {α : Type} {Q : α → sProp 𝕄} {k : PUnit → Prog (TpuEff nD τ sig (Elt F) Λ₀ .tc) α}
    (fn : Buf (Elt F) (((shift c 1 : Dev nD) : Thread nD τ).loc cc0_scratch0)) (W : Waits sig Unit) :
    iprop(cellInv ER (Rd m) (κ (sendCell c 0)) (sendCell c 0) ∗ cellInv ER (Rd m) (κ (recvCell (shift c 1) 0)) (recvCell (shift c 1) 0)
        ∗ (((c : Thread nD τ).loc cc0_scratch0) ↦[slotSet c 0]{qLend 0} finalScr m c)
        ∗ ((((shift c 1 : Dev nD) : Thread nD τ).loc cc0_scratch0) ↦[slotSet (shift c 1) 1]{fullShare} fn)
        ∗ owes (c : Thread nD τ) (O₄ c) W
        ∗ dutyTok ER (sendCell c 0) 0 (0 : Fin 3) ∗ reached ER (sendCell c 0) 0
        ∗ dutyTok ER (recvCell (shift c 1) 0) 0 (0 : Fin 3) ∗ reached ER (recvCell (shift c 1) 0) 0)
      ⊢ iprop(((cred (tallyAt (sendCell c 0) () N) ∗ owes (c : Thread nD τ) (O₃ c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slot0 (.remote (Dev.tc n : Thread nD τ) slot1 (.dma (sndSem 0)) hsc) (.dma (rcvSem 0)) hsrc hdst hsem) k) Q) := by
  subst hn
  rw [← slot0_set c, ← slot1_set (shift c 1)]
  exact Rounds.wp_send_pointsTo 𝒱₀ ER (Rd m) (c : Thread nD τ) none (c' := ((shift c 1 : Dev nD) : Thread nD τ)) (src := slot0) (dst := slot1)
    (sS := .dma (sndSem 0)) (sem := .dma (rcvSem 0)) (q := qLend 0) (fs := finalScr m c) (fd := fn)
    (κ₁ := κ (sendCell c 0)) (κ₂ := κ (recvCell (shift c 1) 0)) (r₁ := 0) (r₂ := 0) (d₁ := (0 : Fin 3)) (d₂ := (0 : Fin 3))
    (by rw [duties_send]; exact Finset.mem_singleton_self _) (by rw [duties_recv]; exact Finset.mem_singleton_self _)
    () () N (amount_slot1 _) (amount_send m c 0 0) (amount_recv m (shift c 1) 0 0) (O₃ c) rfl (W := W)
    (by rw [payload_send]; unfold sendPay slotPts; rw [slot0_set c])
    (by rw [payload_recv]; unfold recvPay slotPts; rw [slot1_set (shift c 1)]
        exact Entails.of_eq (pointsTo_congr (land1_final m c fn)))

set_option maxHeartbeats 1600000 in
/-- Copy 2 (slot 0 into slot 3 of `c + 3`), the device addressed given as `n` with `n = c + 3`: after it nothing is owed. -/
theorem wp_copy2 (c n : Dev nD) (hn : n = shift c 3) {hsc : (slot3 : Memref sig (Dev.tc n : Thread nD τ).2.kind .vmem S1x512 .f32).view.ref.isScScratch = false}
    {hsrc : (slot0 : Memref sig .tc .vmem S1x512 .f32).view.WordExact} {hdst : (slot3 : Memref sig .tc .vmem S1x512 .f32).view.WordExact}
    {hsem : DmaTarget.Typed .vmem (.dma (rcvSem 2)) (.remote (Dev.tc n : Thread nD τ) (slot3 : Memref sig .tc .vmem S1x512 .f32) (.dma (sndSem 2)) hsc)}
    {α : Type} {Q : α → sProp 𝕄} {k : PUnit → Prog (TpuEff nD τ sig (Elt F) Λ₀ .tc) α}
    (fn : Buf (Elt F) (((shift c 3 : Dev nD) : Thread nD τ).loc cc0_scratch0)) (W : Waits sig Unit) :
    iprop(cellInv ER (Rd m) (κ (sendCell c 2)) (sendCell c 2) ∗ cellInv ER (Rd m) (κ (recvCell (shift c 3) 2)) (recvCell (shift c 3) 2)
        ∗ (((c : Thread nD τ).loc cc0_scratch0) ↦[slotSet c 0]{qLend 2} finalScr m c)
        ∗ ((((shift c 3 : Dev nD) : Thread nD τ).loc cc0_scratch0) ↦[slotSet (shift c 3) 3]{fullShare} fn)
        ∗ owes (c : Thread nD τ) (O₃ c) W
        ∗ dutyTok ER (sendCell c 2) 0 (0 : Fin 3) ∗ reached ER (sendCell c 2) 0
        ∗ dutyTok ER (recvCell (shift c 3) 2) 0 (0 : Fin 3) ∗ reached ER (recvCell (shift c 3) 2) 0)
      ⊢ iprop(((cred (tallyAt (sendCell c 2) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slot0 (.remote (Dev.tc n : Thread nD τ) slot3 (.dma (sndSem 2)) hsc) (.dma (rcvSem 2)) hsrc hdst hsem) k) Q) := by
  subst hn
  rw [← slot0_set c, ← slot3_set (shift c 3)]
  exact Rounds.wp_send_pointsTo 𝒱₀ ER (Rd m) (c : Thread nD τ) none (c' := ((shift c 3 : Dev nD) : Thread nD τ)) (src := slot0) (dst := slot3)
    (sS := .dma (sndSem 2)) (sem := .dma (rcvSem 2)) (q := qLend 2) (fs := finalScr m c) (fd := fn)
    (κ₁ := κ (sendCell c 2)) (κ₂ := κ (recvCell (shift c 3) 2)) (r₁ := 0) (r₂ := 0) (d₁ := (0 : Fin 3)) (d₂ := (0 : Fin 3))
    (by rw [duties_send]; exact Finset.mem_singleton_self _) (by rw [duties_recv]; exact Finset.mem_singleton_self _)
    () () N (amount_slot3 _) (amount_send m c 2 0) (amount_recv m (shift c 3) 2 0) 0 (show O₃ c = 0 + tallyAt (recvCell (shift c 3) 2) () N from (zero_add _).symm) (W := W)
    (by rw [payload_send]; unfold sendPay slotPts; rw [slot0_set c])
    (by rw [payload_recv]; unfold recvPay slotPts; rw [slot3_set (shift c 3)]
        exact Entails.of_eq (pointsTo_congr (land3_final m c fn)))

set_option maxHeartbeats 1600000 in
/-- The body from `bodyPre` to `bodyPost`, one rule per effect in program order. -/
theorem sound_body (c : Dev nD) (Kt : PUnit → sProp 𝕄) :
    iprop(bodyPre m κ c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  sl_unfold [cc0_body, cc0_body_skel]
  sl_unfold [k0_part7, k0_part7_skel]
  sl_unfold [k0_part1, k0_part1_skel]
  simp only [semSignalWord, semWaitWord, Prog.lift, Prog.bind_op, Prog.bind_ret, Prog.pure_eq_ret, wp_deviceId]
  unfold bodyPre ghost invs positions reaches payToks creds
  iintro ⟨⟨⟨⟨⟨#HIb, #HIs0, #HIs1, #HIs2, #HIr0, #HIr1, #HIr2, #HIb1, #HIb2, #HIb3, #HIn1, #HIn2, #HIn3⟩,
        ⟨HaB, HaS0, HaS1, HaS2, HaR0, HaR1, HaR2⟩,
        ⟨#HrB1, #HrB2, #HrB3, #HrS0, #HrS1, #HrS2, #HrR0, #HrR1, #HrR2⟩,
        ⟨HtB1, HtB2, HtB3, HtS0, HtS1, HtS2, HtN1, HtN2, HtN3⟩⟩,
      ⟨HcB, HcR0, HcR1, HcR2⟩, #Hlev, ⟨%f0, Hscr⟩⟩,
    Ho, ⟨%d0, %g0, %hg0, Hx⟩, ⟨%d1, %g1, %hg1, Hg⟩, ⟨%d2, %g2, %hg2, Hout⟩⟩, Hk⟩
  have hx : g0 = xstg m c := by
    rw [hg0]; unfold Dat.before; rw [if_pos (fetch0_0 t₀)]
    show (win0_0.blk t₀).view.read (Elt F) (V m c main_arg0) = _
    rw [V_main_arg0]; rfl
  have hgam : g1 = gstg m c := by
    rw [hg1]; unfold Dat.before; rw [if_pos (fetch0_1 t₀)]
    show (win0_1.blk t₀).view.read (Elt F) (V m c main_arg1) = _
    rw [V_main_arg1]; rfl
  subst hx
  subst hgam
  unfold Dat.owesAt Pipeline.owesWithin
  icases Ho with ⟨%W, %hW, HO⟩
  rw [show (dats m 0 c).owed t₀.castSucc = O₀ c from rfl]
  simp only [dev1_eq c, dev2_eq c]
  -- the four-slot buffer, slot by slot
  ihave Hsp := (scratch_split (F := F) c f0).1 $$ Hscr
  icases Hsp with ⟨Hs0, Hs1, Hs2, Hs3⟩
  -- the signal to `c + 1`: with it go slot 3 and receive semaphore 2
  iapply (Rounds.wp_signal 𝒱₀ ER (Rd m) (c : Thread nD τ) none (dst := ((shift c 1 : Dev nD) : Thread nD τ)) (κ := κ (barCell (shift c 1)))
      (d := (2 : Fin 3)) (by rw [duties_bar]; exact Finset.mem_univ _) ((amount_bar m (shift c 1) 2).trans (by decide)) () (O₁ c) rfl)
    $$ [HO HtB1 Hs3]
  · isplitr; · iexact HIb1
    isplitl [HO]; · iexact HO
    isplitl [HtB1]; · iexact HtB1
    isplitl [Hs3]
    · rw [payload_bar, barPay_s1]
      isplitl [Hs3]; · iexists f0; iexact Hs3
      iexact HrR2
    · iexact HrB1
  iintro HO
  -- the signal to `c + 2`: slot 2 and receive semaphore 1
  iapply (Rounds.wp_signal 𝒱₀ ER (Rd m) (c : Thread nD τ) none (dst := ((shift c 2 : Dev nD) : Thread nD τ)) (κ := κ (barCell (shift c 2)))
      (d := (1 : Fin 3)) (by rw [duties_bar]; exact Finset.mem_univ _) ((amount_bar m (shift c 2) 1).trans (by decide)) () (O₂ c) rfl)
    $$ [HO HtB2 Hs2]
  · isplitr; · iexact HIb2
    isplitl [HO]; · iexact HO
    isplitl [HtB2]; · iexact HtB2
    isplitl [Hs2]
    · rw [payload_bar, barPay_s2]
      isplitl [Hs2]; · iexists f0; iexact Hs2
      iexact HrR1
    · iexact HrB2
  iintro HO
  -- the signal to `c + 3`: slot 1 and receive semaphore 0
  simp only [bind_assoc]
  sl_unfold [k0_part2, k0_part2_skel]
  simp only [semSignalWord, semWaitWord, Prog.lift, Prog.bind_op, Prog.bind_ret, Prog.pure_eq_ret, dev3_eq c]
  iapply (Rounds.wp_signal 𝒱₀ ER (Rd m) (c : Thread nD τ) none (dst := ((shift c 3 : Dev nD) : Thread nD τ)) (κ := κ (barCell (shift c 3)))
      (d := (0 : Fin 3)) (by rw [duties_bar]; exact Finset.mem_univ _) ((amount_bar m (shift c 3) 0).trans (by decide)) () (O₅ c) rfl)
    $$ [HO HtB3 Hs1]
  · isplitr; · iexact HIb3
    isplitl [HO]; · iexact HO
    isplitl [HtB3]; · iexact HtB3
    isplitl [Hs1]
    · rw [payload_bar, barPay_s3]
      isplitl [Hs1]; · iexists f0; iexact Hs1
      iexact HrR0
    · iexact HrB3
  iintro HO
  -- its columns of `x`
  iapply (wp_load 𝒱₀ (c : Thread nD τ) none Set.univ (m := xM) (Finset.subset_univ _)) $$ Hx; iintro Hx
  rw [read_x]
  -- slot 0, read for nothing and then written whole with the row sums: from here it holds its final contents
  unfold slotPts
  iapply (wp_load 𝒱₀ (c : Thread nD τ) none Set.univ (m := rM) (load0_sub c)) $$ Hs0; iintro Hs0
  iapply (wp_store 𝒱₀ (c : Thread nD τ) none Set.univ (m := rM) (r := rect0) (Mk := Finset.univ) (store0_sub c)) $$ Hs0; iintro Hs0
  ihave Hs0 := (Entails.of_eq (pointsTo_congr (store0_final m c f0))) $$ Hs0
  -- the wait for three on its barrier semaphore, owing the three landings: with it come the three slots it copies into
  iapply (Rounds.wp_wait_rest_token 𝒱₀ ER (Rd m) (c : Thread nD τ) none (κ := κ (barCell c))
      (wpE_semWait_eq 𝒱₀ (c : Thread nD τ) none Set.univ) (Set.mem_univ _) () (O := O₅ c) (W := W) (R := 0) (m := 0) (T := ∅)
      (by rw [expect_bar]; decide)) $$ [HcB HO HaB]
  · isplitr; · iexact HIb
    isplitl [HcB]; · iexact HcB
    isplitl [HO]; · iexact HO
    isplitr; · iapply (mayWait_bar c); iexact Hlev
    iexact HaB
  iintro ⟨HO, HaB, -, Hpay⟩
  ihave Hp := (Entails.of_eq (rest_bar m c)) $$ Hpay
  unfold barPay slotPts
  icases Hp with ⟨⟨⟨%fn1, Hd1⟩, #HrN1⟩, ⟨⟨%fn2, Hd2⟩, #HrN2⟩, ⟨⟨%fn3, Hd3⟩, #HrN3⟩⟩
  -- slot 0 in quarters: one to read through, three for the copies
  ihave Hq := (quarters_raw (F := F) c (finalScr m c)).1 $$ Hs0
  icases Hq with ⟨HqK, Hq0, Hq1, Hq2⟩
  simp only [bind_assoc]
  sl_unfold [k0_part3, k0_part3_skel]
  simp only [Prog.lift, Prog.bind_op, Prog.bind_ret, Prog.pure_eq_ret]
  -- copy 1: slot 0 into slot 2 of `c + 2`
  iapply (wp_copy1 m κ c _ (dev4_eq c) fn2 _) $$ [Hq1 Hd2 HO HtS1 HtN2]
  · isplitr; · iexact HIs1
    isplitr; · iexact HIn2
    isplitl [Hq1]; · iexact Hq1
    isplitl [Hd2]; · iexact Hd2
    isplitl [HO]; · iexact HO
    isplitl [HtS1]; · iexact HtS1
    isplitr; · iexact HrS1
    isplitl [HtN2]; · iexact HtN2
    iexact HrN2
  iintro ⟨HcS1, HO⟩
  -- copy 0: slot 0 into slot 1 of `c + 1`
  iapply (wp_copy0 m κ c _ (dev5_eq c) fn1 _) $$ [Hq0 Hd1 HO HtS0 HtN1]
  · isplitr; · iexact HIs0
    isplitr; · iexact HIn1
    isplitl [Hq0]; · iexact Hq0
    isplitl [Hd1]; · iexact Hd1
    isplitl [HO]; · iexact HO
    isplitl [HtS0]; · iexact HtS0
    isplitr; · iexact HrS0
    isplitl [HtN1]; · iexact HtN1
    iexact HrN1
  iintro ⟨HcS0, HO⟩
  simp only [bind_assoc]
  sl_unfold [k0_part4, k0_part4_skel]
  simp only [Prog.lift, Prog.bind_op, Prog.bind_ret, Prog.pure_eq_ret]
  -- copy 2: slot 0 into slot 3 of `c + 3`
  iapply (wp_copy2 m κ c _ (dev6_eq c) fn3 _) $$ [Hq2 Hd3 HO HtS2 HtN3]
  · isplitr; · iexact HIs2
    isplitr; · iexact HIn3
    isplitl [Hq2]; · iexact Hq2
    isplitl [Hd3]; · iexact Hd3
    isplitl [HO]; · iexact HO
    isplitl [HtS2]; · iexact HtS2
    isplitr; · iexact HrS2
    isplitl [HtN3]; · iexact HtN3
    iexact HrN3
  iintro ⟨HcS2, HO⟩
  -- its columns of `γ`
  iapply (wp_load 𝒱₀ (c : Thread nD τ) none Set.univ (m := gM) (Finset.subset_univ _)) $$ Hg; iintro Hg
  rw [read_g]
  simp only [bind_assoc]
  sl_unfold [k0_part5, k0_part5_skel]
  simp only [Prog.lift, Prog.bind_op, Prog.bind_ret, Prog.pure_eq_ret]
  -- the wait on receive semaphore 0: slot 1 holding the row sums of `c - 1`
  iapply (Rounds.wp_wait_rest_token 𝒱₀ ER (Rd m) (c : Thread nD τ) none (κ := κ (recvCell c 0))
      (wpE_waitDma2_eq 𝒱₀ (c : Thread nD τ) none Set.univ) (Set.mem_univ _) () (O := 0) (R := 0) (m := 0) (T := ∅)
      (by rw [Nat.zero_add]; exact ((expect_recv m c 0).trans rfl).symm)) $$ [HcR0 HO HaR0]
  · isplitr; · iexact HIr0
    isplitl [HcR0]; · iexact HcR0
    isplitl [HO]; · iexact HO
    isplitr; · rw [MayWait_zero]; iempintro
    iexact HaR0
  iintro ⟨HO, HaR0, -, Hpay⟩
  ihave Hr1 := (Entails.of_eq ((rest_recv m c 0).trans (recvPay_0 m c))) $$ Hpay
  -- the wait on receive semaphore 1: slot 2 holding the row sums of `c - 2`
  iapply (Rounds.wp_wait_rest_token 𝒱₀ ER (Rd m) (c : Thread nD τ) none (κ := κ (recvCell c 1))
      (wpE_waitDma2_eq 𝒱₀ (c : Thread nD τ) none Set.univ) (Set.mem_univ _) () (O := 0) (R := 0) (m := 0) (T := ∅)
      (by rw [Nat.zero_add]; exact ((expect_recv m c 1).trans rfl).symm)) $$ [HcR1 HO HaR1]
  · isplitr; · iexact HIr1
    isplitl [HcR1]; · iexact HcR1
    isplitl [HO]; · iexact HO
    isplitr; · rw [MayWait_zero]; iempintro
    iexact HaR1
  iintro ⟨HO, HaR1, -, Hpay⟩
  ihave Hr2 := (Entails.of_eq ((rest_recv m c 1).trans (recvPay_1 m c))) $$ Hpay
  simp only [bind_assoc]
  sl_unfold [k0_part6, k0_part6_skel]
  simp only [Prog.lift, Prog.bind_op, Prog.bind_ret, Prog.pure_eq_ret]
  -- the wait on receive semaphore 2: slot 3 holding the row sums of `c - 3`
  iapply (Rounds.wp_wait_rest_token 𝒱₀ ER (Rd m) (c : Thread nD τ) none (κ := κ (recvCell c 2))
      (wpE_waitDma2_eq 𝒱₀ (c : Thread nD τ) none Set.univ) (Set.mem_univ _) () (O := 0) (R := 0) (m := 0) (T := ∅)
      (by rw [Nat.zero_add]; exact ((expect_recv m c 2).trans rfl).symm)) $$ [HcR2 HO HaR2]
  · isplitr; · iexact HIr2
    isplitl [HcR2]; · iexact HcR2
    isplitl [HO]; · iexact HO
    isplitr; · rw [MayWait_zero]; iempintro
    iexact HaR2
  iintro ⟨HO, HaR2, -, Hpay⟩
  ihave Hr3 := (Entails.of_eq ((rest_recv m c 2).trans (recvPay_2 m c))) $$ Hpay
  -- the four slots read: the row sums of `c`, `c - 1`, `c - 2`, `c - 3`
  iapply (wp_load 𝒱₀ (c : Thread nD τ) none Set.univ (m := rM) (load0_sub c)) $$ HqK; iintro HqK
  rw [load0_final]
  iapply (wp_load 𝒱₀ (c : Thread nD τ) none Set.univ (m := rM) (load1_sub c)) $$ Hr1; iintro Hr1
  rw [load1_final]
  iapply (wp_load 𝒱₀ (c : Thread nD τ) none Set.univ (m := rM) (load2_sub c)) $$ Hr2; iintro Hr2
  rw [load2_final]
  iapply (wp_load 𝒱₀ (c : Thread nD τ) none Set.univ (m := rM) (load3_sub c)) $$ Hr3; iintro Hr3
  rw [load3_final]
  -- the result: read for nothing, then stored whole
  iapply (wp_load 𝒱₀ (c : Thread nD τ) none Set.univ (m := oM) (Finset.subset_univ _)) $$ Hout; iintro Hout
  iapply (wp_store 𝒱₀ (c : Thread nD τ) none Set.univ (m := oM) (r := rx) (Mk := Finset.univ) (Finset.subset_univ _)) $$ Hout; iintro Hout
  rw [write_out]
  -- the wait on send semaphore 1: the quarter of slot 0 copy 1 read
  iapply (Rounds.wp_wait_rest_token 𝒱₀ ER (Rd m) (c : Thread nD τ) none (κ := κ (sendCell c 1))
      (wpE_waitDma2_eq 𝒱₀ (c : Thread nD τ) none Set.univ) (Set.mem_univ _) () (O := 0) (R := 0) (m := 0) (T := ∅)
      (by rw [Nat.zero_add]; exact ((expect_send m c 1).trans rfl).symm)) $$ [HcS1 HO HaS1]
  · isplitr; · iexact HIs1
    isplitl [HcS1]; · iexact HcS1
    isplitl [HO]; · iexact HO
    isplitr; · rw [MayWait_zero]; iempintro
    iexact HaS1
  iintro ⟨HO, HaS1, -, Hpay⟩
  ihave Hq1 := (Entails.of_eq ((rest_send m c 1).trans (sendPay_1 m c))) $$ Hpay
  -- the wait on send semaphore 0
  iapply (Rounds.wp_wait_rest_token 𝒱₀ ER (Rd m) (c : Thread nD τ) none (κ := κ (sendCell c 0))
      (wpE_waitDma2_eq 𝒱₀ (c : Thread nD τ) none Set.univ) (Set.mem_univ _) () (O := 0) (R := 0) (m := 0) (T := ∅)
      (by rw [Nat.zero_add]; exact ((expect_send m c 0).trans rfl).symm)) $$ [HcS0 HO HaS0]
  · isplitr; · iexact HIs0
    isplitl [HcS0]; · iexact HcS0
    isplitl [HO]; · iexact HO
    isplitr; · rw [MayWait_zero]; iempintro
    iexact HaS0
  iintro ⟨HO, HaS0, -, Hpay⟩
  ihave Hq0 := (Entails.of_eq ((rest_send m c 0).trans (sendPay_0 m c))) $$ Hpay
  -- the wait on send semaphore 2
  iapply (Rounds.wp_wait_rest_token 𝒱₀ ER (Rd m) (c : Thread nD τ) none (κ := κ (sendCell c 2))
      (wpE_waitDma2_eq 𝒱₀ (c : Thread nD τ) none Set.univ) (Set.mem_univ _) () (O := 0) (R := 0) (m := 0) (T := ∅)
      (by rw [Nat.zero_add]; exact ((expect_send m c 2).trans rfl).symm)) $$ [HcS2 HO HaS2]
  · isplitr; · iexact HIs2
    isplitl [HcS2]; · iexact HcS2
    isplitl [HO]; · iexact HO
    isplitr; · rw [MayWait_zero]; iempintro
    iexact HaS2
  iintro ⟨HO, HaS2, -, Hpay⟩
  ihave Hq2 := (Entails.of_eq ((rest_send m c 2).trans (sendPay_2 m c))) $$ Hpay
  -- the six own semaphores close: their counters at zero are the device's again
  imod (Rounds.cell_close ER (Rd m) (Set.mem_univ (κ (sendCell c 0))) (fun h => h) (R := 0 + 1) (duties_later m (sendCell c 0))) $$ [HaS0] with HzS0
  · isplitr; · iexact HIs0
    iexact HaS0
  imod (Rounds.cell_close ER (Rd m) (Set.mem_univ (κ (sendCell c 1))) (fun h => h) (R := 0 + 1) (duties_later m (sendCell c 1))) $$ [HaS1] with HzS1
  · isplitr; · iexact HIs1
    iexact HaS1
  imod (Rounds.cell_close ER (Rd m) (Set.mem_univ (κ (sendCell c 2))) (fun h => h) (R := 0 + 1) (duties_later m (sendCell c 2))) $$ [HaS2] with HzS2
  · isplitr; · iexact HIs2
    iexact HaS2
  imod (Rounds.cell_close ER (Rd m) (Set.mem_univ (κ (recvCell c 0))) (fun h => h) (R := 0 + 1) (duties_later m (recvCell c 0))) $$ [HaR0] with HzR0
  · isplitr; · iexact HIr0
    iexact HaR0
  imod (Rounds.cell_close ER (Rd m) (Set.mem_univ (κ (recvCell c 1))) (fun h => h) (R := 0 + 1) (duties_later m (recvCell c 1))) $$ [HaR1] with HzR1
  · isplitr; · iexact HIr1
    iexact HaR1
  imod (Rounds.cell_close ER (Rd m) (Set.mem_univ (κ (recvCell c 2))) (fun h => h) (R := 0 + 1) (duties_later m (recvCell c 2))) $$ [HaR2] with HzR2
  · isplitr; · iexact HIr2
    iexact HaR2
  -- slot 0 whole again, and the buffer whole again
  ihave Hs0 := (quarters_raw (F := F) c (finalScr m c)).2 $$ [HqK Hq0 Hq1 Hq2]
  · isplitl [HqK]; · iexact HqK
    isplitl [Hq0]; · iexact Hq0
    isplitl [Hq1]; · iexact Hq1
    iexact Hq2
  ihave Hscr := (scratch_join_raw (F := F) c (finalScr m c) (finalScr m c) (finalScr m c) (finalScr m c)) $$ [Hs0 Hr1 Hr2 Hr3]
  · isplitl [Hs0]; · iexact Hs0
    isplitl [Hr1]; · iexact Hr1
    isplitl [Hr2]; · iexact Hr2
    iexact Hr3
  rw [wp_ret]; imodintro
  iapply Hk
  unfold bodyPost Φ₁ ownZero Dat.owesAt Pipeline.owesWithin
  rw [show (dats m 0 c).owed t₀.succ = 0 from rfl]
  isplitl [Hscr HzS0 HzS1 HzS2 HzR0 HzR1 HzR2]
  · isplitl [Hscr]; · iexact Hscr
    isplitl [HzS0]; · iexact HzS0
    isplitl [HzS1]; · iexact HzS1
    isplitl [HzS2]; · iexact HzS2
    isplitl [HzR0]; · iexact HzR0
    isplitl [HzR1]; · iexact HzR1
    iexact HzR2
  isplitl [HO]
  · iexists (insert (SemLoc.dma (sndSem 2), ()) (insert (SemLoc.dma (sndSem 0), ()) (insert (SemLoc.dma (sndSem 1), ())
      (insert (SemLoc.dma (rcvSem 2), ()) (insert (SemLoc.dma (rcvSem 1), ()) (insert (SemLoc.dma (rcvSem 0), ())
        (insert (SemLoc.reg barS, ()) W)))))))
    isplitr; · ipureintro; exact fun _ _ => Or.inl trivial
    iexact HO
  isplitl [Hx]
  · iexists _; isplitr; · (ipureintro; rfl)
    iexact Hx
  isplitl [Hg]
  · iexists _; isplitr; · (ipureintro; rfl)
    iexact Hg
  iexists _; isplitr; · (ipureintro; rfl)
  iexact Hout

end Body

set_option maxRecDepth 4000 in
/-- What the pipeline hands the body at its one grid point. -/
def bodyPre' (c : Dev nD) : sProp 𝕄 :=
  iprop(Φ₀ m c ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

set_option maxRecDepth 4000 in
/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) cc0_scratch1 cc0_scratch2)
    (fun _ => bodyPost m c)
  unfold bodyPre' Φ₀ start
  iintro ⟨⟨⟨⟨%κ, Hgh⟩, Hcr, Hlev⟩, Hscr⟩, Ho, Hx, Hgm, Hout⟩
  iapply (sound_body m κ c fun _ => bodyPost m c)
  unfold bodyPre
  isplitr []
  · isplitl [Hgh Hcr Hlev Hscr]
    · isplitl [Hgh]; · iexact Hgh
      isplitl [Hcr]; · iexact Hcr
      isplitl [Hlev]; · iexact Hlev
      iexact Hscr
    isplitl [Ho]; · iexact Ho
    isplitl [Hx]; · iexact Hx
    isplitl [Hgm]; · iexact Hgm
    iexact Hout
  · iintro H; iexact H

end Cert.KernelProof

end
-- ==== Proof.Kernel.Run.lean ====
/-
  The run of @main on the four devices, with each device's result named.
-/
import proofs.«901008_g7700000000001009_dist_rmsnorm_colshard_i_m512_n256_v7x_i4_bf16_1_alg».proof.Proof.Gen.Kernel
import proofs.«901008_g7700000000001009_dist_rmsnorm_colshard_i_m512_n256_v7x_i4_bf16_1_alg».proof.Proof.Gen.Kernel.Skeleton
import proofs.«901008_g7700000000001009_dist_rmsnorm_colshard_i_m512_n256_v7x_i4_bf16_1_alg».proof.Proof.Gen.Kernel.Launch
import proofs.«901008_g7700000000001009_dist_rmsnorm_colshard_i_m512_n256_v7x_i4_bf16_1_alg».proof.Proof.Gen.Kernel.Points
import Idealize.ShloMosaic.Lib.Pipeline.Launch
import Idealize.ShloMosaic.Lib.Pipeline.Kit
import Idealize.ShloMosaic.Lib.Pipeline.Regions
import Idealize.ShloMosaic.Lib.Pipeline.Value
import Idealize.ShloMosaic.Lib.Tactic
import proofs.«901008_g7700000000001009_dist_rmsnorm_colshard_i_m512_n256_v7x_i4_bf16_1_alg».proof.Proof.Gen.Kernel.Frame
import proofs.«901008_g7700000000001009_dist_rmsnorm_colshard_i_m512_n256_v7x_i4_bf16_1_alg».proof.Proof.Kernel.Launch
import proofs.«901008_g7700000000001009_dist_rmsnorm_colshard_i_m512_n256_v7x_i4_bf16_1_alg».proof.Proof.Kernel.Body

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Every weakly fair execution of @main ends, no fault on the way, each device's result buffer holding `outAt m c` and its two
    arguments what they held. -/
theorem run_main : θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_main_of m ρ (fun c => body_obligation m c)

end Cert.KernelProof

end
-- ==== Proof.KernelIdeal.Geom.lean ====
/-
  Four devices hold 256 of the 1024 columns each. A device squares and sums its columns row by row, puts the 512 sums in
  slot 0 of a four-slot buffer, and sends slot 0 to slot k of device c + k (k = 1, 2, 3): afterwards slot k of device c holds
  the sums of device c - k, and the four slots add up to the row's sum of squares over all 1024 columns.
  This module names the devices around the mesh, the buffers and their four slots, the semaphores, and the buffer's final contents.
-/
import proofs.«901008_g7700000000001009_dist_rmsnorm_colshard_i_m512_n256_v7x_i4_bf16_1_alg».proof.Proof.Gen.KernelIdeal
import proofs.«901008_g7700000000001009_dist_rmsnorm_colshard_i_m512_n256_v7x_i4_bf16_1_alg».proof.Proof.Gen.KernelIdeal.Skeleton
import proofs.«901008_g7700000000001009_dist_rmsnorm_colshard_i_m512_n256_v7x_i4_bf16_1_alg».proof.Proof.Gen.KernelIdeal.Launch
import proofs.«901008_g7700000000001009_dist_rmsnorm_colshard_i_m512_n256_v7x_i4_bf16_1_alg».proof.Proof.Gen.KernelIdeal.Points
import Idealize.ShloMosaic.Lib.Pipeline.Launch
import Idealize.ShloMosaic.Lib.Pipeline.Kit
import Idealize.ShloMosaic.Lib.Pipeline.Regions
import Idealize.ShloMosaic.Lib.Pipeline.Value
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The mesh -/

/-- Device `c + k` around the mesh of four. -/
def shift (c : Dev nD) (k : ℕ) : Dev nD := ⟨(c.val + k) % 4, Nat.mod_lt _ (by decide)⟩

theorem shift_zero (c : Dev nD) : shift c 0 = c := by revert c; decide
theorem shift_four (c : Dev nD) : shift c 4 = c := by revert c; decide
theorem shift_shift (c : Dev nD) (j k : ℕ) : shift (shift c j) k = shift c (j + k) := by
  apply Fin.ext; simp only [shift]; omega
theorem shift_ne (c : Dev nD) (k : ℕ) (h1 : 0 < k) (h4 : k < 4) : shift c k ≠ c := by
  intro h; have := congrArg Fin.val h; simp only [shift] at this; omega

theorem k0_dev1_eq : ∀ c : Dev nD, k0_dev1 c = (c.val + 1) % 4 := by decide +kernel
theorem k0_dev2_eq : ∀ c : Dev nD, k0_dev2 c = (c.val + 2) % 4 := by decide +kernel
theorem k0_dev3_eq : ∀ c : Dev nD, k0_dev3 c = (c.val + 3) % 4 := by decide +kernel
theorem k0_dev4_eq : ∀ c : Dev nD, k0_dev4 c = (c.val + 2) % 4 := by decide +kernel
theorem k0_dev5_eq : ∀ c : Dev nD, k0_dev5 c = (c.val + 1) % 4 := by decide +kernel
theorem k0_dev6_eq : ∀ c : Dev nD, k0_dev6 c = (c.val + 3) % 4 := by decide +kernel

/-- The three signals name `c + 1`, `c + 2`, `c + 3`; the three copies `c + 2`, `c + 1`, `c + 3`. -/
theorem dev1_eq (c : Dev nD) : (⟨k0_dev1 c, k0_dev1_lt c⟩ : Dev nD) = shift c 1 := Fin.ext (k0_dev1_eq c)
theorem dev2_eq (c : Dev nD) : (⟨k0_dev2 c, k0_dev2_lt c⟩ : Dev nD) = shift c 2 := Fin.ext (k0_dev2_eq c)
theorem dev3_eq (c : Dev nD) : (⟨k0_dev3 c, k0_dev3_lt c⟩ : Dev nD) = shift c 3 := Fin.ext (k0_dev3_eq c)
theorem dev4_eq (c : Dev nD) : (⟨k0_dev4 c, k0_dev4_lt c⟩ : Dev nD) = shift c 2 := Fin.ext (k0_dev4_eq c)
theorem dev5_eq (c : Dev nD) : (⟨k0_dev5 c, k0_dev5_lt c⟩ : Dev nD) = shift c 1 := Fin.ext (k0_dev5_eq c)
theorem dev6_eq (c : Dev nD) : (⟨k0_dev6 c, k0_dev6_lt c⟩ : Dev nD) = shift c 3 := Fin.ext (k0_dev6_eq c)

/-! ## The buffers -/

abbrev xM : Memref sig .tc .vmem S512x256 .f32 := Memref.whole cc0_stg0_0
abbrev gM : Memref sig .tc .vmem S256 .f32 := Memref.whole cc0_stg1_0
abbrev oM : Memref sig .tc .vmem S512x256 .f32 := Memref.whole cc0_stg2_0
abbrev rM : Memref sig .tc .vmem S4x1x512 .f32 := Memref.whole cc0_scratch0

/-- The rectangle of slot `k` in the four-slot buffer. -/
abbrev rect0 : Rect S4x1x512 := Rect.unit (s := S4x1x512) ![0, 0, 0] S1x1x512.size inb_S4x1x512_S1x1x512_0_0_0
abbrev rect1 : Rect S4x1x512 := Rect.unit (s := S4x1x512) ![1, 0, 0] S1x1x512.size inb_S4x1x512_S1x1x512_1_0_0
abbrev rect2 : Rect S4x1x512 := Rect.unit (s := S4x1x512) ![2, 0, 0] S1x1x512.size inb_S4x1x512_S1x1x512_2_0_0
abbrev rect3 : Rect S4x1x512 := Rect.unit (s := S4x1x512) ![3, 0, 0] S1x1x512.size inb_S4x1x512_S1x1x512_3_0_0

/-- Slot `k` as the copies see it: a row of 512. -/
abbrev slot0 : Memref sig .tc .vmem S1x512 .f32 := (rM.slice rect0 (fun _ => rfl)).squeeze S1x512 squeezes_S1x1x512_S1x512
abbrev slot1 : Memref sig .tc .vmem S1x512 .f32 := (rM.slice rect1 (fun _ => rfl)).squeeze S1x512 squeezes_S1x1x512_S1x512
abbrev slot2 : Memref sig .tc .vmem S1x512 .f32 := (rM.slice rect2 (fun _ => rfl)).squeeze S1x512 squeezes_S1x1x512_S1x512
abbrev slot3 : Memref sig .tc .vmem S1x512 .f32 := (rM.slice rect3 (fun _ => rfl)).squeeze S1x512 squeezes_S1x1x512_S1x512

/-- The elements of slot `k`: those whose first coordinate is `k`. -/
def slotSet (c : Dev nD) (k : Fin 4) : Finset (Idx ((c : Thread nD τ).loc cc0_scratch0)) :=
  Finset.univ.filter fun i => (i 0).val = k.val

/-! ## The semaphores -/

abbrev barS : Sem sig := (SemArray.scalar (sig.barrier 0 rfl) : Sems sig S_).sem
abbrev snd1 : DmaSems sig S_ := (cc0_scratch1.slice (Rect.unit (s := S4) ![1] S1.size inb_S4_S1_1)).squeeze S_ squeezes_S1_S_
abbrev snd2 : DmaSems sig S_ := (cc0_scratch1.slice (Rect.unit (s := S4) ![2] S1.size inb_S4_S1_2)).squeeze S_ squeezes_S1_S_
abbrev snd3 : DmaSems sig S_ := (cc0_scratch1.slice (Rect.unit (s := S4) ![3] S1.size inb_S4_S1_3)).squeeze S_ squeezes_S1_S_
abbrev rcv1 : DmaSems sig S_ := (cc0_scratch2.slice (Rect.unit (s := S4) ![1] S1.size inb_S4_S1_1)).squeeze S_ squeezes_S1_S_
abbrev rcv2 : DmaSems sig S_ := (cc0_scratch2.slice (Rect.unit (s := S4) ![2] S1.size inb_S4_S1_2)).squeeze S_ squeezes_S1_S_
abbrev rcv3 : DmaSems sig S_ := (cc0_scratch2.slice (Rect.unit (s := S4) ![3] S1.size inb_S4_S1_3)).squeeze S_ squeezes_S1_S_

/-- Copy `o` (`o = 0, 1, 2`) goes `o + 1` devices on, into slot `o + 1` there; its send and receive semaphores. -/
abbrev sndSem : Fin 3 → DmaSem sig := fun | 0 => snd1.sem | 1 => snd2.sem | 2 => snd3.sem
abbrev rcvSem : Fin 3 → DmaSem sig := fun | 0 => rcv1.sem | 1 => rcv2.sem | 2 => rcv3.sem

theorem sndSem_val : ∀ o : Fin 3, (sndSem o).val = 4 + o.val := by decide
theorem rcvSem_val : ∀ o : Fin 3, (rcvSem o).val = 8 + o.val := by decide

abbrev barCell (c : Dev nD) : GSem nD τ sig := ((c : Thread nD τ), .reg barS)
abbrev sendCell (c : Dev nD) (o : Fin 3) : GSem nD τ sig := ((c : Thread nD τ), .dma (sndSem o))
abbrev recvCell (c : Dev nD) (o : Fin 3) : GSem nD τ sig := ((c : Thread nD τ), .dma (rcvSem o))

end Cert.KernelIdealProof

end
-- ==== Proof.KernelIdeal.Sched.lean ====
/-
  The protocol of the exchange, as a schedule of rounds: every semaphore is waited once, in round 0.
  A device's barrier semaphore is signalled one unit by each of the other three; duty `o` of it is the signal of device c + o + 1,
  and hands c what it needs to copy there: slot o + 1 of that device's four-slot buffer, and that the receive semaphore o there
  is open. Receive semaphore o of c is credited by the copy from c - o - 1, which leaves slot o + 1 of c holding that device's
  row sums; send semaphore o of c by c's own copy o, which gives back the share of slot 0 it read.
-/
import proofs.«901008_g7700000000001009_dist_rmsnorm_colshard_i_m512_n256_v7x_i4_bf16_1_alg».proof.Proof.Gen.KernelIdeal
import proofs.«901008_g7700000000001009_dist_rmsnorm_colshard_i_m512_n256_v7x_i4_bf16_1_alg».proof.Proof.Gen.KernelIdeal.Skeleton
import proofs.«901008_g7700000000001009_dist_rmsnorm_colshard_i_m512_n256_v7x_i4_bf16_1_alg».proof.Proof.Gen.KernelIdeal.Launch
import proofs.«901008_g7700000000001009_dist_rmsnorm_colshard_i_m512_n256_v7x_i4_bf16_1_alg».proof.Proof.Gen.KernelIdeal.Points
import Idealize.ShloMosaic.Lib.Pipeline.Launch
import Idealize.ShloMosaic.Lib.Pipeline.Kit
import Idealize.ShloMosaic.Lib.Pipeline.Regions
import Idealize.ShloMosaic.Lib.Pipeline.Value
import Idealize.ShloMosaic.Lib.Tactic
import proofs.«901008_g7700000000001009_dist_rmsnorm_colshard_i_m512_n256_v7x_i4_bf16_1_alg».proof.Proof.KernelIdeal.Geom

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds algebra beside the exchange's own (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Contents -/

/-- Device `c`'s columns of `x` and of `γ`, as staged. -/
def xstg (c : Dev nD) : (cc0_stg0_0 : Ref sig .tc).ty.Contents (Elt F) :=
  (win0_0.blk t0_0).view.read (Elt F) (m ((c : Thread nD τ).loc main_arg0))
def gstg (c : Dev nD) : (cc0_stg1_0 : Ref sig .tc).ty.Contents (Elt F) :=
  (win0_1.blk t0_0).view.read (Elt F) (m ((c : Thread nD τ).loc main_arg1))

/-- The row sums of squares of device `c`'s columns, as the row of 512 it stores in slot 0. -/
def rowSums (c : Dev nD) : FVec F S1x1x512 .f32 := k0_pay2 (xstg m c)

/-- Slot `k` of device `c` ends holding the row sums of device `c - k`. -/
def srcDev (c : Dev nD) (k : Fin 4) : Dev nD := shift c (4 - k.val)

/-- The four-slot buffer of device `c` once every copy has landed. -/
def finalScr (c : Dev nD) : (cc0_scratch0 : Ref sig .tc).ty.Contents (Elt F) := fun i =>
  rowSums m (srcDev c ⟨(i 0).val, (i 0).isLt⟩) (fun a => match a with
    | ⟨0, _⟩ => ⟨0, Nat.one_pos⟩
    | ⟨1, _⟩ => ⟨0, Nat.one_pos⟩
    | ⟨2, _⟩ => ⟨(i 2).val, (i 2).isLt⟩)

/-- What the device stores as its result. -/
def outAt (c : Dev nD) : (cc0_stg2_0 : Ref sig .tc).ty.Contents (Elt F) :=
  k0_pay6 (k0_pay3 (k0_pay1 (xstg m c)) (gstg m c))
    (k0_pay4 (rowSums m c) (rowSums m (shift c 3)) (rowSums m (shift c 2)) (rowSums m (shift c 1))) (k0_pay5 (F := F))

/-! ## Points-tos -/

/-- Slot `k` of device `c`'s four-slot buffer, held at share `q` with the buffer reading `f` there. -/
def slotPts (c : Dev nD) (k : Fin 4) (q : PosShare TreeShare) (f : Buf (Elt F) ((c : Thread nD τ).loc cc0_scratch0)) : sProp 𝕄 :=
  ((c : Thread nD τ).loc cc0_scratch0) ↦[slotSet c k]{q} f

omit [FloatOps F] in
instance slotPts_storable (c : Dev nD) (k : Fin 4) (q) (f) : BI.Storable (upEmb : UEmb _ 𝕄) (slotPts (F := F) c k q f) := by
  unfold slotPts; infer_instance

/-- The four quarters of a slot: one kept by the owner to read through, three lent to its copies. -/
abbrev qKeep : PosShare TreeShare := fullShare.left.left
abbrev qLend : Fin 3 → PosShare TreeShare := fun | 0 => fullShare.left.right | 1 => fullShare.right.left | 2 => fullShare.right.right

/-- The amount one copy credits its two semaphores. -/
abbrev N : ℕ := (slot1 : Memref sig .tc .vmem S1x512 .f32).view.dmaCredit
theorem N_pos : 0 < N := View.dmaCredit_pos _ (by decide)

/-! ## The schedule -/

/-- Slot `o + 1`, as an index of the four. -/
abbrev slotOf (o : Fin 3) : Fin 4 := ⟨o.val + 1, by omega⟩

/-- What device `c + o + 1`'s signal hands `c`: its slot `o + 1`, and that its receive semaphore `o` is open. -/
def barPay (c : Dev nD) (o : Fin 3) : sProp 𝕄 :=
  iprop((∃ f, slotPts (shift c (o.val + 1)) (slotOf o) fullShare f) ∗ reached ER (recvCell (shift c (o.val + 1)) o) 0)
/-- What the copy from `c - o - 1` leaves `c`: its slot `o + 1` holding that device's row sums. -/
def recvPay (c : Dev nD) (o : Fin 3) : sProp 𝕄 := slotPts c (slotOf o) fullShare (finalScr m c)
/-- What `c`'s copy `o` gives back: the quarter of slot 0 it read. -/
def sendPay (c : Dev nD) (o : Fin 3) : sProp 𝕄 := slotPts c 0 (qLend o) (finalScr m c)

/-- The payload of a DMA semaphore by its number: 4, 5, 6 are the send semaphores, 8, 9, 10 the receive ones. -/
def dmaPay (c : Dev nD) (q : DmaSem sig) : sProp 𝕄 :=
  if h : 4 ≤ q.val ∧ q.val ≤ 6 then sendPay m c ⟨q.val - 4, by omega⟩
  else if h : 8 ≤ q.val ∧ q.val ≤ 10 then recvPay m c ⟨q.val - 8, by omega⟩
  else iprop(emp)

abbrev IsBar (g : GSem nD τ sig) : Prop := g.1.2 = .tc ∧ g.2 = .reg barS
abbrev IsXfer (g : GSem nD τ sig) : Prop := g.1.2 = .tc ∧ ∃ o : Fin 3, g.2 = .dma (sndSem o) ∨ g.2 = .dma (rcvSem o)

instance (g : GSem nD τ sig) : Decidable (IsXfer g) := by unfold IsXfer; infer_instance

/-- One round: a barrier semaphore has three duties of one unit; a send or receive semaphore one duty of a copy's credit. -/
def Rd : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d := match g.2 with
    | .reg s => if s = barS then barPay g.1.1 d else iprop(emp)
    | .dma q => dmaPay m g.1.1 q
  amount_pos g _ _ _ := by
    by_cases h : g.2 = .reg barS
    · rw [if_pos h]; exact Nat.one_pos
    · rw [if_neg h]; exact N_pos

instance Rd_payload_storable (g : GSem nD τ sig) (r : ℕ) (d : Fin 3) :
    BI.Storable (upEmb : UEmb _ 𝕄) ((Rd (F := F) m).payload g r d) := by
  show BI.Storable upEmb (match g.2 with
    | .reg s => if s = barS then barPay g.1.1 d else iprop(emp)
    | .dma q => dmaPay m g.1.1 q)
  unfold barPay dmaPay recvPay sendPay
  (repeat' split) <;> infer_instance

section Sched
variable (c : Dev nD) (o : Fin 3)

theorem send_ne_bar : (SemLoc.dma (sndSem o) : SemLoc sig) ≠ .reg barS := fun h => by cases h
theorem recv_ne_bar : (SemLoc.dma (rcvSem o) : SemLoc sig) ≠ .reg barS := fun h => by cases h
theorem not_bar_send : ¬ IsBar (sendCell c o) := fun h => send_ne_bar o h.2
theorem not_bar_recv : ¬ IsBar (recvCell c o) := fun h => recv_ne_bar o h.2
theorem xfer_send : IsXfer (sendCell c o) := ⟨rfl, o, .inl rfl⟩
theorem xfer_recv : IsXfer (recvCell c o) := ⟨rfl, o, .inr rfl⟩

theorem duties_bar : (Rd (F := F) m).duties (barCell c) 0 = Finset.univ := by dsimp only [Rd]; exact if_pos ⟨rfl, rfl, rfl⟩
theorem duties_send : (Rd (F := F) m).duties (sendCell c o) 0 = {0} := by
  dsimp only [Rd]; rw [if_neg (fun h => not_bar_send c o h.2)]; exact if_pos ⟨rfl, xfer_send c o⟩
theorem duties_recv : (Rd (F := F) m).duties (recvCell c o) 0 = {0} := by
  dsimp only [Rd]; rw [if_neg (fun h => not_bar_recv c o h.2)]; exact if_pos ⟨rfl, xfer_recv c o⟩
theorem duties_later (g : GSem nD τ sig) : ∀ r, 1 ≤ r → (Rd (F := F) m).duties g r = ∅ :=
  fun r hr => by dsimp only [Rd]; rw [if_neg fun h => by omega, if_neg fun h => by omega]

theorem amount_bar (d : Fin 3) : (Rd (F := F) m).amount (barCell c) 0 d = 1 := by dsimp only [Rd]; exact if_pos rfl
theorem amount_send (d : Fin 3) : (Rd (F := F) m).amount (sendCell c o) 0 d = N := by dsimp only [Rd]; exact if_neg (send_ne_bar o)
theorem amount_recv (d : Fin 3) : (Rd (F := F) m).amount (recvCell c o) 0 d = N := by dsimp only [Rd]; exact if_neg (recv_ne_bar o)

theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (Rd (F := F) m).expect (sendCell c o) 0 = N := by
  unfold Schedule.expect Schedule.amountOf; rw [duties_send, Finset.sum_singleton, amount_send]
theorem expect_recv : (Rd (F := F) m).expect (recvCell c o) 0 = N := by
  unfold Schedule.expect Schedule.amountOf; rw [duties_recv, Finset.sum_singleton, amount_recv]

theorem payload_bar (d : Fin 3) : (Rd (F := F) m).payload (barCell c) 0 d = barPay c d := by
  dsimp only [Rd]; rw [if_pos rfl]
theorem payload_send (d : Fin 3) : (Rd (F := F) m).payload (sendCell c o) 0 d = sendPay m c o := by
  dsimp only [Rd, dmaPay]; fin_cases o <;> rfl
theorem payload_recv (d : Fin 3) : (Rd (F := F) m).payload (recvCell c o) 0 d = recvPay m c o := by
  dsimp only [Rd, dmaPay]; fin_cases o <;> rfl

/-- The whole of the barrier's round: the three devices' slots and open receive semaphores. -/
theorem rest_bar : bigSep ((Rd (F := F) m).duties (barCell c) 0 \ ∅) (fun d => (Rd (F := F) m).payload (barCell c) 0 d)
    = iprop(barPay c 0 ∗ barPay c 1 ∗ barPay c 2) := by
  rw [Finset.sdiff_empty, duties_bar, bigSep_univ_eq_bigSepL [(0 : Fin 3), 1, 2] (by decide) (by decide), bigSepL_cons_cons, bigSepL_cons_cons, bigSepL_singleton,
    payload_bar, payload_bar, payload_bar]
  rfl
theorem rest_send : bigSep ((Rd (F := F) m).duties (sendCell c o) 0 \ ∅) (fun d => (Rd (F := F) m).payload (sendCell c o) 0 d) = sendPay m c o := by
  rw [Finset.sdiff_empty, duties_send, bigSep_singleton, payload_send]
theorem rest_recv : bigSep ((Rd (F := F) m).duties (recvCell c o) 0 \ ∅) (fun d => (Rd (F := F) m).payload (recvCell c o) 0 d) = recvPay m c o := by
  rw [Finset.sdiff_empty, duties_recv, bigSep_singleton, payload_recv]

end Sched

/-! ## What each device owes at launch; the levels -/

/-- Device `c` owes each other device one unit on its barrier semaphore and a copy's credit on one of its receive semaphores,
    summed so that each step of the body pays the last summand: the signals to `c + 1`, `c + 2`, `c + 3`, then the copies
    to `c + 2`, `c + 1`, `c + 3`. -/
def O₃ (c : Dev nD) : CellTallies nD τ sig Unit := tallyAt (recvCell (shift c 3) 2) () N
def O₄ (c : Dev nD) : CellTallies nD τ sig Unit := O₃ c + tallyAt (recvCell (shift c 1) 0) () N
def O₅ (c : Dev nD) : CellTallies nD τ sig Unit := O₄ c + tallyAt (recvCell (shift c 2) 1) () N
def O₂ (c : Dev nD) : CellTallies nD τ sig Unit := O₅ c + tallyAt (barCell (shift c 3)) () 1
def O₁ (c : Dev nD) : CellTallies nD τ sig Unit := O₂ c + tallyAt (barCell (shift c 2)) () 1
def O₀ (c : Dev nD) : CellTallies nD τ sig Unit := O₁ c + tallyAt (barCell (shift c 1)) () 1

def L (g : GSem nD τ sig) : Finset Unit := if g.1.2 = .tc then {()} else ∅
/-- Barrier semaphores at 1, receive semaphores at 2, everything else (staging, send) at 0. -/
def lv (g : GSem nD τ sig) (_ : Unit) : ℕ := if g.2 = .reg barS then 1 else if ∃ o : Fin 3, g.2 = .dma (rcvSem o) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c : Dev nD) (o : Fin 3) (u : Unit) : lv (recvCell c o) u = 2 := by
  dsimp only [lv]; rw [if_neg (recv_ne_bar o), if_pos ⟨o, rfl⟩]

/-- Everything a device ever owes is on a barrier or a receive semaphore of a TensorCore. -/
theorem O₀_pos {c : Dev nD} {g : GSem nD τ sig} {u : Unit} (h : 0 < O₀ c g u) :
    (∃ d, g = barCell d) ∨ ∃ d o, g = recvCell d o := by
  unfold O₀ O₁ O₂ O₅ O₄ O₃ at h
  simp only [Pi.add_apply, Finsupp.add_apply, tallyAt_apply] at h
  by_contra hn
  rw [not_or] at hn
  have hb : ∀ d, ¬ (g = barCell d ∧ True) := fun d h' => hn.1 ⟨d, h'.1⟩
  have hr : ∀ d o, ¬ (g = recvCell d o ∧ True) := fun d o h' => hn.2 ⟨d, o, h'.1⟩
  rw [if_neg (hr _ _), if_neg (hr _ _), if_neg (hr _ _), if_neg (hb _), if_neg (hb _), if_neg (hb _)] at h
  exact Nat.lt_irrefl 0 h

end Cert.KernelIdealProof

end
-- ==== Proof.KernelIdeal.State.lean ====
/-
  What a device's body holds when it starts and when it ends, and the pipeline's proof data around it.
  At the start: every semaphore's invariant it will open (its own seven, the other three devices' barrier semaphores, and the
  receive semaphore each of its copies credits); its position at round 0 of its own seven; that round 0 is reached where it
  signals or sends; the token of each duty it pays (three barrier signals, three sends, three landings); credit for the waits
  others pay (three units on its barrier, a copy's credit on each receive semaphore); and the four-slot buffer.
  At the end: the buffer back whole and its six own DMA semaphores at zero.
-/
import proofs.«901008_g7700000000001009_dist_rmsnorm_colshard_i_m512_n256_v7x_i4_bf16_1_alg».proof.Proof.Gen.KernelIdeal
import proofs.«901008_g7700000000001009_dist_rmsnorm_colshard_i_m512_n256_v7x_i4_bf16_1_alg».proof.Proof.Gen.KernelIdeal.Skeleton
import proofs.«901008_g7700000000001009_dist_rmsnorm_colshard_i_m512_n256_v7x_i4_bf16_1_alg».proof.Proof.Gen.KernelIdeal.Launch
import proofs.«901008_g7700000000001009_dist_rmsnorm_colshard_i_m512_n256_v7x_i4_bf16_1_alg».proof.Proof.Gen.KernelIdeal.Points
import proofs.«901008_g7700000000001009_dist_rmsnorm_colshard_i_m512_n256_v7x_i4_bf16_1_alg».proof.Proof.Gen.KernelIdeal.Frame
import Idealize.ShloMosaic.Lib.Pipeline.Launch
import Idealize.ShloMosaic.Lib.Pipeline.Kit
import Idealize.ShloMosaic.Lib.Pipeline.Regions
import Idealize.ShloMosaic.Lib.Pipeline.Value
import Idealize.ShloMosaic.Lib.Tactic
import proofs.«901008_g7700000000001009_dist_rmsnorm_colshard_i_m512_n256_v7x_i4_bf16_1_alg».proof.Proof.KernelIdeal.Sched

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The invariants a body opens -/

/-- Under the names `κ`: the device's own barrier, send and receive semaphores, the other devices' barrier semaphores, and the
    receive semaphores its three copies credit. -/
def invs (κ : GSem nD τ sig → ℕ) (c : Dev nD) : sProp 𝕄 :=
  iprop(cellInv ER (Rd m) (κ (barCell c)) (barCell c)
    ∗ cellInv ER (Rd m) (κ (sendCell c 0)) (sendCell c 0) ∗ cellInv ER (Rd m) (κ (sendCell c 1)) (sendCell c 1) ∗ cellInv ER (Rd m) (κ (sendCell c 2)) (sendCell c 2)
    ∗ cellInv ER (Rd m) (κ (recvCell c 0)) (recvCell c 0) ∗ cellInv ER (Rd m) (κ (recvCell c 1)) (recvCell c 1) ∗ cellInv ER (Rd m) (κ (recvCell c 2)) (recvCell c 2)
    ∗ cellInv ER (Rd m) (κ (barCell (shift c 1))) (barCell (shift c 1)) ∗ cellInv ER (Rd m) (κ (barCell (shift c 2))) (barCell (shift c 2)) ∗ cellInv ER (Rd m) (κ (barCell (shift c 3))) (barCell (shift c 3))
    ∗ cellInv ER (Rd m) (κ (recvCell (shift c 1) 0)) (recvCell (shift c 1) 0) ∗ cellInv ER (Rd m) (κ (recvCell (shift c 2) 1)) (recvCell (shift c 2) 1)
    ∗ cellInv ER (Rd m) (κ (recvCell (shift c 3) 2)) (recvCell (shift c 3) 2))

instance invs_persistent (κ : GSem nD τ sig → ℕ) (c : Dev nD) : BI.Persistent (invs m κ c) := by unfold invs; infer_instance

/-- The device's positions at round 0 of its own seven semaphores. -/
def positions (c : Dev nD) : sProp 𝕄 :=
  iprop(atPos ER (barCell c) 0 ∅ 0
    ∗ atPos ER (sendCell c 0) 0 ∅ 0 ∗ atPos ER (sendCell c 1) 0 ∅ 0 ∗ atPos ER (sendCell c 2) 0 ∅ 0
    ∗ atPos ER (recvCell c 0) 0 ∅ 0 ∗ atPos ER (recvCell c 1) 0 ∅ 0 ∗ atPos ER (recvCell c 2) 0 ∅ 0)

/-- Round 0 reached at the three barrier semaphores it signals and at its own six DMA semaphores (those of its receive
    semaphores it hands to the devices that copy into it; those of its send semaphores it pays itself). -/
def reaches (c : Dev nD) : sProp 𝕄 :=
  iprop(reached ER (barCell (shift c 1)) 0 ∗ reached ER (barCell (shift c 2)) 0 ∗ reached ER (barCell (shift c 3)) 0
    ∗ reached ER (sendCell c 0) 0 ∗ reached ER (sendCell c 1) 0 ∗ reached ER (sendCell c 2) 0
    ∗ reached ER (recvCell c 0) 0 ∗ reached ER (recvCell c 1) 0 ∗ reached ER (recvCell c 2) 0)

instance reaches_persistent (c : Dev nD) : BI.Persistent (reaches (F := F) c) := by unfold reaches; infer_instance

/-- The tokens of the duties it pays: duty 2, 1, 0 of the barrier semaphores of `c + 1`, `c + 2`, `c + 3` (its signal to
    `c + j` is what hands that device slot `4 - j` of `c`); its own three send duties; the landing of its copy `o` on receive
    semaphore `o` of `c + o + 1`. -/
def payToks (c : Dev nD) : sProp 𝕄 :=
  iprop(dutyTok ER (barCell (shift c 1)) 0 (2 : Fin 3) ∗ dutyTok ER (barCell (shift c 2)) 0 (1 : Fin 3) ∗ dutyTok ER (barCell (shift c 3)) 0 (0 : Fin 3)
    ∗ dutyTok ER (sendCell c 0) 0 (0 : Fin 3) ∗ dutyTok ER (sendCell c 1) 0 (0 : Fin 3) ∗ dutyTok ER (sendCell c 2) 0 (0 : Fin 3)
    ∗ dutyTok ER (recvCell (shift c 1) 0) 0 (0 : Fin 3) ∗ dutyTok ER (recvCell (shift c 2) 1) 0 (0 : Fin 3) ∗ dutyTok ER (recvCell (shift c 3) 2) 0 (0 : Fin 3))

def ghost (κ : GSem nD τ sig → ℕ) (c : Dev nD) : sProp 𝕄 :=
  iprop(invs m κ c ∗ positions c ∗ reaches c ∗ payToks c)

/-- Credit for the waits others pay. -/
def creds (c : Dev nD) : sProp 𝕄 :=
  iprop(cred (tallyAt (barCell c) () 3) ∗ cred (tallyAt (recvCell c 0) () N) ∗ cred (tallyAt (recvCell c 1) () N) ∗ cred (tallyAt (recvCell c 2) () N))

/-- What a device's body starts from, the four-slot buffer apart. -/
def start (c : Dev nD) : sProp 𝕄 :=
  iprop((∃ κ, ghost m κ c) ∗ creds c ∗ levAts L lv)

def Φ₀ (c : Dev nD) : sProp 𝕄 := iprop(start m c ∗ ∃ f, (((c : Thread nD τ).loc cc0_scratch0) ↦{fullShare} f))

/-- The device's own six DMA semaphores at zero. -/
def ownZero (c : Dev nD) : sProp 𝕄 :=
  iprop(semVal (sendCell c 0) 0 ∗ semVal (sendCell c 1) 0 ∗ semVal (sendCell c 2) 0
    ∗ semVal (recvCell c 0) 0 ∗ semVal (recvCell c 1) 0 ∗ semVal (recvCell c 2) 0)

def Φ₁ (c : Dev nD) : sProp 𝕄 := iprop((∃ g, (((c : Thread nD τ).loc cc0_scratch0) ↦{fullShare} g)) ∗ ownZero c)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := V m c (Pipeline.arrRef spec0 w)
  after w _ := match w with
    | ⟨0, _⟩ => xstg m c
    | ⟨1, _⟩ => gstg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

/-- A staging buffer held whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

/-- What the body is given at the one grid point, and what it must give back. -/
def bodyPre (κ : GSem nD τ sig → ℕ) (c : Dev nD) : sProp 𝕄 :=
  iprop((ghost m κ c ∗ creds c ∗ levAts L lv ∗ ∃ f, (((c : Thread nD τ).loc cc0_scratch0) ↦{fullShare} f))
    ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

def bodyPost (c : Dev nD) : sProp 𝕄 :=
  iprop(Φ₁ c ∗ (dats m 0 c).owesAt () t₀.succ ∗ stg c cc0_stg0_0 (xstg m c) ∗ stg c cc0_stg1_0 (gstg m c) ∗ stg c cc0_stg2_0 (outAt m c))

end Cert.KernelIdealProof

end
-- ==== Proof.KernelIdeal.Init.lean ====
/-
  The launch. All four devices' barrier semaphores are funded from their counters at zero, their twenty-four send and receive
  semaphores dormant (their counters are the kernel's own, and come only when a device enters its region); every invariant is
  allocated at once, under one naming; the duty tokens are dealt to the devices that pay them; the launch credit is read as the
  three units each barrier semaphore is owed and the one copy's credit each receive semaphore is owed.
-/
import proofs.«901008_g7700000000001009_dist_rmsnorm_colshard_i_m512_n256_v7x_i4_bf16_1_alg».proof.Proof.Gen.KernelIdeal
import proofs.«901008_g7700000000001009_dist_rmsnorm_colshard_i_m512_n256_v7x_i4_bf16_1_alg».proof.Proof.Gen.KernelIdeal.Skeleton
import proofs.«901008_g7700000000001009_dist_rmsnorm_colshard_i_m512_n256_v7x_i4_bf16_1_alg».proof.Proof.Gen.KernelIdeal.Launch
import proofs.«901008_g7700000000001009_dist_rmsnorm_colshard_i_m512_n256_v7x_i4_bf16_1_alg».proof.Proof.Gen.KernelIdeal.Points
import Idealize.ShloMosaic.Lib.Pipeline.Launch
import Idealize.ShloMosaic.Lib.Pipeline.Kit
import Idealize.ShloMosaic.Lib.Pipeline.Regions
import Idealize.ShloMosaic.Lib.Pipeline.Value
import Idealize.ShloMosaic.Lib.Tactic
import proofs.«901008_g7700000000001009_dist_rmsnorm_colshard_i_m512_n256_v7x_i4_bf16_1_alg».proof.Proof.Gen.KernelIdeal.Frame
import proofs.«901008_g7700000000001009_dist_rmsnorm_colshard_i_m512_n256_v7x_i4_bf16_1_alg».proof.Proof.KernelIdeal.State

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The right to open each of the device's own six DMA semaphores. -/
def opens (c : Dev nD) : sProp 𝕄 :=
  iprop(openTok ER (sendCell c 0) ∗ openTok ER (sendCell c 1) ∗ openTok ER (sendCell c 2)
    ∗ openTok ER (recvCell c 0) ∗ openTok ER (recvCell c 1) ∗ openTok ER (recvCell c 2))

/-- What the launch leaves a device beside its buffers: the invariants, its position at its barrier semaphore, round 0 reached at
    the three barrier semaphores it signals, the right to open its own six, the tokens of the nine duties it pays, its credit. -/
def launched (c : Dev nD) : sProp 𝕄 :=
  iprop((∃ κ, invs m κ c ∗ atPos ER (barCell c) 0 ∅ 0
      ∗ (reached ER (barCell (shift c 1)) 0 ∗ reached ER (barCell (shift c 2)) 0 ∗ reached ER (barCell (shift c 3)) 0)
      ∗ opens c ∗ payToks c) ∗ creds c)

/-- The first thread state: the device's unscoped buffers as launched, what it owes, and the above. -/
def T₀ (c : Dev nD) : sProp 𝕄 :=
  iprop(unscopedBufs c (fun b => m ((c.tc : Thread nD τ).loc b)) ∗ owes (c.tc : Thread nD τ) (O₀ c) ∅ ∗ launched m c)

/-! ## The cells and the tokens -/

/-- The six DMA semaphores of a device: its three send semaphores, then its three receive semaphores. -/
abbrev xKey : Fin 6 → SemLoc sig := fun
  | 0 => .dma (sndSem 0) | 1 => .dma (sndSem 1) | 2 => .dma (sndSem 2)
  | 3 => .dma (rcvSem 0) | 4 => .dma (rcvSem 1) | 5 => .dma (rcvSem 2)
theorem xKey_inj : ∀ a b : Fin 6, xKey a = xKey b → a = b := by decide
theorem xKey_ne_bar : ∀ a : Fin 6, xKey a ≠ .reg barS := by decide

/-- The nine duties of a device's own semaphores: its barrier semaphore's three, one of each send and receive semaphore. -/
abbrev tKey : Fin 9 → SemLoc sig × Fin 3 := fun
  | 0 => (.reg barS, 0) | 1 => (.reg barS, 1) | 2 => (.reg barS, 2)
  | 3 => (.dma (sndSem 0), 0) | 4 => (.dma (sndSem 1), 0) | 5 => (.dma (sndSem 2), 0)
  | 6 => (.dma (rcvSem 0), 0) | 7 => (.dma (rcvSem 1), 0) | 8 => (.dma (rcvSem 2), 0)
theorem tKey_inj : ∀ a b : Fin 9, tKey a = tKey b → a = b := by decide

abbrev xcell (cj : Dev nD × Fin 6) : GSem nD τ sig := ((cj.1 : Thread nD τ), xKey cj.2)
abbrev tokOf (cj : Dev nD × Fin 9) : GSem nD τ sig × ℕ × Fin 3 := (((cj.1 : Thread nD τ), (tKey cj.2).1), 0, (tKey cj.2).2)

theorem barCell_injective : Function.Injective (barCell : Dev nD → GSem nD τ sig) := fun a b h =>
  congrArg (fun g : GSem nD τ sig => g.1.1) h
theorem xcell_injective : Function.Injective (xcell : Dev nD × Fin 6 → GSem nD τ sig) := by
  rintro ⟨c, j⟩ ⟨c', j'⟩ h
  have h1 : c = c' := congrArg (fun g : GSem nD τ sig => g.1.1) h
  subst h1
  rw [xKey_inj j j' (congrArg Prod.snd h)]
theorem tokOf_injective : Function.Injective (tokOf : Dev nD × Fin 9 → GSem nD τ sig × ℕ × Fin 3) := by
  rintro ⟨c, j⟩ ⟨c', j'⟩ h
  have h1 : c = c' := congrArg (fun x : GSem nD τ sig × ℕ × Fin 3 => x.1.1.1) h
  subst h1
  rw [tKey_inj j j' (Prod.ext (congrArg (fun x : GSem nD τ sig × ℕ × Fin 3 => x.1.2) h) (congrArg (fun x : GSem nD τ sig × ℕ × Fin 3 => x.2.2) h))]

/-- The four barrier semaphores, funded from their counters. -/
def barCells : Finset (GSem nD τ sig) := Finset.univ.map ⟨barCell, barCell_injective⟩
/-- The twenty-four send and receive semaphores, funded dormant. -/
def xferCells : Finset (GSem nD τ sig) := Finset.univ.map ⟨xcell, xcell_injective⟩
/-- One token for each duty of round 0 of every semaphore. -/
def toks : Finset (GSem nD τ sig × ℕ × Fin 3) := Finset.univ.map ⟨tokOf, tokOf_injective⟩

theorem bar_xfer_disjoint : Disjoint barCells xferCells := by
  rw [Finset.disjoint_left]
  intro g hb hx
  obtain ⟨c, -, rfl⟩ := Finset.mem_map.mp hb
  obtain ⟨⟨c', j⟩, -, h⟩ := Finset.mem_map.mp hx
  exact xKey_ne_bar j (congrArg Prod.snd h)

/-- The launch element: the pipeline's copy, and the exchange's (barrier semaphores live, send and receive semaphores dormant). -/
def u₀ : UU :=
  (initOf (Pipeline.cells cfgs cellOf_inj) (Pipeline.launchToks cfgs cellOf_inj), launchOf barCells xferCells toks)

/-- The exchange's share of the launch element, dealt to the devices (all of it to device 0: the first step is machine-wide). -/
def G (c : Dev nD) : sProp 𝕄 :=
  if c = (0 : Fin 4) then BI.own (ER (launchOf barCells xferCells toks)) else iprop(emp)

omit [FloatOps F] in
theorem bigSep_dev (Φ : Dev nD → sProp 𝕄) : bigSep Finset.univ Φ = iprop(Φ (0 : Fin 4) ∗ Φ (1 : Fin 4) ∗ Φ (2 : Fin 4) ∗ Φ (3 : Fin 4)) :=
  bigSep_univ_eq_bigSepL [(0 : Fin 4), 1, 2, 3] (by decide) (by decide) Φ

omit [FloatOps F] in
theorem bigSep_G : bigSep Finset.univ (G (F := F)) ⊣⊢ (BI.own (ER (launchOf barCells xferCells toks)) : sProp 𝕄) := by
  rw [bigSep_dev]
  unfold G
  rw [if_pos rfl, if_neg (by decide), if_neg (by decide), if_neg (by decide)]
  constructor
  · iintro ⟨H, -⟩; iexact H
  · iintro H
    isplitl [H]; · iexact H
    isplitl; · iempintro
    isplitl <;> iempintro

theorem hu₀ : (ownU u₀ : sProp 𝕄)
    ⊢ |={Set.univ}=> iprop(BI.own (EP (initOf (Pipeline.cells cfgs cellOf_inj) (Pipeline.launchToks cfgs cellOf_inj))) ∗ bigSep Finset.univ (G (F := F))) := by
  unfold u₀
  iintro Hu
  ihave H := (ownU_pair _ _) $$ Hu
  icases H with ⟨HP, HX⟩
  imodintro
  isplitl [HP]; · iexact HP
  iapply (bigSep_G (F := F)).2
  iexact HX

/-! ## The counters, the positions, the rights to open and the tokens, device by device -/

omit [FloatOps F] in
/-- A device's one unscoped semaphore is its barrier semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem bigSep_bar (Φ : GSem nD τ sig → sProp 𝕄) : bigSep barCells Φ = bigSep Finset.univ fun c : Dev nD => Φ (barCell c) := by
  unfold barCells; rw [bigSep_map]; rfl

omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

omit [FloatOps F] in
theorem bigSep_xfer_open : bigSep xferCells (fun g => (openTok ER g : sProp 𝕄)) = bigSep Finset.univ fun c : Dev nD => opens c := by
  unfold xferCells; rw [bigSep_map, bigSep_univ_prod]
  exact bigSep_congr fun c _ => by unfold opens; rw [bigSep_fin6]; rfl

/-- The tokens of the nine duties of a device's own semaphores. -/
def ownToks (c : Dev nD) : sProp 𝕄 :=
  iprop(dutyTok ER (barCell c) 0 (0 : Fin 3) ∗ dutyTok ER (barCell c) 0 (1 : Fin 3) ∗ dutyTok ER (barCell c) 0 (2 : Fin 3)
    ∗ dutyTok ER (sendCell c 0) 0 (0 : Fin 3) ∗ dutyTok ER (sendCell c 1) 0 (0 : Fin 3) ∗ dutyTok ER (sendCell c 2) 0 (0 : Fin 3)
    ∗ dutyTok ER (recvCell c 0) 0 (0 : Fin 3) ∗ dutyTok ER (recvCell c 1) 0 (0 : Fin 3) ∗ dutyTok ER (recvCell c 2) 0 (0 : Fin 3))

omit [FloatOps F] in
theorem bigSep_toks : bigSep toks (fun x => (dutyTok ER x.1 x.2.1 x.2.2 : sProp 𝕄)) = bigSep Finset.univ fun c : Dev nD => ownToks c := by
  unfold toks; rw [bigSep_map, bigSep_univ_prod]
  exact bigSep_congr fun c _ => by unfold ownToks; rw [bigSep_fin9]; rfl

/-! ## Around the mesh -/

theorem shift_back (j k : ℕ) (h : j + k = 4) (c : Dev nD) : shift (shift c j) k = c := by rw [shift_shift, h]; exact shift_four c

/-- Going `k` devices on, as a permutation of the devices. -/
def sh1 : Dev nD ≃ Dev nD := ⟨fun c => shift c 1, fun c => shift c 3, shift_back 1 3 rfl, shift_back 3 1 rfl⟩
def sh2 : Dev nD ≃ Dev nD := ⟨fun c => shift c 2, fun c => shift c 2, shift_back 2 2 rfl, shift_back 2 2 rfl⟩
def sh3 : Dev nD ≃ Dev nD := ⟨fun c => shift c 3, fun c => shift c 1, shift_back 3 1 rfl, shift_back 1 3 rfl⟩

omit [FloatOps F] in
/-- The tokens dealt around the mesh: duty `d` of a barrier semaphore goes to the device `d + 1` on, which pays it (so a device
    gets duty 2, 1, 0 of the barrier semaphores 1, 2, 3 devices on); the token of receive semaphore `o` goes `o + 1` devices back. -/
theorem toks_around : (bigSep Finset.univ fun c : Dev nD => (ownToks c : sProp 𝕄)) ⊢ bigSep Finset.univ fun c : Dev nD => payToks c := by
  unfold ownToks payToks
  rw [bigSep_sep', bigSep_sep', bigSep_sep', bigSep_sep', bigSep_sep', bigSep_sep', bigSep_sep', bigSep_sep',
    bigSep_sep', bigSep_sep', bigSep_sep', bigSep_sep', bigSep_sep', bigSep_sep', bigSep_sep', bigSep_sep',
    bigSep_univ_equiv sh3 (fun c : Dev nD => (dutyTok ER (barCell c) 0 (0 : Fin 3) : sProp 𝕄)),
    bigSep_univ_equiv sh2 (fun c : Dev nD => (dutyTok ER (barCell c) 0 (1 : Fin 3) : sProp 𝕄)),
    bigSep_univ_equiv sh1 (fun c : Dev nD => (dutyTok ER (barCell c) 0 (2 : Fin 3) : sProp 𝕄)),
    bigSep_univ_equiv sh1 (fun c : Dev nD => (dutyTok ER (recvCell c 0) 0 (0 : Fin 3) : sProp 𝕄)),
    bigSep_univ_equiv sh2 (fun c : Dev nD => (dutyTok ER (recvCell c 1) 0 (0 : Fin 3) : sProp 𝕄)),
    bigSep_univ_equiv sh3 (fun c : Dev nD => (dutyTok ER (recvCell c 2) 0 (0 : Fin 3) : sProp 𝕄))]
  iintro ⟨B0, B1, B2, S0, S1, S2, R0, R1, R2⟩
  isplitl [B2]; · iexact B2
  isplitl [B1]; · iexact B1
  isplitl [B0]; · iexact B0
  isplitl [S0]; · iexact S0
  isplitl [S1]; · iexact S1
  isplitl [S2]; · iexact S2
  isplitl [R0]; · iexact R0
  isplitl [R1]; · iexact R1
  iexact R2

/-! ## The launch credit -/

theorem rcvSem_inj : ∀ o o' : Fin 3, rcvSem o = rcvSem o' → o = o' := by decide

omit [FloatOps F] in
theorem bar_ne_recv (a c : Dev nD) (o : Fin 3) : barCell c ≠ recvCell a o := fun h => recv_ne_bar o (congrArg Prod.snd h).symm
omit [FloatOps F] in
theorem recv_ne_bar' (a c : Dev nD) (o : Fin 3) : recvCell c o ≠ barCell a := fun h => recv_ne_bar o (congrArg Prod.snd h)

omit [FloatOps F] in
/-- A unit owed to the barrier semaphore of `a` is owed to that of `c` when `a = c`. -/
theorem tally_bar_bar (a c : Dev nD) (n : ℕ) : (tallyAt (barCell a) () n : CellTallies nD τ sig Unit) (barCell c) () = if a = c then n else 0 := by
  rw [tallyAt_apply]
  exact if_congr ⟨fun h => (barCell_injective h.1).symm, fun h => ⟨h ▸ rfl, rfl⟩⟩ rfl rfl

omit [FloatOps F] in
theorem tally_recv_recv (a c : Dev nD) (o' o : Fin 3) (n : ℕ) :
    (tallyAt (recvCell a o') () n : CellTallies nD τ sig Unit) (recvCell c o) () = if a = c ∧ o' = o then n else 0 := by
  rw [tallyAt_apply]
  refine if_congr ⟨fun h => ?_, fun h => ?_⟩ rfl rfl
  · have h1 : c = a := congrArg (fun g : GSem nD τ sig => g.1.1) h.1
    have h2 : rcvSem o = rcvSem o' := by have := congrArg Prod.snd h.1; exact SemLoc.dma.inj this
    exact ⟨h1.symm, (rcvSem_inj _ _ h2).symm⟩
  · obtain ⟨rfl, rfl⟩ := h; exact ⟨rfl, rfl⟩

omit [FloatOps F] in
/-- What device `d` owes the barrier semaphore of `c`: a unit when `c` is 3, 2 or 1 devices on. -/
theorem owed_bar (d c : Dev nD) :
    O₀ d (barCell c) () = (if shift d 3 = c then 1 else 0) + (if shift d 2 = c then 1 else 0) + (if shift d 1 = c then 1 else 0) := by
  unfold O₀ O₁ O₂ O₅ O₄ O₃
  simp only [Pi.add_apply, Finsupp.add_apply]
  rw [tallyAt_ne_cell (bar_ne_recv _ c _), tallyAt_ne_cell (bar_ne_recv _ c _), tallyAt_ne_cell (bar_ne_recv _ c _),
    tally_bar_bar, tally_bar_bar, tally_bar_bar, Finsupp.zero_apply, Nat.zero_add, Nat.zero_add, Nat.zero_add]

omit [FloatOps F] in
/-- What device `d` owes receive semaphore `o` of `c`: a copy's credit when `c` is `o + 1` devices on. -/
theorem owed_recv (d c : Dev nD) (o : Fin 3) : O₀ d (recvCell c o) () = if shift d (o.val + 1) = c then N else 0 := by
  unfold O₀ O₁ O₂ O₅ O₄ O₃
  simp only [Pi.add_apply, Finsupp.add_apply]
  rw [tallyAt_ne_cell (recv_ne_bar' _ c o), tallyAt_ne_cell (recv_ne_bar' _ c o), tallyAt_ne_cell (recv_ne_bar' _ c o),
    tally_recv_recv, tally_recv_recv, tally_recv_recv, Finsupp.zero_apply, Nat.add_zero, Nat.add_zero, Nat.add_zero]
  fin_cases o <;> simp

omit [FloatOps F] in
/-- Exactly one device is `k` devices before `c`. -/
theorem sum_shift (k j : ℕ) (h : j + k = 4) (n : ℕ) (c : Dev nD) : (∑ d : Dev nD, if shift d k = c then n else 0) = n := by
  have e : ∀ d : Dev nD, shift d k = c ↔ d = shift c j :=
    fun d => ⟨fun e => by rw [← e, shift_back k j (by omega)], fun e => by rw [e, shift_back j k h]⟩
  simp only [e]
  rw [Finset.sum_ite_eq' Finset.univ (shift c j) fun _ => n, if_pos (Finset.mem_univ _)]

omit [FloatOps F] in
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    sum_shift 3 1 rfl, sum_shift 2 2 rfl, sum_shift 1 3 rfl]

omit [FloatOps F] in
theorem launch_recv (c : Dev nD) (o : Fin 3) :
    tallyOn (recvCell c o) (launchCredit (Pipeline.owing O₀) 0 (recvCell c o)) = (tallyAt (recvCell c o) () N : CellTallies nD τ sig Unit) := by
  unfold tallyAt; refine congrArg _ (Finsupp.ext fun u => ?_); cases u
  rw [Pipeline.launchCredit_owing, Finsupp.single_eq_same, Finset.sum_congr rfl fun d _ => owed_recv d c o,
    sum_shift (o.val + 1) (3 - o.val) (by omega)]

omit [FloatOps F] in
/-- The launch credit of a device: three units on its barrier semaphore, a copy's credit on each receive semaphore. -/
theorem creds_intro (c : Dev nD) : (Pipeline.launchCred O₀ c : sProp 𝕄) ⊢ creds c := by
  unfold Pipeline.launchCred creds
  refine (bigSep_subset (t := [SemLoc.reg barS, SemLoc.dma (rcvSem 0), SemLoc.dma (rcvSem 1), SemLoc.dma (rcvSem 2)].toFinset) (Finset.subset_univ _)).trans ?_
  rw [bigSep_eq_bigSepL _ (by decide)]
  show iprop(cred (tallyOn (barCell c) (launchCredit (Pipeline.owing O₀) 0 (barCell c)))
    ∗ cred (tallyOn (recvCell c 0) (launchCredit (Pipeline.owing O₀) 0 (recvCell c 0)))
    ∗ cred (tallyOn (recvCell c 1) (launchCredit (Pipeline.owing O₀) 0 (recvCell c 1)))
    ∗ cred (tallyOn (recvCell c 2) (launchCredit (Pipeline.owing O₀) 0 (recvCell c 2)))) ⊢ _
  rw [launch_bar, launch_recv, launch_recv, launch_recv]

/-! ## Dealing the launch to the devices -/

/-- What every device reads: every invariant, and that round 0 is reached at the four barrier semaphores. -/
def shared (κ : GSem nD τ sig → ℕ) : sProp 𝕄 :=
  iprop(bigSep (barCells ∪ xferCells) (fun g => cellInv ER (Rd m) (κ g) g) ∗ bigSep barCells (fun g => reached ER g 0))

instance shared_persistent (κ : GSem nD τ sig → ℕ) : BI.Persistent (shared m κ) := by unfold shared; infer_instance

omit [FloatOps F] in
theorem mem_bar (d : Dev nD) : barCell d ∈ barCells := Finset.mem_map_of_mem _ (Finset.mem_univ d)
omit [FloatOps F] in
theorem mem_cells_bar (d : Dev nD) : barCell d ∈ barCells ∪ xferCells := Finset.mem_union_left _ (mem_bar d)
omit [FloatOps F] in
theorem mem_cells_send (d : Dev nD) (o : Fin 3) : sendCell d o ∈ barCells ∪ xferCells := by
  refine Finset.mem_union_right _ ?_
  fin_cases o
  · exact Finset.mem_map_of_mem ⟨xcell, xcell_injective⟩ (Finset.mem_univ (d, (0 : Fin 6)))
  · exact Finset.mem_map_of_mem ⟨xcell, xcell_injective⟩ (Finset.mem_univ (d, (1 : Fin 6)))
  · exact Finset.mem_map_of_mem ⟨xcell, xcell_injective⟩ (Finset.mem_univ (d, (2 : Fin 6)))
omit [FloatOps F] in
theorem mem_cells_recv (d : Dev nD) (o : Fin 3) : recvCell d o ∈ barCells ∪ xferCells := by
  refine Finset.mem_union_right _ ?_
  fin_cases o
  · exact Finset.mem_map_of_mem ⟨xcell, xcell_injective⟩ (Finset.mem_univ (d, (3 : Fin 6)))
  · exact Finset.mem_map_of_mem ⟨xcell, xcell_injective⟩ (Finset.mem_univ (d, (4 : Fin 6)))
  · exact Finset.mem_map_of_mem ⟨xcell, xcell_injective⟩ (Finset.mem_univ (d, (5 : Fin 6)))

theorem inv_at (κ : GSem nD τ sig → ℕ) {g : GSem nD τ sig} (hg : g ∈ barCells ∪ xferCells) :
    (bigSep (barCells ∪ xferCells) (fun g => (cellInv ER (Rd m) (κ g) g : sProp 𝕄))) ⊢ cellInv ER (Rd m) (κ g) g :=
  bigSep_elim hg
omit [FloatOps F] in
theorem reached_at (d : Dev nD) : (bigSep barCells (fun g => (reached ER g 0 : sProp 𝕄))) ⊢ reached ER (barCell d) 0 :=
  bigSep_elim (mem_bar d)

/-- One device's first thread state from what all read and its own share. -/
theorem launched_intro (κ : GSem nD τ sig → ℕ) (c : Dev nD) :
    iprop(shared m κ ∗ (atPos ER (barCell c) 0 ∅ 0 ∗ opens c ∗ payToks c
        ∗ (creds c ∗ (unscopedBufs c (fun b => m ((c.tc : Thread nD τ).loc b)) ∗ owes (c.tc : Thread nD τ) (O₀ c) ∅))))
      ⊢ T₀ m c := by
  unfold shared T₀ launched invs
  iintro ⟨⟨#HI, #HR⟩, Hat, Hop, Htk, Hcr, Hub, HO⟩
  isplitl [Hub]; · iexact Hub
  isplitl [HO]; · iexact HO
  isplitr [Hcr]
  · iexists κ
    isplitr
    · isplitr; · iapply (inv_at m κ (mem_cells_bar c)); iexact HI
      isplitr; · iapply (inv_at m κ (mem_cells_send c 0)); iexact HI
      isplitr; · iapply (inv_at m κ (mem_cells_send c 1)); iexact HI
      isplitr; · iapply (inv_at m κ (mem_cells_send c 2)); iexact HI
      isplitr; · iapply (inv_at m κ (mem_cells_recv c 0)); iexact HI
      isplitr; · iapply (inv_at m κ (mem_cells_recv c 1)); iexact HI
      isplitr; · iapply (inv_at m κ (mem_cells_recv c 2)); iexact HI
      isplitr; · iapply (inv_at m κ (mem_cells_bar (shift c 1))); iexact HI
      isplitr; · iapply (inv_at m κ (mem_cells_bar (shift c 2))); iexact HI
      isplitr; · iapply (inv_at m κ (mem_cells_bar (shift c 3))); iexact HI
      isplitr; · iapply (inv_at m κ (mem_cells_recv (shift c 1) 0)); iexact HI
      isplitr; · iapply (inv_at m κ (mem_cells_recv (shift c 2) 1)); iexact HI
      iapply (inv_at m κ (mem_cells_recv (shift c 3) 2)); iexact HI
    isplitl [Hat]; · iexact Hat
    isplitr
    · isplitr; · iapply (reached_at (F := F) (shift c 1)); iexact HR
      isplitr; · iapply (reached_at (F := F) (shift c 2)); iexact HR
      iapply (reached_at (F := F) (shift c 3)); iexact HR
    isplitl [Hop]; · iexact Hop
    iexact Htk
  iexact Hcr

/-- All four at once. -/
theorem deal (κ : GSem nD τ sig → ℕ) :
    iprop(shared m κ ∗ ((bigSep Finset.univ fun c : Dev nD => atPos ER (barCell c) 0 ∅ 0) ∗ (bigSep Finset.univ fun c : Dev nD => opens c)
        ∗ (bigSep Finset.univ fun c : Dev nD => payToks c)
        ∗ bigSep Finset.univ fun c : Dev nD => iprop(creds c ∗ (unscopedBufs c (fun b => m ((c.tc : Thread nD τ).loc b)) ∗ owes (c.tc : Thread nD τ) (O₀ c) ∅))))
      ⊢ bigSep Finset.univ (T₀ m) := by
  rw [← bigSep_sep', ← bigSep_sep', ← bigSep_sep']
  exact bigSep_with_persistent fun c _ => launched_intro m κ c

/-- The machine-wide first step. -/
theorem launch_init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (T₀ m) : sProp 𝕄) := by
  have h1 (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ G c)
      ⊢ iprop(semVal (barCell c) 0 ∗ G c
          ∗ (creds c ∗ (unscopedBufs c (fun b => m ((c.tc : Thread nD τ).loc b)) ∗ owes (c.tc : Thread nD τ) (O₀ c) ∅))) := by
    rw [unscopedSems0_eq]
    iintro ⟨Hub, Hus, HO, Hcr, -, HG⟩
    isplitl [Hus]; · iexact Hus
    isplitl [HG]; · iexact HG
    isplitl [Hcr]; · iapply (creds_intro (F := F) c); iexact Hcr
    isplitl [Hub] <;> iassumption
  iintro ⟨H, -⟩
  ihave H' := (show _ ⊢ iprop((bigSep Finset.univ fun c : Dev nD => semVal (barCell c) 0) ∗ bigSep Finset.univ (G (F := F))
        ∗ bigSep Finset.univ fun c : Dev nD => iprop(creds c ∗ (unscopedBufs c (fun b => m ((c.tc : Thread nD τ).loc b)) ∗ owes (c.tc : Thread nD τ) (O₀ c) ∅)))
      from by rw [← bigSep_sep', ← bigSep_sep']; exact bigSep_mono fun c _ => h1 c) $$ H
  icases H' with ⟨Hv, HG, Hrest⟩
  ihave Hu := (bigSep_G (F := F)).1 $$ HG
  ihave Hv' := (Entails.of_eq (bigSep_bar (F := F) (fun g => semVal g 0)).symm) $$ Hv
  imod (Rounds.fund_launch ER (Rd m) bar_xfer_disjoint (fun _ _ h => h) toks (Es := Set.univ)) $$ [Hv' Hu] with ⟨%κ, -, #HI, #HR, Hat, Hop, Htk⟩
  · isplitl [Hv']; · iexact Hv'
    iexact Hu
  imodintro
  ihave Hat' := (Entails.of_eq (bigSep_bar (F := F) fun g => atPos ER g 0 ∅ 0)) $$ Hat
  ihave Hop' := (Entails.of_eq (bigSep_xfer_open (F := F))) $$ Hop
  ihave Htk' := (Entails.of_eq (bigSep_toks (F := F))) $$ Htk
  ihave Htk'' := (toks_around (F := F)) $$ Htk'
  iapply (deal m κ)
  isplitr
  · unfold shared; isplitl; · iexact HI
    iexact HR
  isplitl [Hat']; · iexact Hat'
  isplitl [Hop']; · iexact Hop'
  isplitl [Htk'']; · iexact Htk''
  iexact Hrest

end Cert.KernelIdealProof

end
-- ==== Proof.KernelIdeal.Launch.lean ====
/-
  @main as two segments, the copy of the first argument into the result's buffer and then the kernel's region, run on the four
  devices from the launch's first thread state: every weakly fair execution ends, each device's result buffer holding what its
  body stored and its arguments unchanged.
-/
import proofs.«901008_g7700000000001009_dist_rmsnorm_colshard_i_m512_n256_v7x_i4_bf16_1_alg».proof.Proof.Gen.KernelIdeal
import proofs.«901008_g7700000000001009_dist_rmsnorm_colshard_i_m512_n256_v7x_i4_bf16_1_alg».proof.Proof.Gen.KernelIdeal.Skeleton
import proofs.«901008_g7700000000001009_dist_rmsnorm_colshard_i_m512_n256_v7x_i4_bf16_1_alg».proof.Proof.Gen.KernelIdeal.Launch
import proofs.«901008_g7700000000001009_dist_rmsnorm_colshard_i_m512_n256_v7x_i4_bf16_1_alg».proof.Proof.Gen.KernelIdeal.Points
import Idealize.ShloMosaic.Lib.Pipeline.Launch
import Idealize.ShloMosaic.Lib.Pipeline.Kit
import Idealize.ShloMosaic.Lib.Pipeline.Regions
import Idealize.ShloMosaic.Lib.Pipeline.Value
import Idealize.ShloMosaic.Lib.Tactic
import proofs.«901008_g7700000000001009_dist_rmsnorm_colshard_i_m512_n256_v7x_i4_bf16_1_alg».proof.Proof.Gen.KernelIdeal.Frame
import proofs.«901008_g7700000000001009_dist_rmsnorm_colshard_i_m512_n256_v7x_i4_bf16_1_alg».proof.Proof.KernelIdeal.Init

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline at its one table-free configuration -/

/-- No prefetched table: the one admissible contents. -/
abbrev adm : (p : Fin 1) → (pcfgs (F := F) p).Adm := fun p => (cfgs p).toPCfg_adm

/-- Core c's buffers at launch, as a valuation. -/
abbrev V₀ (c : Dev nD) : Valuation τ sig (Elt F) := fun b => m ((c : Dev nD), b)

/-- Every array is held at the full share. -/
theorem share_eq (c : Dev nD) (w : Fin cfg0.W) : (dats m 0 c).share w = fullShare := by unfold Dat.share; split <;> rfl

/-! ## The kernel's own six semaphores -/

/-- The three send semaphores, then the three receive semaphores. -/
abbrev osem : Fin 6 → SemLoc sig := fun
  | 0 => .dma (sndSem 0) | 1 => .dma (sndSem 1) | 2 => .dma (sndSem 2)
  | 3 => .dma (rcvSem 0) | 4 => .dma (rcvSem 1) | 5 => .dma (rcvSem 2)

/-- They are scoped, pairwise distinct, and none is a staging semaphore. -/
theorem ownSemFacts : Pipeline.OwnSemFacts cfg0.spec osem := by decide

omit [FloatOps F] in
/-- The send and receive semaphores are the kernel's own six. -/
theorem ownSems0_eq (c : Dev nD) : (Pipeline.ownSems0 (Ix := Unit) (Name := ℕ) (U := UU) (Lvl := ℕ) (Val := Elt F) (τ := τ) osem c : sProp 𝕄)
    = ownZero c := by
  rw [Pipeline.ownSems0_eq_of_list c osem [0, 1, 2, 3, 4, 5] (by decide) (by decide)]; rfl

/-! ## The staging semaphores sit below everything a device owes -/

omit [FloatOps F] in
/-- A staging semaphore (numbers 0, 1, 2) is at level 0; whatever a device owes is on a barrier semaphore (level 1) or a receive
    semaphore (level 2): the cut at 0. Owing nothing, there is nothing to compare. -/
theorem mayWait_stage (c : Dev nD) (q : DmaSem sig) (hq : q.val ≤ 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨d, rfl⟩ | ⟨d, o, rfl⟩ <;> (rw [L_tc]; exact Finset.mem_singleton_self _))
      (fun p hp => by
        rw [Finset.mem_singleton.mp hp]; dsimp only [lv]
        rw [if_neg (fun h => by cases h), if_neg (fun ⟨o, h⟩ => by
          have h' := congrArg Fin.val (SemLoc.dma.inj h); rw [rcvSem_val] at h'; omega)])
      (fun g u hg => by
        rcases O₀_pos hg with ⟨d, rfl⟩ | ⟨d, o, rfl⟩
        · rw [lv_bar]; decide
        · rw [lv_recv]; decide)
  · rw [MayWait_zero]; iintro -; iempintro

/-- The pipeline's own waits: before the one point the device owes its launch tallies, after it nothing. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## Opening the device's own six semaphores at its entry -/

/-- The invariants of a device's own send and receive semaphores, out of those its body opens. -/
theorem invs_send (κ : GSem nD τ sig → ℕ) (c : Dev nD) (o : Fin 3) :
    invs m κ c ⊢ cellInv ER (Rd m) (κ (sendCell c o)) (sendCell c o) := by
  unfold invs
  fin_cases o
  · iintro ⟨-, H, -⟩; iexact H
  · iintro ⟨-, -, H, -⟩; iexact H
  · iintro ⟨-, -, -, H, -⟩; iexact H

theorem invs_recv (κ : GSem nD τ sig → ℕ) (c : Dev nD) (o : Fin 3) :
    invs m κ c ⊢ cellInv ER (Rd m) (κ (recvCell c o)) (recvCell c o) := by
  unfold invs
  fin_cases o
  · iintro ⟨-, -, -, -, H, -⟩; iexact H
  · iintro ⟨-, -, -, -, -, H, -⟩; iexact H
  · iintro ⟨-, -, -, -, -, -, H, -⟩; iexact H

/-- The owner opens a send semaphore of its own: its counter at zero for its position at round 0, reached. -/
theorem open_send (κ : GSem nD τ sig → ℕ) (c : Dev nD) (o : Fin 3) :
    iprop(invs m κ c ∗ openTok ER (sendCell c o) ∗ semVal (sendCell c o) 0)
      ⊢ |={Set.univ}=> iprop(atPos ER (sendCell c o) 0 ∅ 0 ∗ reached ER (sendCell c o) 0 : sProp 𝕄) := by
  iintro ⟨#Hi, Ho, Hz⟩
  ihave Hc := (invs_send m κ c o) $$ Hi
  iapply (Rounds.cell_open ER (Rd m) (Set.mem_univ _))
  isplitl [Hc]; · iexact Hc
  isplitl [Ho] <;> iassumption

/-- and a receive semaphore of its own. -/
theorem open_recv (κ : GSem nD τ sig → ℕ) (c : Dev nD) (o : Fin 3) :
    iprop(invs m κ c ∗ openTok ER (recvCell c o) ∗ semVal (recvCell c o) 0)
      ⊢ |={Set.univ}=> iprop(atPos ER (recvCell c o) 0 ∅ 0 ∗ reached ER (recvCell c o) 0 : sProp 𝕄) := by
  iintro ⟨#Hi, Ho, Hz⟩
  ihave Hc := (invs_recv m κ c o) $$ Hi
  iapply (Rounds.cell_open ER (Rd m) (Set.mem_univ _))
  isplitl [Hc]; · iexact Hc
  isplitl [Ho] <;> iassumption

/-! ## The two segments -/

local notation "ℍ" => Pipeline.HostSeg (Name := ℕ) (U := UU) (pcfgs (F := F)) defs₀ 𝒱₀ L lv
local notation "ℝ𝕊" => Pipeline.RegionSeg (pcfgs (F := F)) adm (dats m) () defs₀ 𝒱₀ L lv

/-- What rides beside the buffers through the copy: what the device owes, and what the launch left it. -/
def rest (c : Dev nD) : sProp 𝕄 := iprop(owes (c.tc : Thread nD τ) (O₀ c) ∅ ∗ launched m c)

/-- The copy touches unscoped buffers only, and allocates none. -/
theorem hostOps0_ucRefs : ∀ op ∈ (hostOps0 : List (HloOp τ sig (Elt F))), op.bufs ⊆ Pipeline.ucRefs τ sig := fun op h =>
  Pipeline.sub_ucRefs op ((List.forall_iff_forall_mem.mp hostOps0_sub) op h)

theorem hostOps0_noFresh : ∀ op ∈ (hostOps0 : List (HloOp τ sig (Elt F))), op.fresh = ∅ :=
  List.forall_iff_forall_mem.mp hostOps0_fresh

/-- THE COPY of the first argument into the result's buffer, over the device's unscoped buffers held whole. -/
def seg0 : ℍ := Pipeline.HostSeg.ofOps _ _ _ _ _ (Pipeline.ucRefs τ sig) (hostOps0 (F := F)) hostOps0_ucRefs hostOps0_noFresh (V₀ m) (rest m)

/-- The region is entered from the buffers as the copy left them. -/
def pre0 (c : Dev nD) : sProp 𝕄 := iprop(unscopedBufs c (fun b => V m c b) ∗ rest m c)

/-- It leaves the three arrays at their last contents, the device owing what the last point owes. -/
def post0 (c : Dev nD) : sProp 𝕄 :=
  iprop((dats m 0 c).arrays ((dats m 0 c).arrAt · cfg0.N) ∗ (dats m 0 c).owesAt () (Fin.last cfg0.N))

/-- ENTRY. The buffers as the copy left them are the three arrays at their entry contents (no other unscoped buffer); the device
    owes its launch tallies, having recorded no wait; and with its six counters at zero it opens its six semaphores, which
    completes its positions and the rounds reached to what its body starts from. -/
theorem entry (c : Dev nD) :
    iprop(pre0 m c ∗ Pipeline.ownSems0 (Ix := Unit) (Name := ℕ) (U := UU) (Lvl := ℕ) (Val := Elt F) (τ := τ) osem c ∗ levAts L lv)
      ⊢ |={Set.univ}=> iprop((dats m 0 c).arrays ((dats m 0 c).arrAt · 0) ∗ Pipeline.prefHeld (pcfgs (F := F) 0).pre c (fun _ => fullShare) (adm (F := F) 0).1
        ∗ (dats m 0 c).owesAt () 0 ∗ start m c ∗ emp) := by
  have hsplit := Pipeline.arrays_of_unscopedBufs (pcfgs (F := F)) adm (dats m) winFacts0 arr_whole0 c
    (share_eq m c) (fun b => V m c b) fun _ => rfl
  rw [ownSems0_eq]
  unfold pre0 rest launched opens ownZero
  iintro ⟨⟨Hub, HO, ⟨%κ, #Hi, Hat, #Hrb, ⟨Os0, Os1, Os2, Or0, Or1, Or2⟩, Htok⟩, Hcr⟩, ⟨Zs0, Zs1, Zs2, Zr0, Zr1, Zr2⟩, #Hlev⟩
  ihave H := hsplit $$ Hub
  icases H with ⟨Ha, -⟩
  imod (open_send m κ c 0) $$ [Os0 Zs0] with ⟨As0, #Rs0⟩
  · isplitr; · iexact Hi
    isplitl [Os0] <;> iassumption
  imod (open_send m κ c 1) $$ [Os1 Zs1] with ⟨As1, #Rs1⟩
  · isplitr; · iexact Hi
    isplitl [Os1] <;> iassumption
  imod (open_send m κ c 2) $$ [Os2 Zs2] with ⟨As2, #Rs2⟩
  · isplitr; · iexact Hi
    isplitl [Os2] <;> iassumption
  imod (open_recv m κ c 0) $$ [Or0 Zr0] with ⟨Ar0, #Rr0⟩
  · isplitr; · iexact Hi
    isplitl [Or0] <;> iassumption
  imod (open_recv m κ c 1) $$ [Or1 Zr1] with ⟨Ar1, #Rr1⟩
  · isplitr; · iexact Hi
    isplitl [Or1] <;> iassumption
  imod (open_recv m κ c 2) $$ [Or2 Zr2] with ⟨Ar2, #Rr2⟩
  · isplitr; · iexact Hi
    isplitl [Or2] <;> iassumption
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    iexists ∅; isplitr; · ipureintro; exact fun _ _ => Or.inl trivial
    iexact HO
  isplitl; swap; · iempintro
  unfold start ghost positions reaches
  isplitl [Hat As0 As1 As2 Ar0 Ar1 Ar2 Htok]
  · iexists κ
    isplitr; · iexact Hi
    isplitl [Hat As0 As1 As2 Ar0 Ar1 Ar2]
    · isplitl [Hat]; · iexact Hat
      isplitl [As0]; · iexact As0
      isplitl [As1]; · iexact As1
      isplitl [As2]; · iexact As2
      isplitl [Ar0]; · iexact Ar0
      isplitl [Ar1] <;> iassumption
    isplitr
    · icases Hrb with ⟨#R1, #R2, #R3⟩
      isplitr; · iexact R1
      isplitr; · iexact R2
      isplitr; · iexact R3
      isplitr; · iexact Rs0
      isplitr; · iexact Rs1
      isplitr; · iexact Rs2
      isplitr; · iexact Rr0
      isplitr; · iexact Rr1
      iexact Rr2
    iexact Htok
  isplitl [Hcr]; · iexact Hcr
  iexact Hlev

/-- THE REGION: the body's start state enters the invariant beside the four-slot buffer; at the end the invariant gives back the
    buffer and the six counters at zero; nothing bypasses it. -/
def reg0 (hbody : ∀ c : Dev nD, BodyObligation (dats (F := F) m 0 c) (defs₀ (F := F)) 𝒱₀ () Set.univ) : ℝ𝕊 0 where
  win := winFacts0.to₀
  block_pos := block_pos0
  stage_whole := stage_whole0
  K := Fin 6
  osem := osem
  ho := ownSemFacts
  hbody c := (hbody c).loose
  hwaits c := waits m c
  pre := pre0 m
  post := post0 m
  X := start m
  Y _ := iprop(emp)
  Z _ := iprop(emp)
  hentry c := entry m c
  hin c := by
    rw [show (dats m 0 c).Φ 0 = Φ₀ m c from rfl, scopedRest0_eq]
    unfold Φ₀
    iintro ⟨Hs, -, Hr⟩
    isplitl [Hs] <;> iassumption
  hout c := by
    rw [show (dats m 0 c).Φ (Fin.last cfg0.N) = Φ₁ c from rfl, scopedRest0_eq, ownSems0_eq]
    unfold Φ₁
    iintro ⟨Hr, Hz⟩
    isplitr; · iempintro
    isplitl [Hz] <;> iassumption
  hexit c := by
    unfold post0
    iintro ⟨Ha, HO, -, -⟩
    imodintro
    isplitl [Ha] <;> iassumption

/-- The last thread state: the three arrays at their last contents. -/
def Tₙ (c : Dev nD) : sProp 𝕄 := (dats m 0 c).arrays ((dats m 0 c).arrAt · cfg0.N)

/-! ## The arrays at the end -/

/-- The result's window is the whole array, written back at the one point: the array then holds what the body stored. -/
theorem arrAt_out (c : Dev nD) : (dats m 0 c).arrAt (2 : Fin 3) cfg0.N = outAt m c := by
  rw [show cfg0.N = (t₀ : Fin cfg0.N).val + 1 from rfl, (dats m 0 c).arrAt_succ (2 : Fin 3) t₀, flush0_2 t₀, if_pos rfl]
  exact Memref.write_access_unit_zero_univ (Elt F) main_v1 (funext fun a => Nat.zero_mul _) _ _ _

/-- THE RUN, from one device's body obligation: the copy, then the region; the result's array read at the end is what the body
    stored, and the two argument arrays, which no window writes and the copy does not touch, are as launched. -/
theorem run_main_of (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (dats m) () cellOf_inj EP defs₀ 𝒱₀ L lv m ρ main
    [.host (seg0 m), .region (reg0 m hbody)]
    (fun c Q => by rw [main_segs adm (dats m) () 𝒱₀ L lv (seg0 m) (reg0 m hbody) rfl c])
    (by simp only [Pipeline.Seg.pipes_host, Pipeline.Seg.pipes_region, Pipeline.Seg.pipes_nil]; decide)
    (O₀ := O₀) (hL := L_of_ne) (G := G) (u₀ := u₀)
    (hu₀ := hu₀)
    (T₀ := T₀ m) (Tₙ := Tₙ m)
    (hch := ⟨fun c => by
      show T₀ m c ⊢ iprop(StableHlo.held (c.tc : Thread nD τ) (Pipeline.ucRefs τ sig) (V₀ m c) ∗ rest m c)
      rw [← Pipeline.unscopedBufs_held c (V₀ m c)]
      exact .rfl, fun c => by
      show iprop(StableHlo.held (c.tc : Thread nD τ) (Pipeline.ucRefs τ sig) (StableHlo.after hostOps0 (V₀ m c)) ∗ rest m c) ⊢ pre0 m c
      rw [← Pipeline.unscopedBufs_held c (StableHlo.after hostOps0 (V₀ m c))]
      exact .rfl, fun c => by
      show post0 m c ⊢ _
      unfold post0 Tₙ Pipeline.Dat.owesAt Pipeline.owesWithin
      iintro ⟨Ha, %W, -, HO⟩
      isplitl [Ha]; · iexact Ha
      iexists W; iexact HO⟩)
    (hinit := launch_init m ρ)
    (QY := fun c s => ∀ w : Fin 3, s.mem ((spec0 w).arr.view.loc (c.tc : Thread nD τ)) = (dats m 0 c).arrAt w cfg0.N)
    (hfin := fun c s' => by
      have h := Pipeline.arrays_read (pcfgs (F := F)) adm (dats m) (p := 0) arr_whole0 c (share_eq m c) ((dats m 0 c).arrAt · cfg0.N) s'
      unfold Tₙ
      iintro H
      ihave H' := h $$ H
      imodintro
      iexact H')
    (hQ := fun s h c => ⟨((h c) 2).trans (arrAt_out m c),
      ((h c) 0).trans (((dats m 0 c).arrAt_in 0 rfl _).trans (V_main_arg0 m c)),
      ((h c) 1).trans (((dats m 0 c).arrAt_in 1 rfl _).trans (V_main_arg1 m c))⟩)

end Cert.KernelIdealProof

end
-- ==== Proof.KernelIdeal.Slots.lean ====
/-
  The four slots of the exchange buffer as element sets: which elements a copy's row view and a load's or store's rectangle touch,
  how the whole buffer splits into its slots and a slot into quarters of its share, and what the buffer reads and is left holding
  through those views when its contents are the final ones.
-/
import proofs.«901008_g7700000000001009_dist_rmsnorm_colshard_i_m512_n256_v7x_i4_bf16_1_alg».proof.Proof.Gen.KernelIdeal
import proofs.«901008_g7700000000001009_dist_rmsnorm_colshard_i_m512_n256_v7x_i4_bf16_1_alg».proof.Proof.Gen.KernelIdeal.Skeleton
import proofs.«901008_g7700000000001009_dist_rmsnorm_colshard_i_m512_n256_v7x_i4_bf16_1_alg».proof.Proof.Gen.KernelIdeal.Launch
import proofs.«901008_g7700000000001009_dist_rmsnorm_colshard_i_m512_n256_v7x_i4_bf16_1_alg».proof.Proof.Gen.KernelIdeal.Points
import Idealize.ShloMosaic.Lib.Pipeline.Launch
import Idealize.ShloMosaic.Lib.Pipeline.Kit
import Idealize.ShloMosaic.Lib.Pipeline.Regions
import Idealize.ShloMosaic.Lib.Pipeline.Value
import Idealize.ShloMosaic.Lib.Tactic
import proofs.«901008_g7700000000001009_dist_rmsnorm_colshard_i_m512_n256_v7x_i4_bf16_1_alg».proof.Proof.KernelIdeal.Sched

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The element sets -/

/-- An element of the buffer lies in the rectangle of one row at first coordinate `n` exactly when its first coordinate
    is `n`: on the other two axes the rectangle is the whole extent (1 and 512). -/
theorem mem_rect_slot (c : Dev nD) (n : ℕ) (inb : ∀ a, (![n, 0, 0] : Fin 3 → ℕ) a + S1x1x512.size a ≤ S4x1x512.size a)
    (i : Idx ((c : Thread nD τ).loc cc0_scratch0)) :
    i ∈ (Rect.unit (s := S4x1x512) ![n, 0, 0] S1x1x512.size inb).set ↔ (i 0).val = n := by
  rw [Rect.mem_set_unit]
  have h1 : (i 1).val < 1 := (i 1).isLt
  have h2 : (i 2).val < 512 := (i 2).isLt
  constructor
  · intro h
    have h0 := h 0
    simp only [Matrix.cons_val_zero, Shape.size] at h0
    omega
  · intro h a
    fin_cases a
    · simp only [Fin.zero_eta, Matrix.cons_val_zero, Shape.size]; omega
    · simp only [Fin.mk_one, Matrix.cons_val_one, Matrix.cons_val_zero, Shape.size]; omega
    · simp only [Fin.reduceFinMk, Matrix.cons_val_two, Matrix.tail_cons, Matrix.head_cons, Matrix.cons_val_zero, Shape.size]; omega

theorem mem_slotSet (c : Dev nD) (k : Fin 4) (i : Idx ((c : Thread nD τ).loc cc0_scratch0)) :
    i ∈ slotSet c k ↔ (i 0).val = k.val := by
  simp only [slotSet, Finset.mem_filter, Finset.mem_univ, true_and]

/-- The rectangle of one row at first coordinate `k` is the element set of slot `k`. -/
theorem rect_set_eq (c : Dev nD) (n : ℕ) (k : Fin 4) (hk : k.val = n)
    (inb : ∀ a, (![n, 0, 0] : Fin 3 → ℕ) a + S1x1x512.size a ≤ S4x1x512.size a) :
    (Rect.unit (s := S4x1x512) ![n, 0, 0] S1x1x512.size inb).set = slotSet c k := by
  ext i
  exact (mem_rect_slot c n inb i).trans ((mem_slotSet c k i).trans (by rw [hk])).symm

/-- A copy's row view of slot `k` goes through exactly the elements of slot `k`: re-indexing a view keeps its elements,
    and a rectangle of the whole buffer goes through the rectangle's. -/
theorem slot0_set (c : Dev nD) : (slot0 : Memref sig .tc .vmem S1x512 .f32).view.set = slotSet c 0 :=
  ((View.set_reshape _ _).trans (View.set_slice_whole cc0_scratch0 rect0)).trans (rect_set_eq c 0 0 rfl _)
theorem slot1_set (c : Dev nD) : (slot1 : Memref sig .tc .vmem S1x512 .f32).view.set = slotSet c 1 :=
  ((View.set_reshape _ _).trans (View.set_slice_whole cc0_scratch0 rect1)).trans (rect_set_eq c 1 1 rfl _)
theorem slot2_set (c : Dev nD) : (slot2 : Memref sig .tc .vmem S1x512 .f32).view.set = slotSet c 2 :=
  ((View.set_reshape _ _).trans (View.set_slice_whole cc0_scratch0 rect2)).trans (rect_set_eq c 2 2 rfl _)
theorem slot3_set (c : Dev nD) : (slot3 : Memref sig .tc .vmem S1x512 .f32).view.set = slotSet c 3 :=
  ((View.set_reshape _ _).trans (View.set_slice_whole cc0_scratch0 rect3)).trans (rect_set_eq c 3 3 rfl _)

/-- Through the whole buffer an index is its own element, so the elements under a rectangle are the rectangle's. -/
theorem setOn_rM_sub (c : Dev nD) (n : ℕ) (k : Fin 4) (hk : k.val = n)
    (inb : ∀ a, (![n, 0, 0] : Fin 3 → ℕ) a + S1x1x512.size a ≤ S4x1x512.size a) :
    (rM : Memref sig .tc .vmem S4x1x512 .f32).view.setOn (Rect.unit (s := S4x1x512) ![n, 0, 0] S1x1x512.size inb).toLoadRect.set ⊆ slotSet c k := by
  intro i hi
  obtain ⟨x, hx, rfl⟩ := Finset.mem_map.mp hi
  exact (mem_slotSet c k _).mpr (((mem_rect_slot c n inb x).mp hx).trans hk.symm)

/-- A load of slot `k` through the whole buffer touches only slot `k`; -/
theorem load0_sub (c : Dev nD) : (rM : Memref sig .tc .vmem S4x1x512 .f32).view.setOn rect0.toLoadRect.set ⊆ slotSet c 0 := setOn_rM_sub c 0 0 rfl _
theorem load1_sub (c : Dev nD) : (rM : Memref sig .tc .vmem S4x1x512 .f32).view.setOn rect1.toLoadRect.set ⊆ slotSet c 1 := setOn_rM_sub c 1 1 rfl _
theorem load2_sub (c : Dev nD) : (rM : Memref sig .tc .vmem S4x1x512 .f32).view.setOn rect2.toLoadRect.set ⊆ slotSet c 2 := setOn_rM_sub c 2 2 rfl _
theorem load3_sub (c : Dev nD) : (rM : Memref sig .tc .vmem S4x1x512 .f32).view.setOn rect3.toLoadRect.set ⊆ slotSet c 3 := setOn_rM_sub c 3 3 rfl _
/-- and the store of slot 0 only slot 0. -/
theorem store0_sub (c : Dev nD) : ((rM : Memref sig .tc .vmem S4x1x512 .f32).access rect0 : View sig .tc _ _ _).setOn Finset.univ ⊆ slotSet c 0 := by
  intro i hi
  have h : ((rM : Memref sig .tc .vmem S4x1x512 .f32).access rect0 : View sig .tc _ _ _).setOn Finset.univ = slotSet c 0 :=
    (View.set_slice_whole cc0_scratch0 rect0).trans (rect_set_eq c 0 0 rfl _)
  exact (Finset.ext_iff.mp h i).mp hi

/-! ## Splitting -/

/-- Every element of the buffer is in the slot its first coordinate names. -/
theorem univ_eq_biUnion_slotSet (c : Dev nD) :
    (Finset.univ : Finset (Idx ((c : Thread nD τ).loc cc0_scratch0))) = (Finset.univ : Finset (Fin 4)).biUnion (slotSet c) := by
  ext i
  simp only [Finset.mem_univ, Finset.mem_biUnion, true_and, true_iff]
  exact ⟨⟨(i 0).val, (i 0).isLt⟩, (mem_slotSet c _ i).mpr rfl⟩

/-- Different slots share no element: an element has one first coordinate. -/
theorem slotSet_disjoint (c : Dev nD) :
    ∀ t ∈ (Finset.univ : Finset (Fin 4)), ∀ t' ∈ (Finset.univ : Finset (Fin 4)), t ≠ t' → Disjoint (slotSet c t) (slotSet c t') := by
  intro t _ t' _ hne
  rw [Finset.disjoint_left]
  intro i hi hi'
  exact hne (Fin.ext (((mem_slotSet c t i).mp hi).symm.trans ((mem_slotSet c t' i).mp hi')))

omit [FloatOps F] in
/-- The whole buffer is its four slots. -/
theorem scratch_split (c : Dev nD) (f : Buf (Elt F) ((c : Thread nD τ).loc cc0_scratch0)) :
    ((((c : Thread nD τ).loc cc0_scratch0) ↦{fullShare} f : sProp 𝕄))
      ⊣⊢ iprop(slotPts c 0 fullShare f ∗ slotPts c 1 fullShare f ∗ slotPts c 2 fullShare f ∗ slotPts c 3 fullShare f) := by
  refine BiEntails.of_eq ?_
  show ((((c : Thread nD τ).loc cc0_scratch0) ↦[Finset.univ]{fullShare} f : sProp 𝕄)) = _
  rw [univ_eq_biUnion_slotSet c, pointsTo_biUnion _ _ (slotSet_disjoint c),
    bigSep_univ_eq_bigSepL [(0 : Fin 4), 1, 2, 3] (by decide) (by decide), bigSepL_cons_cons, bigSepL_cons_cons, bigSepL_cons_cons,
    bigSepL_singleton]
  rfl

omit [FloatOps F] in
/-- Four slots held at four valuations make a whole buffer at some valuation. -/
theorem scratch_join (c : Dev nD) (f0 f1 f2 f3 : Buf (Elt F) ((c : Thread nD τ).loc cc0_scratch0)) :
    iprop(slotPts c 0 fullShare f0 ∗ slotPts c 1 fullShare f1 ∗ slotPts c 2 fullShare f2 ∗ slotPts c 3 fullShare f3)
      ⊢ (iprop(∃ g, ((c : Thread nD τ).loc cc0_scratch0) ↦{fullShare} g) : sProp 𝕄) := by
  refine BIBase.Entails.trans ?_ (BIBase.Entails.trans (pointsTo_biUnion_join (q := fullShare) (Finset.univ : Finset (Fin 4)) (slotSet c)
    ![f0, f1, f2, f3] f0 (slotSet_disjoint c)) ?_)
  · rw [bigSep_univ_eq_bigSepL [(0 : Fin 4), 1, 2, 3] (by decide) (by decide), bigSepL_cons_cons, bigSepL_cons_cons, bigSepL_cons_cons,
      bigSepL_singleton]
    exact BIBase.Entails.rfl
  · rw [← univ_eq_biUnion_slotSet c]
    iintro H
    icases H with ⟨%g, %hg, HS⟩
    iexists g
    iexact HS

omit [FloatOps F] in
/-- A slot held whole is its four quarters: the whole share is its two halves, and each half its two halves. -/
theorem slot_quarters (c : Dev nD) (k : Fin 4) (f : Buf (Elt F) ((c : Thread nD τ).loc cc0_scratch0)) :
    (slotPts c k fullShare f : sProp 𝕄)
      ⊣⊢ iprop(slotPts c k qKeep f ∗ slotPts c k (qLend 0) f ∗ slotPts c k (qLend 1) f ∗ slotPts c k (qLend 2) f) := by
  unfold slotPts
  exact (pointsTo_share (PosShare.mem_left_op_right fullShare)).trans
    ((sep_congr (pointsTo_share (PosShare.mem_left_op_right fullShare.left)) (pointsTo_share (PosShare.mem_left_op_right fullShare.right))).trans
      sep_assoc)

omit [FloatOps F] in
/-- Only a slot's own elements matter to its points-to. -/
theorem slotPts_congr (c : Dev nD) (k : Fin 4) (q : PosShare TreeShare) {f g : Buf (Elt F) ((c : Thread nD τ).loc cc0_scratch0)}
    (h : ∀ i ∈ slotSet c k, f i = g i) : (slotPts c k q f : sProp 𝕄) = slotPts c k q g := by
  unfold slotPts; exact pointsTo_congr h

/-! ## Contents through the views -/

/-- The final contents at an element of slot `k`, read at a row index `x` with the element's last coordinate: the row sums of
    device `c - k` at `x`. (A row index has 0 on its first two axes, whose extents are 1.) -/
theorem finalScr_apply (c : Dev nD) (i : Idx ((c : Thread nD τ).loc cc0_scratch0)) (k : Fin 4) (hk : (i 0).val = k.val)
    (x : S1x1x512.Idx) (hx : (x 2).val = (i 2).val) : finalScr m c i = rowSums m (srcDev c k) x := by
  unfold finalScr
  refine congr (congrArg (fun d => rowSums m (srcDev c d)) (Fin.ext hk)) ?_
  funext a
  apply Fin.ext
  have h0 : (x 0).val < 1 := (x 0).isLt
  have h1 : (x 1).val < 1 := (x 1).isLt
  fin_cases a
  · show 0 = (x 0).val; omega
  · show 0 = (x 1).val; omega
  · show (i 2).val = (x 2).val; omega

/-- The element of the buffer under row index `z` of the rectangle at first coordinate `n`: first coordinate `n`, -/
theorem rect_emb_val0 (n : ℕ) (inb : ∀ a, (![n, 0, 0] : Fin 3 → ℕ) a + S1x1x512.size a ≤ S4x1x512.size a) (z : S1x1x512.Idx) :
    ((Rect.unit (s := S4x1x512) ![n, 0, 0] S1x1x512.size inb).emb z 0).val = n := by
  have h0 : (z 0).val < 1 := (z 0).isLt
  show (![n, 0, 0] : Fin 3 → ℕ) 0 + 1 * (z 0).val = n
  simp only [Matrix.cons_val_zero]
  omega
/-- last coordinate that of `z`. -/
theorem rect_emb_val2 (n : ℕ) (inb : ∀ a, (![n, 0, 0] : Fin 3 → ℕ) a + S1x1x512.size a ≤ S4x1x512.size a) (z : S1x1x512.Idx) :
    ((Rect.unit (s := S4x1x512) ![n, 0, 0] S1x1x512.size inb).emb z 2).val = (z 2).val := by
  show (![n, 0, 0] : Fin 3 → ℕ) 2 + 1 * (z 2).val = (z 2).val
  simp only [Matrix.cons_val_two, Matrix.tail_cons, Matrix.head_cons]
  omega

/-- Slot 0 holds the device's own row sums; and going `k` on and then `4 - k` on comes back round the mesh of four. -/
theorem srcDev_zero (c : Dev nD) : srcDev c 0 = c := shift_four c
theorem srcDev_shift1 (c : Dev nD) : srcDev (shift c 1) 1 = c := (shift_shift c 1 3).trans (shift_four c)
theorem srcDev_shift2 (c : Dev nD) : srcDev (shift c 2) 2 = c := (shift_shift c 2 2).trans (shift_four c)
theorem srcDev_shift3 (c : Dev nD) : srcDev (shift c 3) 3 = c := (shift_shift c 3 1).trans (shift_four c)

/-- The store of a device's row sums into slot 0 leaves slot 0 at its final contents. -/
theorem store0_final (c : Dev nD) (f : Buf (Elt F) ((c : Thread nD τ).loc cc0_scratch0)) :
    ∀ i ∈ slotSet c 0, ((rM : Memref sig .tc .vmem S4x1x512 .f32).access rect0 : View sig .tc _ _ _).write (Elt F) f (k0_pay2 (xstg m c)) Finset.univ i = finalScr m c i := by
  intro i hi
  have hset : ((rM : Memref sig .tc .vmem S4x1x512 .f32).access rect0 : View sig .tc _ _ _).set = slotSet c 0 :=
    (View.set_slice_whole cc0_scratch0 rect0).trans (rect_set_eq c 0 0 rfl _)
  have hi' : i ∈ ((rM : Memref sig .tc .vmem S4x1x512 .f32).access rect0 : View sig .tc _ _ _).set := by rw [hset]; exact hi
  obtain ⟨y, rfl⟩ := View.exists_emb_of_mem_set _ hi'
  rw [View.write_emb_of_mem _ _ (Finset.mem_univ y)]
  refine Eq.trans ?_ (finalScr_apply m c _ 0 ((rect_emb_val0 0 _ y).trans rfl) y (rect_emb_val2 0 _ y).symm).symm
  rw [srcDev_zero]
  rfl

/-- A load of the rectangle at first coordinate `k` reads, of the final contents, the row sums of device `c - k`. -/
theorem load_final_aux (c : Dev nD) (n : ℕ) (k : Fin 4) (hk : k.val = n)
    (inb : ∀ a, (![n, 0, 0] : Fin 3 → ℕ) a + S1x1x512.size a ≤ S4x1x512.size a) :
    (rM : Memref sig .tc .vmem S4x1x512 .f32).view.readAt (Elt F) (Rect.unit (s := S4x1x512) ![n, 0, 0] S1x1x512.size inb).toLoadRect (finalScr m c)
      = rowSums m (srcDev c k) := by
  funext x
  show finalScr m c ((Rect.unit (s := S4x1x512) ![n, 0, 0] S1x1x512.size inb).emb x) = _
  exact finalScr_apply m c _ k ((rect_emb_val0 n inb x).trans hk.symm) x (rect_emb_val2 n inb x).symm

/-- A load of slot `k` of the final contents reads the row sums of device `c - k`. -/
theorem load0_final (c : Dev nD) : (rM : Memref sig .tc .vmem S4x1x512 .f32).view.readAt (Elt F) rect0.toLoadRect (finalScr m c) = rowSums m c :=
  (load_final_aux m c 0 0 rfl _).trans (congrArg (rowSums m) (srcDev_zero c))
theorem load1_final (c : Dev nD) : (rM : Memref sig .tc .vmem S4x1x512 .f32).view.readAt (Elt F) rect1.toLoadRect (finalScr m c) = rowSums m (shift c 3) :=
  load_final_aux m c 1 1 rfl _
theorem load2_final (c : Dev nD) : (rM : Memref sig .tc .vmem S4x1x512 .f32).view.readAt (Elt F) rect2.toLoadRect (finalScr m c) = rowSums m (shift c 2) :=
  load_final_aux m c 2 2 rfl _
theorem load3_final (c : Dev nD) : (rM : Memref sig .tc .vmem S4x1x512 .f32).view.readAt (Elt F) rect3.toLoadRect (finalScr m c) = rowSums m (shift c 1) :=
  load_final_aux m c 3 3 rfl _

/-- The copy of device `c`'s slot 0 into slot `k` of a device `d` with `d - k = c` leaves that slot at `d`'s final contents:
    under one row index the two row views reach the elements of slot 0 and of slot `k` with the same last coordinate, and both
    final contents hold the row sums of `c` there. -/
theorem land_final_aux (c d : Dev nD) (n : ℕ) (k : Fin 4) (hk : k.val = n) (hd : srcDev d k = c)
    (inb : ∀ a, (![n, 0, 0] : Fin 3 → ℕ) a + S1x1x512.size a ≤ S4x1x512.size a)
    (fd : Buf (Elt F) ((d : Thread nD τ).loc cc0_scratch0)) :
    ∀ i ∈ slotSet d k,
      (((rM : Memref sig .tc .vmem S4x1x512 .f32).slice (Rect.unit (s := S4x1x512) ![n, 0, 0] S1x1x512.size inb) (fun _ => rfl)).squeeze S1x512
          squeezes_S1x1x512_S1x512 : Memref sig .tc .vmem S1x512 .f32).view.write (Elt F) fd
        ((slot0 : Memref sig .tc .vmem S1x512 .f32).view.read (Elt F) (finalScr m c)) Finset.univ i = finalScr m d i := by
  intro i hi
  have hset : (((rM : Memref sig .tc .vmem S4x1x512 .f32).slice (Rect.unit (s := S4x1x512) ![n, 0, 0] S1x1x512.size inb) (fun _ => rfl)).squeeze S1x512
      squeezes_S1x1x512_S1x512 : Memref sig .tc .vmem S1x512 .f32).view.set = slotSet d k :=
    ((View.set_reshape _ _).trans (View.set_slice_whole cc0_scratch0 _)).trans (rect_set_eq d n k hk inb)
  have hi' : i ∈ (((rM : Memref sig .tc .vmem S4x1x512 .f32).slice (Rect.unit (s := S4x1x512) ![n, 0, 0] S1x1x512.size inb) (fun _ => rfl)).squeeze S1x512
      squeezes_S1x1x512_S1x512 : Memref sig .tc .vmem S1x512 .f32).view.set := by rw [hset]; exact hi
  obtain ⟨y, rfl⟩ := View.exists_emb_of_mem_set _ hi'
  rw [View.write_emb_of_mem _ _ (Finset.mem_univ y)]
  refine Eq.trans (b := rowSums m c (Shape.reshapeEquiv squeezes_S1x1x512_S1x512.numel_eq y)) ?_ ?_
  · show finalScr m c (rect0.emb (Shape.reshapeEquiv squeezes_S1x1x512_S1x512.numel_eq y)) = _
    rw [finalScr_apply m c _ 0 ((rect_emb_val0 0 _ _).trans rfl) (Shape.reshapeEquiv squeezes_S1x1x512_S1x512.numel_eq y) (rect_emb_val2 0 _ _).symm,
      srcDev_zero]
  · symm
    show finalScr m d ((Rect.unit (s := S4x1x512) ![n, 0, 0] S1x1x512.size inb).emb (Shape.reshapeEquiv squeezes_S1x1x512_S1x512.numel_eq y)) = _
    rw [finalScr_apply m d _ k ((rect_emb_val0 n inb _).trans hk.symm) (Shape.reshapeEquiv squeezes_S1x1x512_S1x512.numel_eq y) (rect_emb_val2 n inb _).symm,
      hd]

/-- The copy of device `c`'s slot 0 into slot `k` of device `c + k` leaves that slot at ITS final contents. -/
theorem land1_final (c : Dev nD) (fd : Buf (Elt F) (((shift c 1 : Dev nD) : Thread nD τ).loc cc0_scratch0)) :
    ∀ i ∈ slotSet (shift c 1) 1, (slot1 : Memref sig .tc .vmem S1x512 .f32).view.write (Elt F) fd ((slot0 : Memref sig .tc .vmem S1x512 .f32).view.read (Elt F) (finalScr m c)) Finset.univ i = finalScr m (shift c 1) i :=
  land_final_aux m c (shift c 1) 1 1 rfl (srcDev_shift1 c) _ fd
theorem land2_final (c : Dev nD) (fd : Buf (Elt F) (((shift c 2 : Dev nD) : Thread nD τ).loc cc0_scratch0)) :
    ∀ i ∈ slotSet (shift c 2) 2, (slot2 : Memref sig .tc .vmem S1x512 .f32).view.write (Elt F) fd ((slot0 : Memref sig .tc .vmem S1x512 .f32).view.read (Elt F) (finalScr m c)) Finset.univ i = finalScr m (shift c 2) i :=
  land_final_aux m c (shift c 2) 2 2 rfl (srcDev_shift2 c) _ fd
theorem land3_final (c : Dev nD) (fd : Buf (Elt F) (((shift c 3 : Dev nD) : Thread nD τ).loc cc0_scratch0)) :
    ∀ i ∈ slotSet (shift c 3) 3, (slot3 : Memref sig .tc .vmem S1x512 .f32).view.write (Elt F) fd ((slot0 : Memref sig .tc .vmem S1x512 .f32).view.read (Elt F) (finalScr m c)) Finset.univ i = finalScr m (shift c 3) i :=
  land_final_aux m c (shift c 3) 3 3 rfl (srcDev_shift3 c) _ fd

end Cert.KernelIdealProof

end
-- ==== Proof.KernelIdeal.Body.lean ====
/-
  One device's body, stepped in program order from what it holds at the start to what it gives back.
-/
import proofs.«901008_g7700000000001009_dist_rmsnorm_colshard_i_m512_n256_v7x_i4_bf16_1_alg».proof.Proof.Gen.KernelIdeal
import proofs.«901008_g7700000000001009_dist_rmsnorm_colshard_i_m512_n256_v7x_i4_bf16_1_alg».proof.Proof.Gen.KernelIdeal.Skeleton
import proofs.«901008_g7700000000001009_dist_rmsnorm_colshard_i_m512_n256_v7x_i4_bf16_1_alg».proof.Proof.Gen.KernelIdeal.Launch
import proofs.«901008_g7700000000001009_dist_rmsnorm_colshard_i_m512_n256_v7x_i4_bf16_1_alg».proof.Proof.Gen.KernelIdeal.Points
import Idealize.ShloMosaic.Lib.Pipeline.Launch
import Idealize.ShloMosaic.Lib.Pipeline.Kit
import Idealize.ShloMosaic.Lib.Pipeline.Regions
import Idealize.ShloMosaic.Lib.Pipeline.Value
import Idealize.ShloMosaic.Lib.Tactic
import proofs.«901008_g7700000000001009_dist_rmsnorm_colshard_i_m512_n256_v7x_i4_bf16_1_alg».proof.Proof.KernelIdeal.State
import proofs.«901008_g7700000000001009_dist_rmsnorm_colshard_i_m512_n256_v7x_i4_bf16_1_alg».proof.Proof.KernelIdeal.Slots

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Around the mesh and back -/

theorem shift13 (c : Dev nD) : shift (shift c 1) 3 = c := by revert c; decide
theorem shift22 (c : Dev nD) : shift (shift c 2) 2 = c := by revert c; decide
theorem shift31 (c : Dev nD) : shift (shift c 3) 1 = c := by revert c; decide

/-- The device's signal to `c + 1` hands over its slot 3 and its receive semaphore 2, to `c + 2` slot 2 and semaphore 1, to
    `c + 3` slot 1 and semaphore 0: the slot that device's copy lands in. -/
theorem barPay_s1 (c : Dev nD) : barPay (F := F) (shift c 1) 2 = iprop((∃ f, slotPts c 3 fullShare f) ∗ reached ER (recvCell c 2) 0) := by
  unfold barPay; show iprop((∃ f, slotPts (shift (shift c 1) 3) 3 fullShare f) ∗ reached ER (recvCell (shift (shift c 1) 3) 2) 0) = _
  rw [shift13]
theorem barPay_s2 (c : Dev nD) : barPay (F := F) (shift c 2) 1 = iprop((∃ f, slotPts c 2 fullShare f) ∗ reached ER (recvCell c 1) 0) := by
  unfold barPay; show iprop((∃ f, slotPts (shift (shift c 2) 2) 2 fullShare f) ∗ reached ER (recvCell (shift (shift c 2) 2) 1) 0) = _
  rw [shift22]
theorem barPay_s3 (c : Dev nD) : barPay (F := F) (shift c 3) 0 = iprop((∃ f, slotPts c 1 fullShare f) ∗ reached ER (recvCell c 0) 0) := by
  unfold barPay; show iprop((∃ f, slotPts (shift (shift c 3) 1) 1 fullShare f) ∗ reached ER (recvCell (shift (shift c 3) 1) 0) 0) = _
  rw [shift31]

/-! ## Whole staging buffers read and written whole -/

abbrev rx : Rect S512x256 := Rect.unit (s := S512x256) ![0, 0] S512x256.size inb_S512x256_S512x256_0_0
abbrev rg : Rect S256 := Rect.unit (s := S256) ![0] S256.size inb_S256_S256_0

omit [FloatOps F] in
theorem hz2 : (![0, 0] : Fin 2 → Nat) = fun _ => 0 := funext fun a => by fin_cases a <;> rfl
omit [FloatOps F] in
theorem hz1 : (![0] : Fin 1 → Nat) = fun _ => 0 := funext fun a => by fin_cases a; rfl
omit [FloatOps F] in
theorem read_x (f : (cc0_stg0_0 : Ref sig .tc).ty.Contents (Elt F)) : (xM : Memref sig .tc .vmem S512x256 .f32).view.readAt (Elt F) rx.toLoadRect f = f :=
  Memref.readAt_unit_zero (Elt F) cc0_stg0_0 hz2 _ f
omit [FloatOps F] in
theorem read_g (f : (cc0_stg1_0 : Ref sig .tc).ty.Contents (Elt F)) : (gM : Memref sig .tc .vmem S256 .f32).view.readAt (Elt F) rg.toLoadRect f = f :=
  Memref.readAt_unit_zero (Elt F) cc0_stg1_0 hz1 _ f
omit [FloatOps F] in
theorem write_out (f w : (cc0_stg2_0 : Ref sig .tc).ty.Contents (Elt F)) :
    ((oM : Memref sig .tc .vmem S512x256 .f32).access rx : View sig .tc _ _ _).write (Elt F) f w Finset.univ = w :=
  Memref.write_access_unit_zero_univ (Elt F) cc0_stg2_0 hz2 _ f w

/-! ## The wait at the barrier -/

/-- After its three signals a device owes only the three landings. -/
theorem O₅_pos {c : Dev nD} {g : GSem nD τ sig} {u : Unit} (h : 0 < O₅ c g u) : ∃ d o, g = recvCell d o := by
  unfold O₅ O₄ O₃ at h
  simp only [Pi.add_apply, Finsupp.add_apply, tallyAt_apply] at h
  by_contra hn
  have hr : ∀ d o, ¬ (g = recvCell d o ∧ True) := fun d o h' => hn ⟨d, o, h'.1⟩
  rw [if_neg (hr _ _), if_neg (hr _ _), if_neg (hr _ _)] at h
  exact Nat.lt_irrefl 0 h

omit [FloatOps F] in
/-- They are on receive semaphores, above its barrier semaphore: it may wait there. -/
theorem mayWait_bar (c : Dev nD) : (levAts L lv : sProp 𝕄) ⊢ MayWait (c : Thread nD τ) (.reg barS) () (O₅ c) :=
  MayOwe.of_cut (L := L) (lev := lv) 1 (fun p hp => by rw [Finset.mem_singleton.mp hp, L_tc]; exact Finset.mem_singleton_self _)
    (fun g u hg => by obtain ⟨d, o, rfl⟩ := O₅_pos hg; rw [L_tc]; exact Finset.mem_singleton_self _)
    (fun p hp => by rw [Finset.mem_singleton.mp hp]; dsimp only [lv]; rw [if_pos rfl])
    (fun g u hg => by obtain ⟨d, o, rfl⟩ := O₅_pos hg; rw [lv_recv]; decide)

/-! ## The splitting lemmas over the points-tos themselves -/

omit [FloatOps F] in
theorem quarters_raw (c : Dev nD) (f : Buf (Elt F) ((c : Thread nD τ).loc cc0_scratch0)) :
    ((((c : Thread nD τ).loc cc0_scratch0) ↦[slotSet c 0]{fullShare} f : sProp 𝕄))
      ⊣⊢ iprop((((c : Thread nD τ).loc cc0_scratch0) ↦[slotSet c 0]{qKeep} f) ∗ (((c : Thread nD τ).loc cc0_scratch0) ↦[slotSet c 0]{qLend 0} f)
          ∗ (((c : Thread nD τ).loc cc0_scratch0) ↦[slotSet c 0]{qLend 1} f) ∗ (((c : Thread nD τ).loc cc0_scratch0) ↦[slotSet c 0]{qLend 2} f)) :=
  slot_quarters c 0 f

omit [FloatOps F] in
theorem scratch_join_raw (c : Dev nD) (f0 f1 f2 f3 : Buf (Elt F) ((c : Thread nD τ).loc cc0_scratch0)) :
    iprop((((c : Thread nD τ).loc cc0_scratch0) ↦[slotSet c 0]{fullShare} f0) ∗ (((c : Thread nD τ).loc cc0_scratch0) ↦[slotSet c 1]{fullShare} f1)
        ∗ (((c : Thread nD τ).loc cc0_scratch0) ↦[slotSet c 2]{fullShare} f2) ∗ (((c : Thread nD τ).loc cc0_scratch0) ↦[slotSet c 3]{fullShare} f3))
      ⊢ (iprop(∃ g, ((c : Thread nD τ).loc cc0_scratch0) ↦{fullShare} g) : sProp 𝕄) :=
  scratch_join c f0 f1 f2 f3

/-! ## A copy's credit is the same for every slot -/

omit [FloatOps F] in
theorem amount_slot1 (sm : DmaSem sig) : (slot1 : Memref sig .tc .vmem S1x512 .f32).view.amount (.dma sm) = N := rfl
omit [FloatOps F] in
theorem amount_slot2 (sm : DmaSem sig) : (slot2 : Memref sig .tc .vmem S1x512 .f32).view.amount (.dma sm) = N := rfl
omit [FloatOps F] in
theorem amount_slot3 (sm : DmaSem sig) : (slot3 : Memref sig .tc .vmem S1x512 .f32).view.amount (.dma sm) = N := rfl

/-! ## The landings and the returned quarters, at their slots -/

theorem recvPay_0 (c : Dev nD) : recvPay m c 0 = ((((c : Thread nD τ).loc cc0_scratch0) ↦[slotSet c 1]{fullShare} finalScr m c : sProp 𝕄)) := rfl
theorem recvPay_1 (c : Dev nD) : recvPay m c 1 = ((((c : Thread nD τ).loc cc0_scratch0) ↦[slotSet c 2]{fullShare} finalScr m c : sProp 𝕄)) := rfl
theorem recvPay_2 (c : Dev nD) : recvPay m c 2 = ((((c : Thread nD τ).loc cc0_scratch0) ↦[slotSet c 3]{fullShare} finalScr m c : sProp 𝕄)) := rfl
theorem sendPay_0 (c : Dev nD) : sendPay m c 0 = ((((c : Thread nD τ).loc cc0_scratch0) ↦[slotSet c 0]{qLend 0} finalScr m c : sProp 𝕄)) := rfl
theorem sendPay_1 (c : Dev nD) : sendPay m c 1 = ((((c : Thread nD τ).loc cc0_scratch0) ↦[slotSet c 0]{qLend 1} finalScr m c : sProp 𝕄)) := rfl
theorem sendPay_2 (c : Dev nD) : sendPay m c 2 = ((((c : Thread nD τ).loc cc0_scratch0) ↦[slotSet c 0]{qLend 2} finalScr m c : sProp 𝕄)) := rfl

section Body

variable (κ : GSem nD τ sig → ℕ)

set_option maxHeartbeats 1600000 in
/-- Copy 1 (slot 0 into slot 2 of `c + 2`), the device addressed given as `n` with `n = c + 2`: the landing on receive
    semaphore 1 of `c + 2` is paid off what `c` owes. -/
theorem wp_copy1 (c n : Dev nD) (hn : n = shift c 2) {hsc : (slot2 : Memref sig (Dev.tc n : Thread nD τ).2.kind .vmem S1x512 .f32).view.ref.isScScratch = false}
    {hsrc : (slot0 : Memref sig .tc .vmem S1x512 .f32).view.WordExact} {hdst : (slot2 : Memref sig .tc .vmem S1x512 .f32).view.WordExact}
    {hsem : DmaTarget.Typed .vmem (.dma (rcvSem 1)) (.remote (Dev.tc n : Thread nD τ) (slot2 : Memref sig .tc .vmem S1x512 .f32) (.dma (sndSem 1)) hsc)}
    {α : Type} {Q : α → sProp 𝕄} {k : PUnit → Prog (TpuEff nD τ sig (Elt F) Λ₀ .tc) α}
    (fn : Buf (Elt F) (((shift c 2 : Dev nD) : Thread nD τ).loc cc0_scratch0)) (W : Waits sig Unit) :
    iprop(cellInv ER (Rd m) (κ (sendCell c 1)) (sendCell c 1) ∗ cellInv ER (Rd m) (κ (recvCell (shift c 2) 1)) (recvCell (shift c 2) 1)
        ∗ (((c : Thread nD τ).loc cc0_scratch0) ↦[slotSet c 0]{qLend 1} finalScr m c)
        ∗ ((((shift c 2 : Dev nD) : Thread nD τ).loc cc0_scratch0) ↦[slotSet (shift c 2) 2]{fullShare} fn)
        ∗ owes (c : Thread nD τ) (O₅ c) W
        ∗ dutyTok ER (sendCell c 1) 0 (0 : Fin 3) ∗ reached ER (sendCell c 1) 0
        ∗ dutyTok ER (recvCell (shift c 2) 1) 0 (0 : Fin 3) ∗ reached ER (recvCell (shift c 2) 1) 0)
      ⊢ iprop(((cred (tallyAt (sendCell c 1) () N) ∗ owes (c : Thread nD τ) (O₄ c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slot0 (.remote (Dev.tc n : Thread nD τ) slot2 (.dma (sndSem 1)) hsc) (.dma (rcvSem 1)) hsrc hdst hsem) k) Q) := by
  subst hn
  rw [← slot0_set c, ← slot2_set (shift c 2)]
  exact Rounds.wp_send_pointsTo 𝒱₀ ER (Rd m) (c : Thread nD τ) none (c' := ((shift c 2 : Dev nD) : Thread nD τ)) (src := slot0) (dst := slot2)
    (sS := .dma (sndSem 1)) (sem := .dma (rcvSem 1)) (q := qLend 1) (fs := finalScr m c) (fd := fn)
    (κ₁ := κ (sendCell c 1)) (κ₂ := κ (recvCell (shift c 2) 1)) (r₁ := 0) (r₂ := 0) (d₁ := (0 : Fin 3)) (d₂ := (0 : Fin 3))
    (by rw [duties_send]; exact Finset.mem_singleton_self _) (by rw [duties_recv]; exact Finset.mem_singleton_self _)
    () () N (amount_slot2 _) (amount_send m c 1 0) (amount_recv m (shift c 2) 1 0) (O₄ c) rfl (W := W)
    (by rw [payload_send]; unfold sendPay slotPts; rw [slot0_set c])
    (by rw [payload_recv]; unfold recvPay slotPts; rw [slot2_set (shift c 2)]
        exact Entails.of_eq (pointsTo_congr (land2_final m c fn)))

set_option maxHeartbeats 1600000 in
/-- Copy 0 (slot 0 into slot 1 of `c + 1`), the device addressed given as `n` with `n = c + 1`. -/
theorem wp_copy0 (c n : Dev nD) (hn : n = shift c 1) {hsc : (slot1 : Memref sig (Dev.tc n : Thread nD τ).2.kind .vmem S1x512 .f32).view.ref.isScScratch = false}
    {hsrc : (slot0 : Memref sig .tc .vmem S1x512 .f32).view.WordExact} {hdst : (slot1 : Memref sig .tc .vmem S1x512 .f32).view.WordExact}
    {hsem : DmaTarget.Typed .vmem (.dma (rcvSem 0)) (.remote (Dev.tc n : Thread nD τ) (slot1 : Memref sig .tc .vmem S1x512 .f32) (.dma (sndSem 0)) hsc)}
    {α : Type} {Q : α → sProp 𝕄} {k : PUnit → Prog (TpuEff nD τ sig (Elt F) Λ₀ .tc) α}
    (fn : Buf (Elt F) (((shift c 1 : Dev nD) : Thread nD τ).loc cc0_scratch0)) (W : Waits sig Unit) :
    iprop(cellInv ER (Rd m) (κ (sendCell c 0)) (sendCell c 0) ∗ cellInv ER (Rd m) (κ (recvCell (shift c 1) 0)) (recvCell (shift c 1) 0)
        ∗ (((c : Thread nD τ).loc cc0_scratch0) ↦[slotSet c 0]{qLend 0} finalScr m c)
        ∗ ((((shift c 1 : Dev nD) : Thread nD τ).loc cc0_scratch0) ↦[slotSet (shift c 1) 1]{fullShare} fn)
        ∗ owes (c : Thread nD τ) (O₄ c) W
        ∗ dutyTok ER (sendCell c 0) 0 (0 : Fin 3) ∗ reached ER (sendCell c 0) 0
        ∗ dutyTok ER (recvCell (shift c 1) 0) 0 (0 : Fin 3) ∗ reached ER (recvCell (shift c 1) 0) 0)
      ⊢ iprop(((cred (tallyAt (sendCell c 0) () N) ∗ owes (c : Thread nD τ) (O₃ c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slot0 (.remote (Dev.tc n : Thread nD τ) slot1 (.dma (sndSem 0)) hsc) (.dma (rcvSem 0)) hsrc hdst hsem) k) Q) := by
  subst hn
  rw [← slot0_set c, ← slot1_set (shift c 1)]
  exact Rounds.wp_send_pointsTo 𝒱₀ ER (Rd m) (c : Thread nD τ) none (c' := ((shift c 1 : Dev nD) : Thread nD τ)) (src := slot0) (dst := slot1)
    (sS := .dma (sndSem 0)) (sem := .dma (rcvSem 0)) (q := qLend 0) (fs := finalScr m c) (fd := fn)
    (κ₁ := κ (sendCell c 0)) (κ₂ := κ (recvCell (shift c 1) 0)) (r₁ := 0) (r₂ := 0) (d₁ := (0 : Fin 3)) (d₂ := (0 : Fin 3))
    (by rw [duties_send]; exact Finset.mem_singleton_self _) (by rw [duties_recv]; exact Finset.mem_singleton_self _)
    () () N (amount_slot1 _) (amount_send m c 0 0) (amount_recv m (shift c 1) 0 0) (O₃ c) rfl (W := W)
    (by rw [payload_send]; unfold sendPay slotPts; rw [slot0_set c])
    (by rw [payload_recv]; unfold recvPay slotPts; rw [slot1_set (shift c 1)]
        exact Entails.of_eq (pointsTo_congr (land1_final m c fn)))

set_option maxHeartbeats 1600000 in
/-- Copy 2 (slot 0 into slot 3 of `c + 3`), the device addressed given as `n` with `n = c + 3`: after it nothing is owed. -/
theorem wp_copy2 (c n : Dev nD) (hn : n = shift c 3) {hsc : (slot3 : Memref sig (Dev.tc n : Thread nD τ).2.kind .vmem S1x512 .f32).view.ref.isScScratch = false}
    {hsrc : (slot0 : Memref sig .tc .vmem S1x512 .f32).view.WordExact} {hdst : (slot3 : Memref sig .tc .vmem S1x512 .f32).view.WordExact}
    {hsem : DmaTarget.Typed .vmem (.dma (rcvSem 2)) (.remote (Dev.tc n : Thread nD τ) (slot3 : Memref sig .tc .vmem S1x512 .f32) (.dma (sndSem 2)) hsc)}
    {α : Type} {Q : α → sProp 𝕄} {k : PUnit → Prog (TpuEff nD τ sig (Elt F) Λ₀ .tc) α}
    (fn : Buf (Elt F) (((shift c 3 : Dev nD) : Thread nD τ).loc cc0_scratch0)) (W : Waits sig Unit) :
    iprop(cellInv ER (Rd m) (κ (sendCell c 2)) (sendCell c 2) ∗ cellInv ER (Rd m) (κ (recvCell (shift c 3) 2)) (recvCell (shift c 3) 2)
        ∗ (((c : Thread nD τ).loc cc0_scratch0) ↦[slotSet c 0]{qLend 2} finalScr m c)
        ∗ ((((shift c 3 : Dev nD) : Thread nD τ).loc cc0_scratch0) ↦[slotSet (shift c 3) 3]{fullShare} fn)
        ∗ owes (c : Thread nD τ) (O₃ c) W
        ∗ dutyTok ER (sendCell c 2) 0 (0 : Fin 3) ∗ reached ER (sendCell c 2) 0
        ∗ dutyTok ER (recvCell (shift c 3) 2) 0 (0 : Fin 3) ∗ reached ER (recvCell (shift c 3) 2) 0)
      ⊢ iprop(((cred (tallyAt (sendCell c 2) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma slot0 (.remote (Dev.tc n : Thread nD τ) slot3 (.dma (sndSem 2)) hsc) (.dma (rcvSem 2)) hsrc hdst hsem) k) Q) := by
  subst hn
  rw [← slot0_set c, ← slot3_set (shift c 3)]
  exact Rounds.wp_send_pointsTo 𝒱₀ ER (Rd m) (c : Thread nD τ) none (c' := ((shift c 3 : Dev nD) : Thread nD τ)) (src := slot0) (dst := slot3)
    (sS := .dma (sndSem 2)) (sem := .dma (rcvSem 2)) (q := qLend 2) (fs := finalScr m c) (fd := fn)
    (κ₁ := κ (sendCell c 2)) (κ₂ := κ (recvCell (shift c 3) 2)) (r₁ := 0) (r₂ := 0) (d₁ := (0 : Fin 3)) (d₂ := (0 : Fin 3))
    (by rw [duties_send]; exact Finset.mem_singleton_self _) (by rw [duties_recv]; exact Finset.mem_singleton_self _)
    () () N (amount_slot3 _) (amount_send m c 2 0) (amount_recv m (shift c 3) 2 0) 0 (show O₃ c = 0 + tallyAt (recvCell (shift c 3) 2) () N from (zero_add _).symm) (W := W)
    (by rw [payload_send]; unfold sendPay slotPts; rw [slot0_set c])
    (by rw [payload_recv]; unfold recvPay slotPts; rw [slot3_set (shift c 3)]
        exact Entails.of_eq (pointsTo_congr (land3_final m c fn)))

set_option maxHeartbeats 1600000 in
/-- The body from `bodyPre` to `bodyPost`, one rule per effect in program order. -/
theorem sound_body (c : Dev nD) (Kt : PUnit → sProp 𝕄) :
    iprop(bodyPre m κ c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  sl_unfold [cc0_body, cc0_body_skel]
  sl_unfold [k0_part7, k0_part7_skel]
  sl_unfold [k0_part1, k0_part1_skel]
  simp only [semSignalWord, semWaitWord, Prog.lift, Prog.bind_op, Prog.bind_ret, Prog.pure_eq_ret, wp_deviceId]
  unfold bodyPre ghost invs positions reaches payToks creds
  iintro ⟨⟨⟨⟨⟨#HIb, #HIs0, #HIs1, #HIs2, #HIr0, #HIr1, #HIr2, #HIb1, #HIb2, #HIb3, #HIn1, #HIn2, #HIn3⟩,
        ⟨HaB, HaS0, HaS1, HaS2, HaR0, HaR1, HaR2⟩,
        ⟨#HrB1, #HrB2, #HrB3, #HrS0, #HrS1, #HrS2, #HrR0, #HrR1, #HrR2⟩,
        ⟨HtB1, HtB2, HtB3, HtS0, HtS1, HtS2, HtN1, HtN2, HtN3⟩⟩,
      ⟨HcB, HcR0, HcR1, HcR2⟩, #Hlev, ⟨%f0, Hscr⟩⟩,
    Ho, ⟨%d0, %g0, %hg0, Hx⟩, ⟨%d1, %g1, %hg1, Hg⟩, ⟨%d2, %g2, %hg2, Hout⟩⟩, Hk⟩
  have hx : g0 = xstg m c := by
    rw [hg0]; unfold Dat.before; rw [if_pos (fetch0_0 t₀)]
    show (win0_0.blk t₀).view.read (Elt F) (V m c main_arg0) = _
    rw [V_main_arg0]; rfl
  have hgam : g1 = gstg m c := by
    rw [hg1]; unfold Dat.before; rw [if_pos (fetch0_1 t₀)]
    show (win0_1.blk t₀).view.read (Elt F) (V m c main_arg1) = _
    rw [V_main_arg1]; rfl
  subst hx
  subst hgam
  unfold Dat.owesAt Pipeline.owesWithin
  icases Ho with ⟨%W, %hW, HO⟩
  rw [show (dats m 0 c).owed t₀.castSucc = O₀ c from rfl]
  simp only [dev1_eq c, dev2_eq c]
  -- the four-slot buffer, slot by slot
  ihave Hsp := (scratch_split (F := F) c f0).1 $$ Hscr
  icases Hsp with ⟨Hs0, Hs1, Hs2, Hs3⟩
  -- the signal to `c + 1`: with it go slot 3 and receive semaphore 2
  iapply (Rounds.wp_signal 𝒱₀ ER (Rd m) (c : Thread nD τ) none (dst := ((shift c 1 : Dev nD) : Thread nD τ)) (κ := κ (barCell (shift c 1)))
      (d := (2 : Fin 3)) (by rw [duties_bar]; exact Finset.mem_univ _) ((amount_bar m (shift c 1) 2).trans (by decide)) () (O₁ c) rfl)
    $$ [HO HtB1 Hs3]
  · isplitr; · iexact HIb1
    isplitl [HO]; · iexact HO
    isplitl [HtB1]; · iexact HtB1
    isplitl [Hs3]
    · rw [payload_bar, barPay_s1]
      isplitl [Hs3]; · iexists f0; iexact Hs3
      iexact HrR2
    · iexact HrB1
  iintro HO
  -- the signal to `c + 2`: slot 2 and receive semaphore 1
  iapply (Rounds.wp_signal 𝒱₀ ER (Rd m) (c : Thread nD τ) none (dst := ((shift c 2 : Dev nD) : Thread nD τ)) (κ := κ (barCell (shift c 2)))
      (d := (1 : Fin 3)) (by rw [duties_bar]; exact Finset.mem_univ _) ((amount_bar m (shift c 2) 1).trans (by decide)) () (O₂ c) rfl)
    $$ [HO HtB2 Hs2]
  · isplitr; · iexact HIb2
    isplitl [HO]; · iexact HO
    isplitl [HtB2]; · iexact HtB2
    isplitl [Hs2]
    · rw [payload_bar, barPay_s2]
      isplitl [Hs2]; · iexists f0; iexact Hs2
      iexact HrR1
    · iexact HrB2
  iintro HO
  -- the signal to `c + 3`: slot 1 and receive semaphore 0
  simp only [bind_assoc]
  sl_unfold [k0_part2, k0_part2_skel]
  simp only [semSignalWord, semWaitWord, Prog.lift, Prog.bind_op, Prog.bind_ret, Prog.pure_eq_ret, dev3_eq c]
  iapply (Rounds.wp_signal 𝒱₀ ER (Rd m) (c : Thread nD τ) none (dst := ((shift c 3 : Dev nD) : Thread nD τ)) (κ := κ (barCell (shift c 3)))
      (d := (0 : Fin 3)) (by rw [duties_bar]; exact Finset.mem_univ _) ((amount_bar m (shift c 3) 0).trans (by decide)) () (O₅ c) rfl)
    $$ [HO HtB3 Hs1]
  · isplitr; · iexact HIb3
    isplitl [HO]; · iexact HO
    isplitl [HtB3]; · iexact HtB3
    isplitl [Hs1]
    · rw [payload_bar, barPay_s3]
      isplitl [Hs1]; · iexists f0; iexact Hs1
      iexact HrR0
    · iexact HrB3
  iintro HO
  -- its columns of `x`
  iapply (wp_load 𝒱₀ (c : Thread nD τ) none Set.univ (m := xM) (Finset.subset_univ _)) $$ Hx; iintro Hx
  rw [read_x]
  -- slot 0, read for nothing and then written whole with the row sums: from here it holds its final contents
  unfold slotPts
  iapply (wp_load 𝒱₀ (c : Thread nD τ) none Set.univ (m := rM) (load0_sub c)) $$ Hs0; iintro Hs0
  iapply (wp_store 𝒱₀ (c : Thread nD τ) none Set.univ (m := rM) (r := rect0) (Mk := Finset.univ) (store0_sub c)) $$ Hs0; iintro Hs0
  ihave Hs0 := (Entails.of_eq (pointsTo_congr (store0_final m c f0))) $$ Hs0
  -- the wait for three on its barrier semaphore, owing the three landings: with it come the three slots it copies into
  iapply (Rounds.wp_wait_rest_token 𝒱₀ ER (Rd m) (c : Thread nD τ) none (κ := κ (barCell c))
      (wpE_semWait_eq 𝒱₀ (c : Thread nD τ) none Set.univ) (Set.mem_univ _) () (O := O₅ c) (W := W) (R := 0) (m := 0) (T := ∅)
      (by rw [expect_bar]; decide)) $$ [HcB HO HaB]
  · isplitr; · iexact HIb
    isplitl [HcB]; · iexact HcB
    isplitl [HO]; · iexact HO
    isplitr; · iapply (mayWait_bar c); iexact Hlev
    iexact HaB
  iintro ⟨HO, HaB, -, Hpay⟩
  ihave Hp := (Entails.of_eq (rest_bar m c)) $$ Hpay
  unfold barPay slotPts
  icases Hp with ⟨⟨⟨%fn1, Hd1⟩, #HrN1⟩, ⟨⟨%fn2, Hd2⟩, #HrN2⟩, ⟨⟨%fn3, Hd3⟩, #HrN3⟩⟩
  -- slot 0 in quarters: one to read through, three for the copies
  ihave Hq := (quarters_raw (F := F) c (finalScr m c)).1 $$ Hs0
  icases Hq with ⟨HqK, Hq0, Hq1, Hq2⟩
  simp only [bind_assoc]
  sl_unfold [k0_part3, k0_part3_skel]
  simp only [Prog.lift, Prog.bind_op, Prog.bind_ret, Prog.pure_eq_ret]
  -- copy 1: slot 0 into slot 2 of `c + 2`
  iapply (wp_copy1 m κ c _ (dev4_eq c) fn2 _) $$ [Hq1 Hd2 HO HtS1 HtN2]
  · isplitr; · iexact HIs1
    isplitr; · iexact HIn2
    isplitl [Hq1]; · iexact Hq1
    isplitl [Hd2]; · iexact Hd2
    isplitl [HO]; · iexact HO
    isplitl [HtS1]; · iexact HtS1
    isplitr; · iexact HrS1
    isplitl [HtN2]; · iexact HtN2
    iexact HrN2
  iintro ⟨HcS1, HO⟩
  -- copy 0: slot 0 into slot 1 of `c + 1`
  iapply (wp_copy0 m κ c _ (dev5_eq c) fn1 _) $$ [Hq0 Hd1 HO HtS0 HtN1]
  · isplitr; · iexact HIs0
    isplitr; · iexact HIn1
    isplitl [Hq0]; · iexact Hq0
    isplitl [Hd1]; · iexact Hd1
    isplitl [HO]; · iexact HO
    isplitl [HtS0]; · iexact HtS0
    isplitr; · iexact HrS0
    isplitl [HtN1]; · iexact HtN1
    iexact HrN1
  iintro ⟨HcS0, HO⟩
  simp only [bind_assoc]
  sl_unfold [k0_part4, k0_part4_skel]
  simp only [Prog.lift, Prog.bind_op, Prog.bind_ret, Prog.pure_eq_ret]
  -- copy 2: slot 0 into slot 3 of `c + 3`
  iapply (wp_copy2 m κ c _ (dev6_eq c) fn3 _) $$ [Hq2 Hd3 HO HtS2 HtN3]
  · isplitr; · iexact HIs2
    isplitr; · iexact HIn3
    isplitl [Hq2]; · iexact Hq2
    isplitl [Hd3]; · iexact Hd3
    isplitl [HO]; · iexact HO
    isplitl [HtS2]; · iexact HtS2
    isplitr; · iexact HrS2
    isplitl [HtN3]; · iexact HtN3
    iexact HrN3
  iintro ⟨HcS2, HO⟩
  -- its columns of `γ`
  iapply (wp_load 𝒱₀ (c : Thread nD τ) none Set.univ (m := gM) (Finset.subset_univ _)) $$ Hg; iintro Hg
  rw [read_g]
  simp only [bind_assoc]
  sl_unfold [k0_part5, k0_part5_skel]
  simp only [Prog.lift, Prog.bind_op, Prog.bind_ret, Prog.pure_eq_ret]
  -- the wait on receive semaphore 0: slot 1 holding the row sums of `c - 1`
  iapply (Rounds.wp_wait_rest_token 𝒱₀ ER (Rd m) (c : Thread nD τ) none (κ := κ (recvCell c 0))
      (wpE_waitDma2_eq 𝒱₀ (c : Thread nD τ) none Set.univ) (Set.mem_univ _) () (O := 0) (R := 0) (m := 0) (T := ∅)
      (by rw [Nat.zero_add]; exact ((expect_recv m c 0).trans rfl).symm)) $$ [HcR0 HO HaR0]
  · isplitr; · iexact HIr0
    isplitl [HcR0]; · iexact HcR0
    isplitl [HO]; · iexact HO
    isplitr; · rw [MayWait_zero]; iempintro
    iexact HaR0
  iintro ⟨HO, HaR0, -, Hpay⟩
  ihave Hr1 := (Entails.of_eq ((rest_recv m c 0).trans (recvPay_0 m c))) $$ Hpay
  -- the wait on receive semaphore 1: slot 2 holding the row sums of `c - 2`
  iapply (Rounds.wp_wait_rest_token 𝒱₀ ER (Rd m) (c : Thread nD τ) none (κ := κ (recvCell c 1))
      (wpE_waitDma2_eq 𝒱₀ (c : Thread nD τ) none Set.univ) (Set.mem_univ _) () (O := 0) (R := 0) (m := 0) (T := ∅)
      (by rw [Nat.zero_add]; exact ((expect_recv m c 1).trans rfl).symm)) $$ [HcR1 HO HaR1]
  · isplitr; · iexact HIr1
    isplitl [HcR1]; · iexact HcR1
    isplitl [HO]; · iexact HO
    isplitr; · rw [MayWait_zero]; iempintro
    iexact HaR1
  iintro ⟨HO, HaR1, -, Hpay⟩
  ihave Hr2 := (Entails.of_eq ((rest_recv m c 1).trans (recvPay_1 m c))) $$ Hpay
  simp only [bind_assoc]
  sl_unfold [k0_part6, k0_part6_skel]
  simp only [Prog.lift, Prog.bind_op, Prog.bind_ret, Prog.pure_eq_ret]
  -- the wait on receive semaphore 2: slot 3 holding the row sums of `c - 3`
  iapply (Rounds.wp_wait_rest_token 𝒱₀ ER (Rd m) (c : Thread nD τ) none (κ := κ (recvCell c 2))
      (wpE_waitDma2_eq 𝒱₀ (c : Thread nD τ) none Set.univ) (Set.mem_univ _) () (O := 0) (R := 0) (m := 0) (T := ∅)
      (by rw [Nat.zero_add]; exact ((expect_recv m c 2).trans rfl).symm)) $$ [HcR2 HO HaR2]
  · isplitr; · iexact HIr2
    isplitl [HcR2]; · iexact HcR2
    isplitl [HO]; · iexact HO
    isplitr; · rw [MayWait_zero]; iempintro
    iexact HaR2
  iintro ⟨HO, HaR2, -, Hpay⟩
  ihave Hr3 := (Entails.of_eq ((rest_recv m c 2).trans (recvPay_2 m c))) $$ Hpay
  -- the four slots read: the row sums of `c`, `c - 1`, `c - 2`, `c - 3`
  iapply (wp_load 𝒱₀ (c : Thread nD τ) none Set.univ (m := rM) (load0_sub c)) $$ HqK; iintro HqK
  rw [load0_final]
  iapply (wp_load 𝒱₀ (c : Thread nD τ) none Set.univ (m := rM) (load1_sub c)) $$ Hr1; iintro Hr1
  rw [load1_final]
  iapply (wp_load 𝒱₀ (c : Thread nD τ) none Set.univ (m := rM) (load2_sub c)) $$ Hr2; iintro Hr2
  rw [load2_final]
  iapply (wp_load 𝒱₀ (c : Thread nD τ) none Set.univ (m := rM) (load3_sub c)) $$ Hr3; iintro Hr3
  rw [load3_final]
  -- the result: read for nothing, then stored whole
  iapply (wp_load 𝒱₀ (c : Thread nD τ) none Set.univ (m := oM) (Finset.subset_univ _)) $$ Hout; iintro Hout
  iapply (wp_store 𝒱₀ (c : Thread nD τ) none Set.univ (m := oM) (r := rx) (Mk := Finset.univ) (Finset.subset_univ _)) $$ Hout; iintro Hout
  rw [write_out]
  -- the wait on send semaphore 1: the quarter of slot 0 copy 1 read
  iapply (Rounds.wp_wait_rest_token 𝒱₀ ER (Rd m) (c : Thread nD τ) none (κ := κ (sendCell c 1))
      (wpE_waitDma2_eq 𝒱₀ (c : Thread nD τ) none Set.univ) (Set.mem_univ _) () (O := 0) (R := 0) (m := 0) (T := ∅)
      (by rw [Nat.zero_add]; exact ((expect_send m c 1).trans rfl).symm)) $$ [HcS1 HO HaS1]
  · isplitr; · iexact HIs1
    isplitl [HcS1]; · iexact HcS1
    isplitl [HO]; · iexact HO
    isplitr; · rw [MayWait_zero]; iempintro
    iexact HaS1
  iintro ⟨HO, HaS1, -, Hpay⟩
  ihave Hq1 := (Entails.of_eq ((rest_send m c 1).trans (sendPay_1 m c))) $$ Hpay
  -- the wait on send semaphore 0
  iapply (Rounds.wp_wait_rest_token 𝒱₀ ER (Rd m) (c : Thread nD τ) none (κ := κ (sendCell c 0))
      (wpE_waitDma2_eq 𝒱₀ (c : Thread nD τ) none Set.univ) (Set.mem_univ _) () (O := 0) (R := 0) (m := 0) (T := ∅)
      (by rw [Nat.zero_add]; exact ((expect_send m c 0).trans rfl).symm)) $$ [HcS0 HO HaS0]
  · isplitr; · iexact HIs0
    isplitl [HcS0]; · iexact HcS0
    isplitl [HO]; · iexact HO
    isplitr; · rw [MayWait_zero]; iempintro
    iexact HaS0
  iintro ⟨HO, HaS0, -, Hpay⟩
  ihave Hq0 := (Entails.of_eq ((rest_send m c 0).trans (sendPay_0 m c))) $$ Hpay
  -- the wait on send semaphore 2
  iapply (Rounds.wp_wait_rest_token 𝒱₀ ER (Rd m) (c : Thread nD τ) none (κ := κ (sendCell c 2))
      (wpE_waitDma2_eq 𝒱₀ (c : Thread nD τ) none Set.univ) (Set.mem_univ _) () (O := 0) (R := 0) (m := 0) (T := ∅)
      (by rw [Nat.zero_add]; exact ((expect_send m c 2).trans rfl).symm)) $$ [HcS2 HO HaS2]
  · isplitr; · iexact HIs2
    isplitl [HcS2]; · iexact HcS2
    isplitl [HO]; · iexact HO
    isplitr; · rw [MayWait_zero]; iempintro
    iexact HaS2
  iintro ⟨HO, HaS2, -, Hpay⟩
  ihave Hq2 := (Entails.of_eq ((rest_send m c 2).trans (sendPay_2 m c))) $$ Hpay
  -- the six own semaphores close: their counters at zero are the device's again
  imod (Rounds.cell_close ER (Rd m) (Set.mem_univ (κ (sendCell c 0))) (fun h => h) (R := 0 + 1) (duties_later m (sendCell c 0))) $$ [HaS0] with HzS0
  · isplitr; · iexact HIs0
    iexact HaS0
  imod (Rounds.cell_close ER (Rd m) (Set.mem_univ (κ (sendCell c 1))) (fun h => h) (R := 0 + 1) (duties_later m (sendCell c 1))) $$ [HaS1] with HzS1
  · isplitr; · iexact HIs1
    iexact HaS1
  imod (Rounds.cell_close ER (Rd m) (Set.mem_univ (κ (sendCell c 2))) (fun h => h) (R := 0 + 1) (duties_later m (sendCell c 2))) $$ [HaS2] with HzS2
  · isplitr; · iexact HIs2
    iexact HaS2
  imod (Rounds.cell_close ER (Rd m) (Set.mem_univ (κ (recvCell c 0))) (fun h => h) (R := 0 + 1) (duties_later m (recvCell c 0))) $$ [HaR0] with HzR0
  · isplitr; · iexact HIr0
    iexact HaR0
  imod (Rounds.cell_close ER (Rd m) (Set.mem_univ (κ (recvCell c 1))) (fun h => h) (R := 0 + 1) (duties_later m (recvCell c 1))) $$ [HaR1] with HzR1
  · isplitr; · iexact HIr1
    iexact HaR1
  imod (Rounds.cell_close ER (Rd m) (Set.mem_univ (κ (recvCell c 2))) (fun h => h) (R := 0 + 1) (duties_later m (recvCell c 2))) $$ [HaR2] with HzR2
  · isplitr; · iexact HIr2
    iexact HaR2
  -- slot 0 whole again, and the buffer whole again
  ihave Hs0 := (quarters_raw (F := F) c (finalScr m c)).2 $$ [HqK Hq0 Hq1 Hq2]
  · isplitl [HqK]; · iexact HqK
    isplitl [Hq0]; · iexact Hq0
    isplitl [Hq1]; · iexact Hq1
    iexact Hq2
  ihave Hscr := (scratch_join_raw (F := F) c (finalScr m c) (finalScr m c) (finalScr m c) (finalScr m c)) $$ [Hs0 Hr1 Hr2 Hr3]
  · isplitl [Hs0]; · iexact Hs0
    isplitl [Hr1]; · iexact Hr1
    isplitl [Hr2]; · iexact Hr2
    iexact Hr3
  rw [wp_ret]; imodintro
  iapply Hk
  unfold bodyPost Φ₁ ownZero Dat.owesAt Pipeline.owesWithin
  rw [show (dats m 0 c).owed t₀.succ = 0 from rfl]
  isplitl [Hscr HzS0 HzS1 HzS2 HzR0 HzR1 HzR2]
  · isplitl [Hscr]; · iexact Hscr
    isplitl [HzS0]; · iexact HzS0
    isplitl [HzS1]; · iexact HzS1
    isplitl [HzS2]; · iexact HzS2
    isplitl [HzR0]; · iexact HzR0
    isplitl [HzR1]; · iexact HzR1
    iexact HzR2
  isplitl [HO]
  · iexists (insert (SemLoc.dma (sndSem 2), ()) (insert (SemLoc.dma (sndSem 0), ()) (insert (SemLoc.dma (sndSem 1), ())
      (insert (SemLoc.dma (rcvSem 2), ()) (insert (SemLoc.dma (rcvSem 1), ()) (insert (SemLoc.dma (rcvSem 0), ())
        (insert (SemLoc.reg barS, ()) W)))))))
    isplitr; · ipureintro; exact fun _ _ => Or.inl trivial
    iexact HO
  isplitl [Hx]
  · iexists _; isplitr; · (ipureintro; rfl)
    iexact Hx
  isplitl [Hg]
  · iexists _; isplitr; · (ipureintro; rfl)
    iexact Hg
  iexists _; isplitr; · (ipureintro; rfl)
  iexact Hout

end Body

set_option maxRecDepth 4000 in
/-- What the pipeline hands the body at its one grid point. -/
def bodyPre' (c : Dev nD) : sProp 𝕄 :=
  iprop(Φ₀ m c ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

set_option maxRecDepth 4000 in
/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) cc0_scratch1 cc0_scratch2)
    (fun _ => bodyPost m c)
  unfold bodyPre' Φ₀ start
  iintro ⟨⟨⟨⟨%κ, Hgh⟩, Hcr, Hlev⟩, Hscr⟩, Ho, Hx, Hgm, Hout⟩
  iapply (sound_body m κ c fun _ => bodyPost m c)
  unfold bodyPre
  isplitr []
  · isplitl [Hgh Hcr Hlev Hscr]
    · isplitl [Hgh]; · iexact Hgh
      isplitl [Hcr]; · iexact Hcr
      isplitl [Hlev]; · iexact Hlev
      iexact Hscr
    isplitl [Ho]; · iexact Ho
    isplitl [Hx]; · iexact Hx
    isplitl [Hgm]; · iexact Hgm
    iexact Hout
  · iintro H; iexact H

end Cert.KernelIdealProof

end
-- ==== Proof.KernelIdeal.Run.lean ====
/-
  The run of @main on the four devices, with each device's result named.
-/
import proofs.«901008_g7700000000001009_dist_rmsnorm_colshard_i_m512_n256_v7x_i4_bf16_1_alg».proof.Proof.Gen.KernelIdeal
import proofs.«901008_g7700000000001009_dist_rmsnorm_colshard_i_m512_n256_v7x_i4_bf16_1_alg».proof.Proof.Gen.KernelIdeal.Skeleton
import proofs.«901008_g7700000000001009_dist_rmsnorm_colshard_i_m512_n256_v7x_i4_bf16_1_alg».proof.Proof.Gen.KernelIdeal.Launch
import proofs.«901008_g7700000000001009_dist_rmsnorm_colshard_i_m512_n256_v7x_i4_bf16_1_alg».proof.Proof.Gen.KernelIdeal.Points
import Idealize.ShloMosaic.Lib.Pipeline.Launch
import Idealize.ShloMosaic.Lib.Pipeline.Kit
import Idealize.ShloMosaic.Lib.Pipeline.Regions
import Idealize.ShloMosaic.Lib.Pipeline.Value
import Idealize.ShloMosaic.Lib.Tactic
import proofs.«901008_g7700000000001009_dist_rmsnorm_colshard_i_m512_n256_v7x_i4_bf16_1_alg».proof.Proof.Gen.KernelIdeal.Frame
import proofs.«901008_g7700000000001009_dist_rmsnorm_colshard_i_m512_n256_v7x_i4_bf16_1_alg».proof.Proof.KernelIdeal.Launch
import proofs.«901008_g7700000000001009_dist_rmsnorm_colshard_i_m512_n256_v7x_i4_bf16_1_alg».proof.Proof.KernelIdeal.Body

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Every weakly fair execution of @main ends, no fault on the way, each device's result buffer holding `outAt m c` and its two
    arguments what they held. -/
theorem run_main : θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_main_of m ρ (fun c => body_obligation m c)

end Cert.KernelIdealProof

end
-- ==== Proof.KernelIdeal.Stage.lean ====
/-
  The two staged arguments. Each argument's window is its whole array at the one grid point, so what a device stages of an
  argument is that argument's buffer as launched: the columns of `x` and of `γ` the device holds.
-/
import proofs.«901008_g7700000000001009_dist_rmsnorm_colshard_i_m512_n256_v7x_i4_bf16_1_alg».proof.Proof.Gen.KernelIdeal
import proofs.«901008_g7700000000001009_dist_rmsnorm_colshard_i_m512_n256_v7x_i4_bf16_1_alg».proof.Proof.Gen.KernelIdeal.Skeleton
import proofs.«901008_g7700000000001009_dist_rmsnorm_colshard_i_m512_n256_v7x_i4_bf16_1_alg».proof.Proof.Gen.KernelIdeal.Launch
import proofs.«901008_g7700000000001009_dist_rmsnorm_colshard_i_m512_n256_v7x_i4_bf16_1_alg».proof.Proof.Gen.KernelIdeal.Points
import Idealize.ShloMosaic.Lib.Pipeline.Launch
import Idealize.ShloMosaic.Lib.Pipeline.Kit
import Idealize.ShloMosaic.Lib.Pipeline.Regions
import Idealize.ShloMosaic.Lib.Pipeline.Value
import Idealize.ShloMosaic.Lib.Tactic
import proofs.«901008_g7700000000001009_dist_rmsnorm_colshard_i_m512_n256_v7x_i4_bf16_1_alg».proof.Proof.KernelIdeal.Sched

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

omit [FloatOps F] in
/-- The window of `x` reads the whole of the device's argument: a rectangle of the array's own sizes at zero offsets. -/
theorem xstg_eq (c : Dev nD) : xstg m c = m ((c.tc : Thread nD τ).loc main_arg0) := by
  unfold xstg
  exact Memref.read_access_unit_zero (Elt F) main_arg0 (funext fun a => Nat.zero_mul _) _ _

omit [FloatOps F] in
/-- The same for `γ`. -/
theorem gstg_eq (c : Dev nD) : gstg m c = m ((c.tc : Thread nD τ).loc main_arg1) := by
  unfold gstg
  exact Memref.read_access_unit_zero (Elt F) main_arg1 (funext fun a => Nat.zero_mul _) _ _

end Cert.KernelIdealProof

end
-- ==== Proof.Bridge.lean ====
import proofs.«901008_g7700000000001009_dist_rmsnorm_colshard_i_m512_n256_v7x_i4_bf16_1_alg».proof.Proof.Gen.KernelIdeal.Skeleton
import proofs.«901008_g7700000000001009_dist_rmsnorm_colshard_i_m512_n256_v7x_i4_bf16_1_alg».proof.Proof.Gen.ReferenceIdeal.Run
import proofs.«901008_g7700000000001009_dist_rmsnorm_colshard_i_m512_n256_v7x_i4_bf16_1_alg».proof.Proof.Gen.ReferenceIdeal.Read
import Idealize.ShloMosaic.Lib.Layout
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin
import Mathlib.Logic.Equiv.Fin.Basic

noncomputable section

namespace Cert.Bridge

open Idealize.ShloMosaic Cert.KernelIdeal Cert.KernelIdeal.Gen

/-- Device `c + k` on the mesh of four. -/
def shift (c : Fin 4) (k : ℕ) : Fin 4 := ⟨(c.val + k) % 4, Nat.mod_lt _ (by decide)⟩

/-- Device `d`'s block of the whole `x` (256 of its 1024 columns) and of the whole `γ`. -/
abbrev xb (X : (⟨⟨2, ![512, 1024]⟩, .f32⟩ : BufTy).Contents (Elt Ideal)) (d : Fin 4) : Vec Ideal S512x256 .f32 :=
  Layout.block ⟨2, ![512, 256]⟩ ⟨2, ![512, 1024]⟩ 1 4 d X
abbrev gb (Γ : (⟨⟨1, ![1024]⟩, .f32⟩ : BufTy).Contents (Elt Ideal)) (d : Fin 4) : Vec Ideal S256 .f32 :=
  Layout.block ⟨1, ![256]⟩ ⟨1, ![1024]⟩ 0 4 d Γ

/-- What a device stores as its result, from its own blocks and the four slots of row sums of squares. -/
def devOut (x : Vec Ideal S512x256 .f32) (g : Vec Ideal S256 .f32) (p0 p1 p2 p3 : Vec Ideal S1x1x512 .f32) : Vec Ideal S512x256 .f32 :=
  k0_pay6 (F := Ideal) (k0_pay3 (k0_pay1 x) g) (k0_pay4 p0 p1 p2 p3) k0_pay5

/-! ## Extended-real algebra -/

/-- A square is nonnegative on every extended real: both infinities square to the top. -/
theorem mul_self_nonneg' (x : EReal) : 0 ≤ x * x := by
  induction x using EReal.rec with
  | bot => rw [EReal.bot_mul_bot]; exact le_top
  | top => rw [EReal.top_mul_top]; exact le_top
  | coe r => rw [← EReal.coe_mul]; exact_mod_cast mul_self_nonneg r

/-- The word 0x44800000 denotes 1024. -/
theorem ofBits_1024 : Ideal.ofBits .f32 0x44800000#32 = ((1024 : ℝ) : EReal) := by
  simp [Ideal.ofBits, Ideal.ieee, -EReal.coe_mul]; norm_num

/-- The word 0x3A800000 denotes 2^-10, the reciprocal of 1024. -/
theorem ofBits_inv1024 : Ideal.ofBits .f32 0x3A800000#32 = ((1 / 1024 : ℝ) : EReal) := by
  simp [Ideal.ofBits, Ideal.ieee, -EReal.coe_mul]; norm_num

/-- The word 0x3727C5AC denotes a positive real. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  positivity

/-- Dividing by the root of the mean square plus a positive constant is multiplying by the reciprocal root, the mean
    taken by dividing by 1024 on one side and by multiplying with its reciprocal on the other: at every nonnegative
    extended real, the top included (there the root is the top and both sides are the numerator times zero). -/
theorem div_sqrt_eq_mul_rsqrt (a s : EReal) (hs : 0 ≤ s) (e : ℝ) (he : 0 < e) :
    Ideal.div a (Ideal.sqrt (Ideal.div s ((1024 : ℝ) : EReal) + (e : EReal)))
      = a * Ideal.rsqrt (s * ((1 / 1024 : ℝ) : EReal) + (e : EReal)) := by
  rw [Ideal.div_coe (by norm_num : (1024 : ℝ) ≠ 0)]
  induction s using EReal.rec with
  | bot => exact absurd hs (by simp)
  | top =>
    rw [EReal.top_mul_coe_of_pos (by norm_num), EReal.top_add_coe, Ideal.sqrt_top, Ideal.rsqrt_top, Ideal.div,
      if_neg EReal.top_ne_zero, EReal.inv_top]
  | coe r =>
    have hr : 0 ≤ r := by exact_mod_cast hs
    have hv : 0 < r * (1 / 1024) + e := by positivity
    rw [← EReal.coe_mul, ← EReal.coe_add, Ideal.sqrt_coe, Ideal.rsqrt_coe, if_neg (not_lt.mpr hv.le),
      if_neg (not_lt.mpr hv.le), if_neg hv.ne', Ideal.div,
      if_neg (by exact_mod_cast (Real.sqrt_pos.mpr hv).ne'), ← EReal.coe_inv]

/-! ## Layout operations read at an index: the column forms -/

section LayoutForms
open Idealize.ShloMosaic.ValueIdx
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[1, a]` reads, at `(u, i)`, the operand at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A `[1, a]` array cast to `[a, 1]` reads, at `(i, u)`, the operand at `(0, i)`. -/
theorem shapeCast_1a_a1_apply {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end LayoutForms

/-! ## Where a block's entries are in the whole arrays -/

section Blocks
open Idealize.ShloMosaic.ValueIdx

/-- Column `l` of block `d` is column `256 d + l` of the whole. -/
def col (d : Fin 4) (l : Fin 256) : Fin 1024 := ⟨d.val * 256 + l.val, by have := d.isLt; have := l.isLt; omega⟩

theorem tiles_idx2 (h : Layout.Tiles ⟨2, ![512, 256]⟩ ⟨2, ![512, 1024]⟩ 1 4) (d : Fin 4) (r : Fin 512) (l : Fin 256) :
    h.idx d (ix2 r l) = ix2 r (col d l) := by
  funext a; apply Fin.ext
  match a with
  | ⟨0, _⟩ => rfl
  | ⟨1, _⟩ => rfl

theorem tiles_idx1 (h : Layout.Tiles ⟨1, ![256]⟩ ⟨1, ![1024]⟩ 0 4) (d : Fin 4) (l : Fin 256) :
    h.idx d (ix1 l) = ix1 (col d l) := by
  funext a; apply Fin.ext
  match a with
  | ⟨0, _⟩ => rfl

/-- Block `d` of `x` at `(r, l)` is `x` at `(r, 256 d + l)`. -/
theorem xb_apply (X : (⟨⟨2, ![512, 1024]⟩, .f32⟩ : BufTy).Contents (Elt Ideal)) (d : Fin 4) (r : Fin 512) (l : Fin 256) :
    xb X d (ix2 r l) = X (ix2 r (col d l)) :=
  congrArg X (tiles_idx2 _ d r l)

/-- Block `d` of `γ` at `l` is `γ` at `256 d + l`. -/
theorem gb_apply (Γ : (⟨⟨1, ![1024]⟩, .f32⟩ : BufTy).Contents (Elt Ideal)) (d : Fin 4) (l : Fin 256) :
    gb Γ d (ix1 l) = Γ (ix1 (col d l)) :=
  congrArg Γ (tiles_idx1 _ d l)

/-- The square of the entry of `x` at row `r`, column `k`. -/
def sqAt (X : (⟨⟨2, ![512, 1024]⟩, .f32⟩ : BufTy).Contents (Elt Ideal)) (r : Fin 512) (k : Fin 1024) : EReal :=
  X (ix2 r k) * X (ix2 r k)

/-- Device `d`'s part of row `r`'s sum of squares: the sum over its 256 columns. -/
def partSum (X : (⟨⟨2, ![512, 1024]⟩, .f32⟩ : BufTy).Contents (Elt Ideal)) (r : Fin 512) (d : Fin 4) : EReal :=
  ∑ l : Fin 256, sqAt X r (col d l)

/-- The sum over all 1024 columns is the sum over the four blocks of the sums over each block's 256 columns. -/
theorem sum_cols (f : Fin 1024 → EReal) : ∑ k : Fin 1024, f k = ∑ d : Fin 4, ∑ l : Fin 256, f (col d l) := by
  rw [← Fintype.sum_prod_type' (f := fun d l => f (col d l))]
  refine (Fintype.sum_equiv finProdFinEquiv (fun p : Fin 4 × Fin 256 => f (col p.1 p.2)) f fun p =>
    congrArg f (Fin.ext ?_)).symm
  show p.1.val * 256 + p.2.val = p.2.val + 256 * p.1.val
  omega

/-- The devices `c + 3`, `c + 2`, `c + 1` (mod 4), for each of the four `c`. -/
theorem shift_cases : ∀ c : Fin 4,
    (c = 0 ∧ shift c 3 = 3 ∧ shift c 2 = 2 ∧ shift c 1 = 1) ∨ (c = 1 ∧ shift c 3 = 0 ∧ shift c 2 = 3 ∧ shift c 1 = 2)
      ∨ (c = 2 ∧ shift c 3 = 1 ∧ shift c 2 = 0 ∧ shift c 1 = 3) ∨ (c = 3 ∧ shift c 3 = 2 ∧ shift c 2 = 1 ∧ shift c 1 = 0) := by
  decide

/-- Devices `c`, `c + 3`, `c + 2`, `c + 1` (mod 4) are the four devices: a sum over the four, taken in that order,
    is the sum over all, by commutativity and associativity alone. -/
theorem sum_four_shift (S : Fin 4 → EReal) (c : Fin 4) :
    ∑ d : Fin 4, S d = ((S c + S (shift c 3)) + S (shift c 2)) + S (shift c 1) := by
  rw [Fin.sum_univ_four]
  rcases shift_cases c with ⟨h0, h3, h2, h1⟩ | ⟨h0, h3, h2, h1⟩ | ⟨h0, h3, h2, h1⟩ | ⟨h0, h3, h2, h1⟩ <;>
    rw [h3, h2, h1, h0] <;> ac_rfl

/-- The four parts the device adds, its own first, are the whole row's sum of squares. -/
theorem sum_parts (X : (⟨⟨2, ![512, 1024]⟩, .f32⟩ : BufTy).Contents (Elt Ideal)) (r : Fin 512) (c : Fin 4) :
    ((partSum X r c + partSum X r (shift c 3)) + partSum X r (shift c 2)) + partSum X r (shift c 1)
      = ∑ k : Fin 1024, sqAt X r k :=
  ((sum_cols (sqAt X r)).trans (sum_four_shift (partSum X r) c)).symm

end Blocks

/-! ## The reference's block entry -/

section Reference
open Idealize.ShloMosaic.ValueIdx Cert.ReferenceIdeal.Read

/-- The scale's index under the two broadcasts: column `q`. -/
theorem idx_scale (r : Fin 512) (q : Fin 1024) : idx_main_v8 (idx_main_v9 (ix2 r q)) = ix1 q := by
  funext a
  match a with
  | ⟨0, _⟩ => rfl

/-- The reduced entries under the broadcasts of the row's mean: row `r`, every column `k`. -/
theorem idx_rowsum (r : Fin 512) (q : Fin 1024) (k : Fin 1024) :
    idx_main_v1 (idx_main_v2 (idx_main_v11 (ix2 r q))) k = ix2 r k := by
  funext a
  match a with
  | ⟨0, _⟩ => rfl
  | ⟨1, _⟩ => rfl

/-- The reference at `(r, q)`: `γ[q] · x[r, q]` over the root of the row's mean square plus the constant. -/
theorem ref_apply (X : (⟨⟨2, ![512, 1024]⟩, .f32⟩ : BufTy).Contents (Elt Ideal))
    (Γ : (⟨⟨1, ![1024]⟩, .f32⟩ : BufTy).Contents (Elt Ideal)) (r : Fin 512) (q : Fin 1024) :
    val_main_v12 (F := Ideal) X Γ (ix2 r q)
      = Ideal.div (Γ (ix1 q) * X (ix2 r q))
          (Ideal.sqrt (Ideal.div (∑ k : Fin 1024, sqAt X r k) (Ideal.ofBits .f32 0x44800000#32)
            + Ideal.ofBits .f32 0x3727C5AC#32)) := by
  unfold sqAt
  simp only [val_main_v12_apply, val_main_v11_apply, val_main_v10_apply, val_main_v9_apply, val_main_v8_apply,
    val_main_v7_apply, val_main_v6_apply, val_main_v5_apply, val_main_v4_apply, val_main_v3_apply, val_main_v2_apply,
    val_main_v1_apply, val_main_v0_apply, val_main_cst_apply, val_main_cst_0_apply, val_main_cst_1_apply, idx_scale,
    idx_rowsum, Ideal.hostDivf_def, Ideal.mulf_def, Ideal.addf_def, Ideal.hostUnary_sqrt_def, Ideal.ofBits_def,
    Ideal.ofBits_zero_f32, zero_add]

end Reference

/-! ## The kernel's payloads at an index -/

section Kernel
open Idealize.ShloMosaic.ValueIdx

/-- A sum over the columns of a 512 × 256 block, read at row `r`. -/
theorem rowsum_apply (v : FVec Ideal S512x256 .f32) (h : S512x256.Reduces [1] S512) (hφ : FKind.Formats .f32)
    (hacc : (0x00000000#32 : BitVec 32) = FKind.add.neutral .f32 hφ) (r : Fin 512) :
    multiReduction (F := Ideal) .add [1] S512 v 0x00000000#32 h hφ hacc (ix1 r) = ∑ k : Fin 256, v (ix2 r k) := by
  refine (Ideal.multiReduction_add_single v _ h hφ hacc (ix1 r)).trans ?_
  refine Finset.sum_congr rfl fun k _ => congrArg v ?_
  funext a; apply Fin.ext
  match a with
  | ⟨0, _⟩ => rfl
  | ⟨1, _⟩ => rfl

/-- The slot a device fills: at row `r`, the sum of the squares of its block's row. -/
theorem pay2_apply (y : FVec Ideal S512x256 .f32) (r : Fin 512) :
    k0_pay2 (F := Ideal) y (ix3 (0 : Fin 1) (0 : Fin 1) r) = ∑ k : Fin 256, y (ix2 r k) * y (ix2 r k) := by
  unfold k0_pay2 k0_pay1
  refine (shapeCast_ab_1ab_apply _ _ _ _ _).trans ?_
  refine (shapeCast_a1_1a_apply _ _ _ _).trans ?_
  refine (shapeCast_a_a1_apply _ _ _ _).trans ?_
  refine (rowsum_apply _ _ _ _ r).trans ?_
  refine Finset.sum_congr rfl fun k _ => ?_
  show shapeCast S512x256 y _ (ix2 r k) * shapeCast S512x256 y _ (ix2 r k) = _
  rw [shapeCast_self]

/-- The slot filled from block `d` of `x` is device `d`'s part of the row's sum of squares. -/
theorem pay2_block (X : (⟨⟨2, ![512, 1024]⟩, .f32⟩ : BufTy).Contents (Elt Ideal)) (d : Fin 4) (r : Fin 512) :
    k0_pay2 (F := Ideal) (xb X d) (ix3 (0 : Fin 1) (0 : Fin 1) r) = partSum X r d :=
  (pay2_apply (xb X d) r).trans (Finset.sum_congr rfl fun l _ => by rw [xb_apply]; rfl)

/-- The block times the scale, broadcast over the rows. -/
theorem pay3_apply (x : FVec Ideal S512x256 .f32) (g : FVec Ideal S256 .f32) (r : Fin 512) (j : Fin 256) :
    k0_pay3 (F := Ideal) (k0_pay1 x) g (ix2 r j) = x (ix2 r j) * g (ix1 j) := by
  unfold k0_pay3 k0_pay1
  show shapeCast S512x256 x _ (ix2 r j) * broadcastTo S512x256 (shapeCast S1x256 (shapeCast S256 g _) _) _ (ix2 r j) = _
  rw [shapeCast_self, broadcastTo_1b_ab_apply, shapeCast_a_1a_apply, shapeCast_self]

/-- The four slots added, the device's own first, times the word 0x3A800000. -/
theorem pay4_apply (p0 p1 p2 p3 : FVec Ideal S1x1x512 .f32) (r : Fin 512) :
    k0_pay4 (F := Ideal) p0 p1 p2 p3 (ix2 (0 : Fin 1) r)
      = (((p0 (ix3 (0 : Fin 1) (0 : Fin 1) r) + p1 (ix3 (0 : Fin 1) (0 : Fin 1) r)) + p2 (ix3 (0 : Fin 1) (0 : Fin 1) r))
          + p3 (ix3 (0 : Fin 1) (0 : Fin 1) r)) * Ideal.ofBits .f32 0x3A800000#32 := by
  unfold k0_pay4
  show (((shapeCast S1x512 p0 _ (ix2 (0 : Fin 1) r) + shapeCast S1x512 p1 _ (ix2 (0 : Fin 1) r))
      + shapeCast S1x512 p2 _ (ix2 (0 : Fin 1) r)) + shapeCast S1x512 p3 _ (ix2 (0 : Fin 1) r))
      * Ideal.ofBits .f32 0x3A800000#32 = _
  rw [shapeCast_1ab_ab_apply, shapeCast_1ab_ab_apply, shapeCast_1ab_ab_apply, shapeCast_1ab_ab_apply]

/-- The result: the scaled block times the reciprocal root, one per row, broadcast over the columns. -/
theorem pay6_apply (a : FVec Ideal S512x256 .f32) (b c : FVec Ideal S1x512 .f32) (r : Fin 512) (j : Fin 256) :
    k0_pay6 (F := Ideal) a b c (ix2 r j)
      = a (ix2 r j) * Ideal.rsqrt (b (ix2 (0 : Fin 1) r) + c (ix2 (0 : Fin 1) r)) := by
  unfold k0_pay6
  show a (ix2 r j) * broadcastTo S512x256 (shapeCast S512x1 _ _) _ (ix2 r j) = _
  rw [broadcastTo_a1_ab_apply, shapeCast_1a_a1_apply]
  rfl

/-- What a device stores at `(r, j)`, from its blocks and the four slots. -/
theorem devOut_apply (x : FVec Ideal S512x256 .f32) (g : FVec Ideal S256 .f32) (p0 p1 p2 p3 : FVec Ideal S1x1x512 .f32)
    (r : Fin 512) (j : Fin 256) :
    devOut x g p0 p1 p2 p3 (ix2 r j)
      = (x (ix2 r j) * g (ix1 j))
          * Ideal.rsqrt ((((p0 (ix3 (0 : Fin 1) (0 : Fin 1) r) + p1 (ix3 (0 : Fin 1) (0 : Fin 1) r))
              + p2 (ix3 (0 : Fin 1) (0 : Fin 1) r)) + p3 (ix3 (0 : Fin 1) (0 : Fin 1) r))
              * Ideal.ofBits .f32 0x3A800000#32 + Ideal.ofBits .f32 0x3727C5AC#32) := by
  unfold devOut
  rw [pay6_apply, pay3_apply, pay4_apply]
  rfl

end Kernel

/-! ## The two sides at an entry -/

section Entry
open Idealize.ShloMosaic.ValueIdx

/-- The bridge at the block's entry `(r, j)`. -/
theorem bridge_at (X : (⟨⟨2, ![512, 1024]⟩, .f32⟩ : BufTy).Contents (Elt Ideal))
    (Γ : (⟨⟨1, ![1024]⟩, .f32⟩ : BufTy).Contents (Elt Ideal)) (c : Fin 4) (r : Fin 512) (j : Fin 256) :
    (Layout.block ⟨2, ![512, 256]⟩ ⟨2, ![512, 1024]⟩ 1 4 c (Cert.ReferenceIdeal.Read.val_main_v12 (F := Ideal) X Γ)) (ix2 r j)
      = devOut (xb X c) (gb Γ c) (k0_pay2 (xb X c)) (k0_pay2 (xb X (shift c 3))) (k0_pay2 (xb X (shift c 2)))
          (k0_pay2 (xb X (shift c 1))) (ix2 r j) := by
  obtain ⟨e, he, hE⟩ := ofBits_eps
  refine (congrArg (Cert.ReferenceIdeal.Read.val_main_v12 (F := Ideal) X Γ) (tiles_idx2 _ c r j)).trans ?_
  refine ((ref_apply X Γ r (col c j)).trans ?_).trans (devOut_apply _ _ _ _ _ _ r j).symm
  rw [pay2_block, pay2_block, pay2_block, pay2_block, sum_parts, xb_apply, gb_apply, ofBits_1024, ofBits_inv1024, hE,
    div_sqrt_eq_mul_rsqrt _ (∑ k : Fin 1024, sqAt X r k) (Finset.sum_nonneg fun k _ => mul_self_nonneg' _) e he,
    mul_comm (Γ (ix1 (col c j))) (X (ix2 r (col c j)))]

end Entry

/-- Block `c` of the reference's result is what device `c` stores when slot `k` holds the row sums of squares of
    device `c - k`'s block. -/
theorem bridge (X : (⟨⟨2, ![512, 1024]⟩, .f32⟩ : BufTy).Contents (Elt Ideal)) (Γ : (⟨⟨1, ![1024]⟩, .f32⟩ : BufTy).Contents (Elt Ideal)) (c : Fin 4) :
    Layout.block ⟨2, ![512, 256]⟩ ⟨2, ![512, 1024]⟩ 1 4 c (Cert.ReferenceIdeal.Read.val_main_v12 (F := Ideal) X Γ)
      = devOut (xb X c) (gb Γ c) (k0_pay2 (xb X c)) (k0_pay2 (xb X (shift c 3))) (k0_pay2 (xb X (shift c 2))) (k0_pay2 (xb X (shift c 1))) := by
  funext i
  obtain ⟨r, j, rfl⟩ : ∃ (r : Fin 512) (j : Fin 256), i = ValueIdx.ix2 r j := ⟨i 0, i 1, ValueIdx.eq_ix2 i⟩
  exact bridge_at X Γ c r j

end Cert.Bridge

end
-- ==== Proof.lean ====
/-
  The certificate's claim. The kernel and its idealization run on the four devices and leave their arguments as launched; the
  reference runs on one. At the ideal instance the two agree: the reference's result is root-mean-square normalisation of the whole
  512 × 1024 array, and device `c` ends holding block `c` of it (columns 256 c to 256 c + 255), because the four slots of
  row sums of squares it has gathered add up to the whole row's, whichever device each came from.
-/
import proofs.«901008_g7700000000001009_dist_rmsnorm_colshard_i_m512_n256_v7x_i4_bf16_1_alg».proof.Defs
import proofs.«901008_g7700000000001009_dist_rmsnorm_colshard_i_m512_n256_v7x_i4_bf16_1_alg».proof.Proof.Gen.Kernel
import proofs.«901008_g7700000000001009_dist_rmsnorm_colshard_i_m512_n256_v7x_i4_bf16_1_alg».proof.Proof.Gen.Kernel.Skeleton
import proofs.«901008_g7700000000001009_dist_rmsnorm_colshard_i_m512_n256_v7x_i4_bf16_1_alg».proof.Proof.Gen.Kernel.Launch
import proofs.«901008_g7700000000001009_dist_rmsnorm_colshard_i_m512_n256_v7x_i4_bf16_1_alg».proof.Proof.Gen.Kernel.Points
import proofs.«901008_g7700000000001009_dist_rmsnorm_colshard_i_m512_n256_v7x_i4_bf16_1_alg».proof.Proof.Gen.Kernel.Frame
import proofs.«901008_g7700000000001009_dist_rmsnorm_colshard_i_m512_n256_v7x_i4_bf16_1_alg».proof.Proof.Gen.KernelIdeal
import proofs.«901008_g7700000000001009_dist_rmsnorm_colshard_i_m512_n256_v7x_i4_bf16_1_alg».proof.Proof.Gen.KernelIdeal.Skeleton
import proofs.«901008_g7700000000001009_dist_rmsnorm_colshard_i_m512_n256_v7x_i4_bf16_1_alg».proof.Proof.Gen.KernelIdeal.Launch
import proofs.«901008_g7700000000001009_dist_rmsnorm_colshard_i_m512_n256_v7x_i4_bf16_1_alg».proof.Proof.Gen.KernelIdeal.Points
import proofs.«901008_g7700000000001009_dist_rmsnorm_colshard_i_m512_n256_v7x_i4_bf16_1_alg».proof.Proof.Gen.KernelIdeal.Frame
import proofs.«901008_g7700000000001009_dist_rmsnorm_colshard_i_m512_n256_v7x_i4_bf16_1_alg».proof.Proof.Gen.ReferenceIdeal
import proofs.«901008_g7700000000001009_dist_rmsnorm_colshard_i_m512_n256_v7x_i4_bf16_1_alg».proof.Proof.Gen.Pre_finite_inputs_Kernel
import proofs.«901008_g7700000000001009_dist_rmsnorm_colshard_i_m512_n256_v7x_i4_bf16_1_alg».proof.Proof.Gen.Pre_finite_inputs_ReferenceIdeal
import proofs.«901008_g7700000000001009_dist_rmsnorm_colshard_i_m512_n256_v7x_i4_bf16_1_alg».proof.Proof.Gen.ReferenceIdeal.Run
import proofs.«901008_g7700000000001009_dist_rmsnorm_colshard_i_m512_n256_v7x_i4_bf16_1_alg».proof.Proof.Gen.ReferenceIdeal.Read
import proofs.«901008_g7700000000001009_dist_rmsnorm_colshard_i_m512_n256_v7x_i4_bf16_1_alg».proof.Proof.Kernel.Run
import proofs.«901008_g7700000000001009_dist_rmsnorm_colshard_i_m512_n256_v7x_i4_bf16_1_alg».proof.Proof.KernelIdeal.Run
import proofs.«901008_g7700000000001009_dist_rmsnorm_colshard_i_m512_n256_v7x_i4_bf16_1_alg».proof.Proof.KernelIdeal.Stage
import proofs.«901008_g7700000000001009_dist_rmsnorm_colshard_i_m512_n256_v7x_i4_bf16_1_alg».proof.Proof.Bridge
import Idealize.ShloMosaic.Adequacy
import Idealize.ShloMosaic.Init

noncomputable section

namespace Cert.Proof

open Idealize.ShloMosaic Idealize.SL.Sem

namespace Claims

/-- The kernel as printed runs and leaves its two arguments as launched: its run names the result too, which this claim drops. -/
theorem frame_Kernel : Cert.frame_Kernel (hKernel := Cert.Kernel.Gen.facts) (hPre_finite_inputs_Kernel := Cert.Pre_finite_inputs_Kernel.Gen.facts) :=
  fun m ρ _ => (θ_run (Cert.Kernel.defs (F := Bits)) _ _).mono (fun _ h c => ⟨(h c).2.1, (h c).2.2⟩) (Cert.KernelProof.run_main (F := Bits) m ρ)

/-- The same of its idealization. -/
theorem frame_KernelIdeal : Cert.frame_KernelIdeal (hKernelIdeal := Cert.KernelIdeal.Gen.facts) (hPre_finite_inputs_Kernel := Cert.Pre_finite_inputs_Kernel.Gen.facts) :=
  fun m ρ _ => (θ_run (Cert.KernelIdeal.defs (F := Ideal)) _ _).mono (fun _ h c => ⟨(h c).2.1, (h c).2.2⟩) (Cert.KernelIdealProof.run_main (F := Ideal) m ρ)

/-- The reference runs and leaves its two arguments as launched. -/
theorem frame_ReferenceIdeal : Cert.frame_ReferenceIdeal (hReferenceIdeal := Cert.ReferenceIdeal.Gen.facts) (hPre_finite_inputs_ReferenceIdeal := Cert.Pre_finite_inputs_ReferenceIdeal.Gen.facts) :=
  fun m ρ _ => (θ_run (Cert.ReferenceIdeal.defs (F := Ideal)) _ _).mono (fun _ h c => (h c).2) (Cert.ReferenceIdeal.Value.run (F := Ideal) m ρ)

/-- The idealization rewrote no operation. -/
theorem preserves_Kernel_KernelIdeal : Cert.preserves_Kernel_KernelIdeal := trivial

/-- The two mesh walks `c ↦ c + k` are one function. -/
theorem shift_eq (c : Fin 4) (k : ℕ) : Cert.KernelIdealProof.shift c k = Cert.Bridge.shift c k := rfl

/-- What device `c` stores, when every device's arguments are its blocks of the whole `X` and `Γ`: block `c` of the reference's
    value. Each device stages its own blocks, so the row sums in the four slots are those of the blocks of `c`, `c + 3`, `c + 2`,
    `c + 1`, and the bridge identifies the result. -/
theorem outAt_eq (m : (ℓ : Loc Cert.KernelIdeal.nD Cert.KernelIdeal.τ Cert.KernelIdeal.sig) → Buf (Elt Ideal) ℓ)
    (X : (⟨⟨2, ![512, 1024]⟩, .f32⟩ : BufTy).Contents (Elt Ideal)) (Γ : (⟨⟨1, ![1024]⟩, .f32⟩ : BufTy).Contents (Elt Ideal))
    (hagree : ∀ d : Dev Cert.KernelIdeal.nD,
      m ((d.tc : Thread Cert.KernelIdeal.nD Cert.KernelIdeal.τ).loc Cert.KernelIdeal.main_arg0) = Cert.Bridge.xb X d
      ∧ m ((d.tc : Thread Cert.KernelIdeal.nD Cert.KernelIdeal.τ).loc Cert.KernelIdeal.main_arg1) = Cert.Bridge.gb Γ d)
    (c : Dev Cert.KernelIdeal.nD) :
    Cert.KernelIdealProof.outAt m c
      = Layout.block ⟨2, ![512, 256]⟩ ⟨2, ![512, 1024]⟩ 1 4 c (Cert.ReferenceIdeal.Read.val_main_v12 (F := Ideal) X Γ) := by
  have hx : ∀ d : Dev Cert.KernelIdeal.nD, Cert.KernelIdealProof.xstg m d = Cert.Bridge.xb X d :=
    fun d => (Cert.KernelIdealProof.xstg_eq m d).trans (hagree d).1
  have hg : Cert.KernelIdealProof.gstg m c = Cert.Bridge.gb Γ c := (Cert.KernelIdealProof.gstg_eq m c).trans (hagree c).2
  unfold Cert.KernelIdealProof.outAt Cert.KernelIdealProof.rowSums
  rw [hx c, hx (Cert.KernelIdealProof.shift c 3), hx (Cert.KernelIdealProof.shift c 2), hx (Cert.KernelIdealProof.shift c 1), hg,
    shift_eq, shift_eq, shift_eq]
  exact (Cert.Bridge.bridge X Γ c).symm

/-- At the ideal instance, from memories where each device holds its blocks of the reference's arguments: both run, the reference
    ends holding its value, each device its block of that value, and all arguments are as launched. -/
theorem algebraic_KernelIdeal_ReferenceIdeal : Cert.algebraic_KernelIdeal_ReferenceIdeal (hKernelIdeal := Cert.KernelIdeal.Gen.facts)
    (hReferenceIdeal := Cert.ReferenceIdeal.Gen.facts) (hPre_finite_inputs_Kernel := Cert.Pre_finite_inputs_Kernel.Gen.facts) := by
  intro m ρ m' ρ' _ hagree
  refine ⟨Cert.ReferenceIdeal.Read.val_main_v12 (F := Ideal)
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run (Cert.KernelIdeal.defs (F := Ideal)) _ _).mono
      (fun _ h c => ⟨((h c).1).trans (outAt_eq m _ _ hagree c), (h c).2.1, (h c).2.2⟩)
      (Cert.KernelIdealProof.run_main (F := Ideal) m ρ)
  · exact (θ_run (Cert.ReferenceIdeal.defs (F := Ideal)) _ _).mono
      (fun _ h => ⟨((h 0).1).trans (Cert.ReferenceIdeal.Read.val_main_v12_eq _ _), (h 0).2.1, (h 0).2.2⟩)
      (Cert.ReferenceIdeal.Value.run (F := Ideal) m' ρ')

end Claims

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Claims.frame_Kernel, Claims.frame_KernelIdeal, Claims.frame_ReferenceIdeal, Claims.preserves_Kernel_KernelIdeal, Claims.algebraic_KernelIdeal_ReferenceIdeal⟩

end Cert.Proof

end
